-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x512 : Shape := ⟨2, ![4096, 512]⟩
abbrev S4096x4096 : Shape := ⟨2, ![4096, 4096]⟩
abbrev S4096 : Shape := ⟨1, ![4096]⟩
abbrev S4096x8192 : Shape := ⟨2, ![4096, 8192]⟩
abbrev S8192 : Shape := ⟨1, ![8192]⟩
abbrev S8192x2048 : Shape := ⟨2, ![8192, 2048]⟩
abbrev S2048 : Shape := ⟨1, ![2048]⟩
abbrev S2048x4 : Shape := ⟨2, ![2048, 4]⟩
abbrev S4 : Shape := ⟨1, ![4]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x8192 : S_.BroadcastsInDim S4096x8192 (![] : Fin 0 → Fin S4096x8192.rank)
  reducesTo_S4096x8192_S_d0_1 : S4096x8192.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_
  bcast_S_S2048x4 : S_.BroadcastsInDim S2048x4 (![] : Fin 0 → Fin S2048x4.rank)
  reducesTo_S2048x4_S_d0_1 : S2048x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S2048x4 .f32) (main_arg9 : FVec F S4 .f32) (main_v33 : IVec S_ 1) : IVec S_ 1 :=
  let main_v34 : FVec F S2048x4 .f32 := Host.absf main_arg8
  let main_cst_12 : FVec F S_ .f32 := constant S_ .f32 0x7F800000#32
  let main_v35 : FVec F S2048x4 .f32 := broadcastInDim S2048x4 ![] bcast_S_S2048x4 main_cst_12
  let main_v36 : IVec S2048x4 1 := cmpf .olt main_v34 main_v35
  let main_c_13 : IVec S_ 1 := constantI S_ 1 1#1
  let main_v37 : IVec S_ 1 := (fun x v => Host.reduce IntOp.andi x v reducesTo_S2048x4_S_d0_1 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S8192 .f32) (main_arg6 : FVec F S8192x2048 .f32) (main_arg7 : FVec F S2048 .f32) (main_arg8 : FVec F S2048x4 .f32) (main_arg9 : FVec F S4 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg6
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_v33

def fn {F : FTy → Type} [FloatOps F] (main_arg0 : FVec F S1024x4096 .f32) (main_arg1 : IVec S4096x512 32) (main_arg2 : FVec F S4096x4096 .f32) (main_arg3 : FVec F S4096 .f32) (main_arg4 : FVec F S4096x8192 .f32) (main_arg5 : FVec F S8192 .f32) (main_arg6 : FVec F S8192x2048 .f32) (main_arg7 : FVec F S2048 .f32) (main_arg8 : FVec F S2048x4 .f32) (main_arg9 : FVec F S4 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x8192 .f32 := Host.absf main_arg4
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg5 main_arg6 main_arg7 main_arg8 main_arg9 main_v13 main_v16
-- ==== Kernel.lean ====
abbrev S1024x4096 : Shape := ⟨2, ![1024, 4096]⟩
abbrev S4096x512 : Shape := ⟨2, ![4096, 512]⟩
abbrev S4096x4096 : Shape := ⟨2, ![4096, 4096]⟩
abbrev S4096 : Shape := ⟨1, ![4096]⟩
abbrev S4096x8192 : Shape := ⟨2, ![4096, 8192]⟩
abbrev S8192 : Shape := ⟨1, ![8192]⟩
abbrev S8192x2048 : Shape := ⟨2, ![8192, 2048]⟩
abbrev S2048 : Shape := ⟨1, ![2048]⟩
abbrev S2048x4 : Shape := ⟨2, ![2048, 4]⟩
abbrev S4 : Shape := ⟨1, ![4]⟩
abbrev S4096x512x8 : Shape := ⟨3, ![4096, 512, 8]⟩
abbrev S512x512 : Shape := ⟨2, ![512, 512]⟩
abbrev S_ : Shape := ⟨0, ![]⟩
abbrev S8x16 : Shape := ⟨2, ![8, 16]⟩
abbrev S512x1x512x1 : Shape := ⟨4, ![512, 1, 512, 1]⟩
abbrev S1x8x1x16 : Shape := ⟨4, ![1, 8, 1, 16]⟩
abbrev S512x8x512x16 : Shape := ⟨4, ![512, 8, 512, 16]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩
abbrev S1x8192 : Shape := ⟨2, ![1, 8192]⟩
abbrev S1024x8192 : Shape := ⟨2, ![1024, 8192]⟩
abbrev S1x2048 : Shape := ⟨2, ![1, 2048]⟩
abbrev S1024x2048 : Shape := ⟨2, ![1024, 2048]⟩
abbrev S1x4 : Shape := ⟨2, ![1, 4]⟩
abbrev S1024x4 : Shape := ⟨2, ![1024, 4]⟩

abbrev nBuf : Space → Nat
  | .hbm => 43
  | .vmem => 32
  | .smem => 0
  | _ => 0

abbrev bufTy : (tb : Table) → Fin (tcTables nBuf tb) → BufTy
  | .hbm, ⟨0, _⟩ => ⟨S1024x4096, .f32⟩
  | .hbm, ⟨1, _⟩ => ⟨S4096x512, .i32⟩
  | .hbm, ⟨2, _⟩ => ⟨S4096x4096, .f32⟩
  | .hbm, ⟨3, _⟩ => ⟨S4096, .f32⟩
  | .hbm, ⟨4, _⟩ => ⟨S4096x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S4096x512, .f32⟩
  | .hbm, ⟨11, _⟩ => ⟨S4096x512x8, .f32⟩
  | .hbm, ⟨12, _⟩ => ⟨S4096x4096, .f32⟩
  | .hbm, ⟨13, _⟩ => ⟨S4096x4096, .f32⟩
  | .hbm, ⟨14, _⟩ => ⟨S4096x4096, .bf16⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .f32⟩
  | .hbm, ⟨22, _⟩ => ⟨S_, .f32⟩
  | .hbm, ⟨23, _⟩ => ⟨S8x16, .f32⟩
  | .hbm, ⟨24, _⟩ => ⟨S512x1x512x1, .f32⟩
  | .hbm, ⟨25, _⟩ => ⟨S1x8x1x16, .f32⟩
  | .hbm, ⟨26, _⟩ => ⟨S512x8x512x16, .f32⟩
  | .hbm, ⟨27, _⟩ => ⟨S512x8x512x16, .f32⟩
  | .hbm, ⟨28, _⟩ => ⟨S512x8x512x16, .f32⟩
  | .hbm, ⟨29, _⟩ => ⟨S4096x8192, .f32⟩
  | .hbm, ⟨30, _⟩ => ⟨S4096x8192, .f32⟩
  | .hbm, ⟨31, _⟩ => ⟨S4096x8192, .bf16⟩
  | .hbm, ⟨32, _⟩ => ⟨S1024x4096, .bf16⟩
  | .hbm, ⟨33, _⟩ => ⟨S8192x2048, .bf16⟩
  | .hbm, ⟨34, _⟩ => ⟨S2048x4, .bf16⟩
  | .hbm, ⟨35, _⟩ => ⟨S1x4096, .f32⟩
  | .hbm, ⟨36, _⟩ => ⟨S1024x4096, .bf16⟩
  | .hbm, ⟨37, _⟩ => ⟨S1x8192, .f32⟩
  | .hbm, ⟨38, _⟩ => ⟨S1024x8192, .bf16⟩
  | .hbm, ⟨39, _⟩ => ⟨S1x2048, .f32⟩
  | .hbm, ⟨40, _⟩ => ⟨S1024x2048, .bf16⟩
  | .hbm, ⟨41, _⟩ => ⟨S1x4, .f32⟩
  | .hbm, ⟨42, _⟩ => ⟨S1024x4, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S1024x2048, .bf16⟩
  | .local _ .vmem, ⟨28, _⟩ => ⟨S2048x4, .bf16⟩
  | .local _ .vmem, ⟨29, _⟩ => ⟨S1x4, .f32⟩
  | .local _ .vmem, ⟨30, _⟩ => ⟨S1024x4, .f32⟩
  | .local _ .vmem, ⟨31, _⟩ => ⟨S1024x4, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 8, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 2, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S1024x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S2048x4 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 1 → Memref sig .tc .vmem S1024x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, false]

class Facts₀ : Prop where
  bcast_S4096x512_S4096x512x8_0_1 : S4096x512.BroadcastsInDim S4096x512x8 (![0, 1] : Fin 2 → Fin S4096x512x8.rank)
  shapeCasts_S4096x512x8_S4096x4096 : S4096x512x8.ShapeCasts S4096x4096
  bitsLt_bf16_f32 : FTy.bits .bf16 < FTy.bits .f32
  bcast_S_S512x512 : S_.BroadcastsInDim S512x512 (![] : Fin 0 → Fin S512x512.rank)
  bcast_S_S8x16 : S_.BroadcastsInDim S8x16 (![] : Fin 0 → Fin S8x16.rank)
  bcast_S512x512_S512x1x512x1_0_2 : S512x512.BroadcastsInDim S512x1x512x1 (![0, 2] : Fin 2 → Fin S512x1x512x1.rank)
  bcast_S8x16_S1x8x1x16_1_3 : S8x16.BroadcastsInDim S1x8x1x16 (![1, 3] : Fin 2 → Fin S1x8x1x16.rank)
  bcast_S512x1x512x1_S512x8x512x16_0_1_2_3 : S512x1x512x1.BroadcastsInDim S512x8x512x16 (![0, 1, 2, 3] : Fin 4 → Fin S512x8x512x16.rank)
  bcast_S1x8x1x16_S512x8x512x16_0_1_2_3 : S1x8x1x16.BroadcastsInDim S512x8x512x16 (![0, 1, 2, 3] : Fin 4 → Fin S512x8x512x16.rank)
  shapeCasts_S512x8x512x16_S4096x8192 : S512x8x512x16.ShapeCasts S4096x8192
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192_S1x8192 : S8192.ShapeCasts S1x8192
  shapeCasts_S2048_S1x2048 : S2048.ShapeCasts S1x2048
  shapeCasts_S4_S1x4 : S4.ShapeCasts S1x4
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S1024x4 : S1x4.Broadcasts S1024x4
  dot_S512x1024_S1024x1024_S512x1024_1_0_0_1_n_n_wf : DotDims.WF S512x1024 S1024x1024 S512x1024 [1] [0] [0] [1] [] []
  dot_S1024x2048_S2048x4_S1024x4_1_0_0_1_n_n_wf : DotDims.WF S1024x2048 S2048x4 S1024x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x4096.size a
  hwx0_0 : ∀ i : grid0.Coords, EltTy.bits .bf16 = 32 ∨ (Rect.block (s := S1024x4096) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S1024x4096.size a
  hwx0_3 : ∀ i : grid0.Coords, EltTy.bits .bf16 = 32 ∨ (Rect.block (s := S1024x4096) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x4096.size a
  hwx1_0 : ∀ i : grid1.Coords, EltTy.bits .bf16 = 32 ∨ (Rect.block (s := S1024x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x8192.size a
  hwx1_1 : ∀ i : grid1.Coords, EltTy.bits .bf16 = 32 ∨ (Rect.block (s := S4096x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S1024x8192.size a
  hwx1_3 : ∀ i : grid1.Coords, EltTy.bits .bf16 = 32 ∨ (Rect.block (s := S1024x8192) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S1024x8192.size a
  hwx2_0 : ∀ i : grid2.Coords, EltTy.bits .bf16 = 32 ∨ (Rect.block (s := S1024x8192) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x2048.size a
  hwx2_1 : ∀ i : grid2.Coords, EltTy.bits .bf16 = 32 ∨ (Rect.block (s := S8192x2048) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x2048.size a
  hwx2_2 : ∀ i : grid2.Coords, EltTy.bits .f32 = 32 ∨ (Rect.block (s := S1x2048) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S1024x2048.size a
  hwx2_3 : ∀ i : grid2.Coords, EltTy.bits .bf16 = 32 ∨ (Rect.block (s := S1024x2048) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S1024x2048.size a
  hwx3_0 : ∀ i : grid3.Coords, EltTy.bits .bf16 = 32 ∨ (Rect.block (s := S1024x2048) S1024x2048.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S2048x4.size a ≤ S2048x4.size a
  hwx3_1 : ∀ i : grid3.Coords, EltTy.bits .bf16 = 32 ∨ (Rect.block (s := S2048x4) S2048x4.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1024x4.size a ≤ S1024x4.size a
  hwx3_3 : ∀ i : grid3.Coords, EltTy.bits .f32 = 32 ∨ (Rect.block (s := S1024x4) S1024x4.size (cc3_transform_3 i) (hinb3_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x2048_S2048x4_S1024x4_1_0_0_1_n_n : DotDims S1024x2048 S2048x4 S1024x4 where
  lhsContracting := [1]
  rhsContracting := [0]
  lhsNonContracting := [0]
  rhsNonContracting := [1]
  lhsBatch := []
  rhsBatch := []
  wf := dot_S1024x2048_S2048x4_S1024x4_1_0_0_1_n_n_wf

abbrev win0_0 : Pipeline.Window sig grid0 :=
  Pipeline.Window.ofSpec (Memref.whole main_v15) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v19) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v21) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v23) S1024x2048.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v17) S2048x4.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x4.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S1024x4.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x512 : Shape := ⟨2, ![4096, 512]⟩
abbrev S4096x4096 : Shape := ⟨2, ![4096, 4096]⟩
abbrev S4096 : Shape := ⟨1, ![4096]⟩
abbrev S4096x8192 : Shape := ⟨2, ![4096, 8192]⟩
abbrev S8192 : Shape := ⟨1, ![8192]⟩
abbrev S8192x2048 : Shape := ⟨2, ![8192, 2048]⟩
abbrev S2048 : Shape := ⟨1, ![2048]⟩
abbrev S2048x4 : Shape := ⟨2, ![2048, 4]⟩
abbrev S4 : Shape := ⟨1, ![4]⟩
abbrev S4096x512x8 : Shape := ⟨3, ![4096, 512, 8]⟩
abbrev S512x512 : Shape := ⟨2, ![512, 512]⟩
abbrev S_ : Shape := ⟨0, ![]⟩
abbrev S8x16 : Shape := ⟨2, ![8, 16]⟩
abbrev S512x1x512x1 : Shape := ⟨4, ![512, 1, 512, 1]⟩
abbrev S1x8x1x16 : Shape := ⟨4, ![1, 8, 1, 16]⟩
abbrev S512x8x512x16 : Shape := ⟨4, ![512, 8, 512, 16]⟩
abbrev S1x4096 : Shape := ⟨2, ![1, 4096]⟩
abbrev S1024x8192 : Shape := ⟨2, ![1024, 8192]⟩
abbrev S1x8192 : Shape := ⟨2, ![1, 8192]⟩
abbrev S1024x2048 : Shape := ⟨2, ![1024, 2048]⟩
abbrev S1x2048 : Shape := ⟨2, ![1, 2048]⟩
abbrev S1024x4 : Shape := ⟨2, ![1024, 4]⟩
abbrev S1x4 : Shape := ⟨2, ![1, 4]⟩

abbrev nBuf : Space → Nat
  | .hbm => 49
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x512, .i32⟩
  | .hbm, ⟨2, _⟩ => ⟨S4096x4096, .f32⟩
  | .hbm, ⟨3, _⟩ => ⟨S4096, .f32⟩
  | .hbm, ⟨4, _⟩ => ⟨S4096x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S4096x512, .f32⟩
  | .hbm, ⟨11, _⟩ => ⟨S4096x512x8, .f32⟩
  | .hbm, ⟨12, _⟩ => ⟨S4096x4096, .f32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S_, .f32⟩
  | .hbm, ⟨21, _⟩ => ⟨S8x16, .f32⟩
  | .hbm, ⟨22, _⟩ => ⟨S512x1x512x1, .f32⟩
  | .hbm, ⟨23, _⟩ => ⟨S1x8x1x16, .f32⟩
  | .hbm, ⟨24, _⟩ => ⟨S512x8x512x16, .f32⟩
  | .hbm, ⟨25, _⟩ => ⟨S512x8x512x16, .f32⟩
  | .hbm, ⟨26, _⟩ => ⟨S512x8x512x16, .f32⟩
  | .hbm, ⟨27, _⟩ => ⟨S4096x8192, .f32⟩
  | .hbm, ⟨28, _⟩ => ⟨S4096x4096, .f32⟩
  | .hbm, ⟨29, _⟩ => ⟨S1024x4096, .f32⟩
  | .hbm, ⟨30, _⟩ => ⟨S1x4096, .f32⟩
  | .hbm, ⟨31, _⟩ => ⟨S1024x4096, .f32⟩
  | .hbm, ⟨32, _⟩ => ⟨S1024x4096, .f32⟩
  | .hbm, ⟨33, _⟩ => ⟨S4096x8192, .f32⟩
  | .hbm, ⟨34, _⟩ => ⟨S1024x8192, .f32⟩
  | .hbm, ⟨35, _⟩ => ⟨S1x8192, .f32⟩
  | .hbm, ⟨36, _⟩ => ⟨S1024x8192, .f32⟩
  | .hbm, ⟨37, _⟩ => ⟨S1024x8192, .f32⟩
  | .hbm, ⟨38, _⟩ => ⟨S1024x2048, .f32⟩
  | .hbm, ⟨39, _⟩ => ⟨S1x2048, .f32⟩
  | .hbm, ⟨40, _⟩ => ⟨S1024x2048, .f32⟩
  | .hbm, ⟨41, _⟩ => ⟨S1024x2048, .f32⟩
  | .hbm, ⟨42, _⟩ => ⟨S_, .f32⟩
  | .hbm, ⟨43, _⟩ => ⟨S1024x2048, .f32⟩
  | .hbm, ⟨44, _⟩ => ⟨S1024x2048, .f32⟩
  | .hbm, ⟨45, _⟩ => ⟨S1024x4, .f32⟩
  | .hbm, ⟨46, _⟩ => ⟨S1x4, .f32⟩
  | .hbm, ⟨47, _⟩ => ⟨S1024x4, .f32⟩
  | .hbm, ⟨48, _⟩ => ⟨S1024x4, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  bcast_S4096x512_S4096x512x8_0_1 : S4096x512.BroadcastsInDim S4096x512x8 (![0, 1] : Fin 2 → Fin S4096x512x8.rank)
  shapeCasts_S4096x512x8_S4096x4096 : S4096x512x8.ShapeCasts S4096x4096
  bcast_S_S512x512 : S_.BroadcastsInDim S512x512 (![] : Fin 0 → Fin S512x512.rank)
  bcast_S_S8x16 : S_.BroadcastsInDim S8x16 (![] : Fin 0 → Fin S8x16.rank)
  bcast_S512x512_S512x1x512x1_0_2 : S512x512.BroadcastsInDim S512x1x512x1 (![0, 2] : Fin 2 → Fin S512x1x512x1.rank)
  bcast_S8x16_S1x8x1x16_1_3 : S8x16.BroadcastsInDim S1x8x1x16 (![1, 3] : Fin 2 → Fin S1x8x1x16.rank)
  bcast_S512x1x512x1_S512x8x512x16_0_1_2_3 : S512x1x512x1.BroadcastsInDim S512x8x512x16 (![0, 1, 2, 3] : Fin 4 → Fin S512x8x512x16.rank)
  bcast_S1x8x1x16_S512x8x512x16_0_1_2_3 : S1x8x1x16.BroadcastsInDim S512x8x512x16 (![0, 1, 2, 3] : Fin 4 → Fin S512x8x512x16.rank)
  shapeCasts_S512x8x512x16_S4096x8192 : S512x8x512x16.ShapeCasts S4096x8192
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  dot_S1024x4096_S4096x4096_S1024x4096_1_0_0_1_n_n_wf : DotDims.WF S1024x4096 S4096x4096 S1024x4096 [1] [0] [0] [1] [] []
  dot_S1024x4096_S4096x8192_S1024x8192_1_0_0_1_n_n_wf : DotDims.WF S1024x4096 S4096x8192 S1024x8192 [1] [0] [0] [1] [] []
  dot_S1024x8192_S8192x2048_S1024x2048_1_0_0_1_n_n_wf : DotDims.WF S1024x8192 S8192x2048 S1024x2048 [1] [0] [0] [1] [] []
  dot_S1024x2048_S2048x4_S1024x4_1_0_0_1_n_n_wf : DotDims.WF S1024x2048 S2048x4 S1024x4 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf
def dot_S1024x4096_S4096x8192_S1024x8192_1_0_0_1_n_n : DotDims S1024x4096 S4096x8192 S1024x8192 where
  lhsContracting := [1]
  rhsContracting := [0]
  lhsNonContracting := [0]
  rhsNonContracting := [1]
  lhsBatch := []
  rhsBatch := []
  wf := dot_S1024x4096_S4096x8192_S1024x8192_1_0_0_1_n_n_wf
def dot_S1024x8192_S8192x2048_S1024x2048_1_0_0_1_n_n : DotDims S1024x8192 S8192x2048 S1024x2048 where
  lhsContracting := [1]
  rhsContracting := [0]
  lhsNonContracting := [0]
  rhsNonContracting := [1]
  lhsBatch := []
  rhsBatch := []
  wf := dot_S1024x8192_S8192x2048_S1024x2048_1_0_0_1_n_n_wf
def dot_S1024x2048_S2048x4_S1024x4_1_0_0_1_n_n : DotDims S1024x2048 S2048x4 S1024x4 where
  lhsContracting := [1]
  rhsContracting := [0]
  lhsNonContracting := [0]
  rhsNonContracting := [1]
  lhsBatch := []
  rhsBatch := []
  wf := dot_S1024x2048_S2048x4_S1024x4_1_0_0_1_n_n_wf

class Facts : Prop extends Facts₀ where

variable [Facts]
-- ==== Proof.K.R0Base.lean ====
/- Region 0 of program Kernel, laid out from region 0's hand-written module of the idealized program (the template named above)
   by substituting the region's number, its grid's numbers (32 points, the contraction block is t % 4, the last is 3)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The accumulator is reset at this point: the contraction block is the first. -/
abbrev isFirst0 (i : grid0.Coords) : Prop := (Scalar.cmpi .ne (Scalar.extui (Scalar.cmpi .eq (BitVec.ofNat 32 (i 2).val) 0#32)) 0#32) = 1#1
/-- The output block is stored at this point: the contraction block is the last. -/
abbrev isLast0 (i : grid0.Coords) : Prop := k0_cond2 i = 1#1

theorem isFirst0_iff : ∀ t : Fin cfg0.N, isFirst0 (grid0.coords t) ↔ t.val % 4 = 0 :=
  (by decide +kernel : ∀ t : Fin grid0.N, isFirst0 (grid0.coords t) ↔ t.val % 4 = 0)
theorem isLast0_iff : ∀ t : Fin cfg0.N, isLast0 (grid0.coords t) ↔ t.val % 4 = 3 :=
  (by decide +kernel : ∀ t : Fin grid0.N, isLast0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last contraction block nothing is stored into the output block: the window is idle there, -/
theorem idle0_3 : ∀ t : Fin cfg0.N, ¬isLast0 (grid0.coords t) → cfg0.idle 3 (grid0.coords t) = true := by decide +kernel
/-- and it is not written back there. -/
theorem noFlush0_3 : ∀ t : Fin cfg0.N, ¬isLast0 (grid0.coords t) → (cfg0.win 3).flush t = false := by decide +kernel
/-- At the last contraction block the output block is stored. -/
theorem live0_3 : ∀ t : Fin cfg0.N, isLast0 (grid0.coords t) → cfg0.idle 3 (grid0.coords t) = false := by decide +kernel

/-! ## The staging memrefs the body is called with, and the accumulator -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
/-- The f32 accumulator: a whole scoped buffer of the kernel's own, passed beside the windows. -/
abbrev acc0 : Memref sig .tc .vmem S512x1024 .f32 := Memref.whole cc0_scratch0
/-- The accumulator as a view: its contents are stated through it. -/
abbrev accV0 : View sig .tc .vmem S512x1024 .f32 := acc0.view
/-- One staging buffer of the output window, through which an output block's contents are stated. -/
abbrev outV0 : View sig .tc .vmem S512x1024 .bf16 := (Memref.whole cc0_stg3_0 : Memref sig .tc .vmem S512x1024 .bf16).view

/-! ## The windows' blocks at the region's entry contents -/

section Entry
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. (The bias row is fetched only when the output's column block changes.) -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The region's invariant before its first point, opened at the accumulator -/

/-- The scoped buffers no window of this region stages, the generator register beside them: the accumulator whole
    at some contents, the other scoped buffers unopened, the register at some state. -/
theorem PhiA0_eq (c : Dev nD) :
    (Pipeline.ΦA spec0 c : sProp 𝕄)
      = iprop(iprop((∃ d, owns (c : Thread nD τ) acc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [acc0, owns_whole]; try rfl

end Cert.Kernel.Hand

end
-- ==== Proof.K.R0Runs.lean ====
/- Region 0 of program Kernel, laid out from region 0's hand-written module of the idealized program (the template named above)
   by substituting the region's number, its grid's numbers (32 points, the contraction block is t % 4, the last is 3)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R0Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST contraction block (k = 0 ≠ last): the accumulator, at anything, is reset and then takes the first product;
    the output block is not touched. -/
noncomputable def run0_first (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst0 i) (hl : ¬isLast0 i) (x : Vec F S512x1024 .bf16) (w : Vec F S1024x1024 .bf16) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc0__mm_kernel i arg3 harg3 arg4 harg4 arg5 harg5 arg6 harg6 arg7 harg7) K } := by
  refine ⟨?_, fun b o E K => ?run⟩
  case run =>
    simp only [cc0__mm_kernel_eq_skeleton]; unfold cc0__mm_kernel_skel
    unfold owns
    iintro ⟨⟨%f3, %hf3, H3⟩, ⟨%f4, %hf4, H4⟩, ⟨%f5, %hf5, H5⟩, ⟨%f6, %hf6, H6⟩, ⟨%ds, %fs, -, HS⟩, Hk⟩
    obtain rfl := harg3.eq_unread hf3; obtain rfl := harg4.eq_unread hf4; obtain rfl := harg5.eq_unread hf5; obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- A MIDDLE contraction block (neither first nor last): the accumulator, at what the point before left (`xs`),
    takes this block's product; the output block is not touched. -/
noncomputable def run0_mid (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst0 i) (hl : ¬isLast0 i) (x : Vec F S512x1024 .bf16) (w : Vec F S1024x1024 .bf16) (xs : Vec F S512x1024 .f32) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ owns (c : Thread nD τ) arg7 fullShare xs
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc0__mm_kernel i arg3 harg3 arg4 harg4 arg5 harg5 arg6 harg6 arg7 harg7) K } := by
  refine ⟨?_, fun b o E K => ?run⟩
  case run =>
    simp only [cc0__mm_kernel_eq_skeleton]; unfold cc0__mm_kernel_skel
    unfold owns
    iintro ⟨⟨%f3, %hf3, H3⟩, ⟨%f4, %hf4, H4⟩, ⟨%f5, %hf5, H5⟩, ⟨%f6, %hf6, H6⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- The LAST contraction block (k = 3 ≠ first): the accumulator, at what the point before left, takes the last product,
    and accumulator + bias row, rounded, is stored over the whole output block (which may hold anything before). -/
noncomputable def run0_last (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst0 i) (hl : isLast0 i) (x : Vec F S512x1024 .bf16) (w : Vec F S1024x1024 .bf16) (b : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.Kernel.Hand

end
-- ==== Proof.K.R0Dat.lean ====
/- Region 0 of program Kernel, laid out from region 0's hand-written module of the idealized program (the template named above)
   by substituting the region's number, its grid's numbers (32 points, the contraction block is t % 4, the last is 3)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R0Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What each case leaves, as its stores read back -/

/-- The accumulator after a first block: the run's stores into it, read back. -/
def acc0_first (c : Dev nD) (t : Fin cfg0.N) (hf : isFirst0 (grid0.coords t)) (hl : ¬isLast0 (grid0.coords t)) : Vec F S512x1024 .f32 :=
  accV0.read (Elt F) (accV0.writes (Elt F) accV0.junk (run0_first c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t)).1)
/-- Those stores cover the accumulator. -/
theorem acc0_first_cover (c : Dev nD) (t : Fin cfg0.N) (hf : isFirst0 (grid0.coords t)) (hl : ¬isLast0 (grid0.coords t)) (y : S512x1024.Idx) :
    ∃ pc ∈ (run0_first c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t)).1, y ∈ pc.1.set :=
  View.cover_of_tiledL _ S512x1024.size (by sl_kernel_rfl) y

/-- The accumulator after a middle block, over what the point before left (`xs`). -/
def acc0_mid (c : Dev nD) (t : Fin cfg0.N) (hf : ¬isFirst0 (grid0.coords t)) (hl : ¬isLast0 (grid0.coords t)) (xs : Vec F S512x1024 .f32) : Vec F S512x1024 .f32 :=
  accV0.read (Elt F) (accV0.writes (Elt F) accV0.junk (run0_mid c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) xs).1)
theorem acc0_mid_cover (c : Dev nD) (t : Fin cfg0.N) (hf : ¬isFirst0 (grid0.coords t)) (hl : ¬isLast0 (grid0.coords t)) (xs : Vec F S512x1024 .f32) (y : S512x1024.Idx) :
    ∃ pc ∈ (run0_mid c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) xs).1, y ∈ pc.1.set :=
  View.cover_of_tiledL _ S512x1024.size (by sl_kernel_rfl) y

/-- The accumulator after a last block, over what the point before left. -/
def acc0_last (c : Dev nD) (t : Fin cfg0.N) (hf : ¬isFirst0 (grid0.coords t)) (hl : isLast0 (grid0.coords t)) (xs : Vec F S512x1024 .f32) : Vec F S512x1024 .f32 :=
  accV0.read (Elt F) (accV0.writes (Elt F) accV0.junk (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).2.1)
theorem acc0_last_cover (c : Dev nD) (t : Fin cfg0.N) (hf : ¬isFirst0 (grid0.coords t)) (hl : isLast0 (grid0.coords t)) (xs : Vec F S512x1024 .f32) (y : S512x1024.Idx) :
    ∃ pc ∈ (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).2.1, y ∈ pc.1.set :=
  View.cover_of_tiledL _ S512x1024.size (by sl_kernel_rfl) y
/-- The output block a last block stores. -/
def out0_last (c : Dev nD) (t : Fin cfg0.N) (hf : ¬isFirst0 (grid0.coords t)) (hl : isLast0 (grid0.coords t)) (xs : Vec F S512x1024 .f32) : Vec F S512x1024 .bf16 :=
  outV0.read (Elt F) (outV0.writes (Elt F) outV0.junk (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).1)
theorem out0_last_cover (c : Dev nD) (t : Fin cfg0.N) (hf : ¬isFirst0 (grid0.coords t)) (hl : isLast0 (grid0.coords t)) (xs : Vec F S512x1024 .f32) (y : S512x1024.Idx) :
    ∃ pc ∈ (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).1, y ∈ pc.1.set :=
  View.cover_of_tiledL _ S512x1024.size (by sl_kernel_rfl) y
/-- Where nothing is stored into the output block its buffer's contents are not named: nothing consults them (the
    window is neither written back there nor read at the next point). -/
def out0_idle : Vec F S512x1024 .bf16 := outV0.read (Elt F) outV0.junk

/-! ## The accumulation, point by point -/

/-- What the output block's staging buffer and the accumulator hold after the body at position `n`. -/
def outsAt0 (c : Dev nD) : (n : ℕ) → n < cfg0.N → Vec F S512x1024 .bf16 × Vec F S512x1024 .f32
  | 0, hn => (out0_idle, acc0_first V c ⟨0, hn⟩ ((isFirst0_iff ⟨0, hn⟩).mpr (Nat.zero_mod _)) (fun h => by have := (isLast0_iff ⟨0, hn⟩).mp h; (try dsimp only at this); omega))
  | n + 1, hn =>
    if hka : (n + 1) % 4 = 0 then
      (out0_idle, acc0_first V c ⟨n + 1, hn⟩ ((isFirst0_iff ⟨n + 1, hn⟩).mpr hka) (fun h => by have := (isLast0_iff ⟨n + 1, hn⟩).mp h; (try dsimp only at this); omega))
    else if hkb : (n + 1) % 4 = 3 then
      (out0_last V c ⟨n + 1, hn⟩ (fun h => hka ((isFirst0_iff ⟨n + 1, hn⟩).mp h)) ((isLast0_iff ⟨n + 1, hn⟩).mpr hkb) (outsAt0 c n (Nat.lt_of_succ_lt hn)).2,
       acc0_last V c ⟨n + 1, hn⟩ (fun h => hka ((isFirst0_iff ⟨n + 1, hn⟩).mp h)) ((isLast0_iff ⟨n + 1, hn⟩).mpr hkb) (outsAt0 c n (Nat.lt_of_succ_lt hn)).2)
    else
      (out0_idle, acc0_mid V c ⟨n + 1, hn⟩ (fun h => hka ((isFirst0_iff ⟨n + 1, hn⟩).mp h)) (fun h => hkb ((isLast0_iff ⟨n + 1, hn⟩).mp h)) (outsAt0 c n (Nat.lt_of_succ_lt hn)).2)

theorem outsAt0_first (c : Dev nD) (t : Fin cfg0.N) (hka : t.val % 4 = 0) :
    outsAt0 V c t.val t.isLt = (out0_idle, acc0_first V c t ((isFirst0_iff t).mpr hka) (fun h => by have := (isLast0_iff t).mp h; omega)) := by
  obtain ⟨n, hn⟩ := t
  cases n with
  | zero => rfl
  | succ n => exact (dif_pos hka).trans rfl

theorem outsAt0_mid (c : Dev nD) (t : Fin cfg0.N) (hka : ¬t.val % 4 = 0) (hkb : ¬t.val % 4 = 3) :
    outsAt0 V c t.val t.isLt = (out0_idle, acc0_mid V c t (fun h => hka ((isFirst0_iff t).mp h)) (fun h => hkb ((isLast0_iff t).mp h)) (outsAt0 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_neg hkb).trans rfl)

theorem outsAt0_last (c : Dev nD) (t : Fin cfg0.N) (hka : ¬t.val % 4 = 0) (hkb : t.val % 4 = 3) :
    outsAt0 V c t.val t.isLt = (out0_last V c t (fun h => hka ((isFirst0_iff t).mp h)) ((isLast0_iff t).mpr hkb) (outsAt0 V c (t.val - 1) (Nat.lt_of_le_of_lt (Nat.sub_le _ _) t.isLt)).2,
      acc0_last V c t (fun h => hka ((isFirst0_iff t).mp h)) ((isLast0_iff t).mpr hkb) (outsAt0 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_pos hkb).trans rfl)

/-! ## The invariant: the accumulator carried from point to point -/

/-- Before position `n`: at the region's entry the scoped buffers no window stages at anything and the generator
    register at some state; afterwards the same with the accumulator at what the point before left in it. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which case the point is in;
    the invariant hands the body the accumulator (at anything before the first point, else at what the point before
    left) and takes it back at this point's contents; an idle output buffer is handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 32 := lt_of_lt_of_eq t.isLt (show cfg0.N = 32 from N_0)
  by_cases hka : t.val % 4 = 0
  · have hf : isFirst0 (grid0.coords t) := (isFirst0_iff t).mpr hka
    have hl : ¬isLast0 (grid0.coords t) := fun h => by have := (isLast0_iff t).mp h; omega
    rw [Dat.leavesExact_idle (dat0 V c) 3 t (idle0_3 t hl) (noFlush0_3 t hl)]
    rw [outsAt0_first V c t hka]
    unfold acc0_first; (try dsimp only)
    by_cases hz : t.val = 0
    · rw [PhiS0_castSucc V c t, PhiS0_zero V c _ _ hz, PhiA0_eq]
      iintro ⟨⟨⟨HS, Hrest⟩, Hg⟩, Ho, ⟨%da, Ha⟩, ⟨%db, Hb⟩, ⟨%dc, Hc⟩, ⟨%dd, Hd⟩⟩
      iapply ((run0_first c (grid0.coords t) _ _ _ _ _ _ _ _ _ _ hf hl (iblk0 V c 0 t) (iblk0 V c 1 t)).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc0_first_cover V c t hf hl)
          iexact Hrest
        iexact Hg
      isplitl [Ho]; · iexact Ho
      isplitl [Ha]; · iexact Ha
      isplitl [Hb]; · iexact Hb
      isplitl [Hc]; · iexact Hc
      iexists _; iexact Hd
    · rw [PhiS0_castSucc V c t, PhiS0_pos V c _ _ hz]
      iintro ⟨⟨⟨HS, Hrest⟩, Hg⟩, Ho, ⟨%da, Ha⟩, ⟨%db, Hb⟩, ⟨%dc, Hc⟩, ⟨%dd, Hd⟩⟩
      iapply ((run0_first c (grid0.coords t) _ _ _ _ _ _ _ _ _ _ hf hl (iblk0 V c 0 t) (iblk0 V c 1 t)).2 _ _ Set.univ _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc0_first_cover V c t hf hl)
          iexact Hrest
        iexact Hg
      isplitl [Ho]; · iexact Ho
      isplitl [Ha]; · iexact Ha
      isplitl [Hb]; · iexact Hb
      isplitl [Hc]; · iexact Hc
      iexists _; iexact Hd
  · have hf : ¬isFirst0 (grid0.coords t) := fun h => hka ((isFirst0_iff t).mp h)
    have hz : t.val ≠ 0 := fun h => hka (by rw [h])
    by_cases hkb : t.val % 4 = 3
    · have hl : isLast0 (grid0.coords t) := (isLast0_iff t).mpr hkb
      rw [show (dat0 V c).leavesExact 3 t = owns (c : Thread nD τ) (ms0_3 t) fullShare ((dat0 V c).after 3 t) from by
        unfold Dat.leavesExact; rw [live0_3 t hl], after0_3]
      rw [outsAt0_last V c t hka hkb]
      unfold out0_last acc0_last; (try dsimp only)
      rw [PhiS0_castSucc V c t, PhiS0_pos V c _ _ hz]
      iintro ⟨⟨⟨HS, Hrest⟩, Hg⟩, Ho, ⟨%da, Ha⟩, ⟨%db, Hb⟩, ⟨%dc, Hc⟩, ⟨%dd, Hd⟩⟩
      iapply ((run0_last c (grid0.coords t) _ _ _ _ _ _ _ _ _ _ hf hl (iblk0 V c 0 t) (iblk0 V c 1 t) (iblk0 V c 2 t) _).2.2 Set.univ _)
      isplitl [Ha]; · iexact Ha
      isplitl [Hb]; · iexact Hb
      isplitl [Hc]; · iexact Hc
      isplitl [Hd]; · iexists _; iexact Hd
      isplitl [HS]; · iexact HS
      iintro ⟨Ha, Hb, Hc, ⟨%ed, Hd⟩, ⟨%es, HS⟩⟩
      isplitl [HS Hrest Hg]
      · isplitl [HS Hrest]
        · isplitl [HS]
          · unfold owns; iexists _; isplitr
            swap; · iexact HS
            ipureintro; exact View.read_writes_of_cover _ _ _ _ _ (acc0_last_cover V c t hf hl _)
          iexact Hrest
        iexact Hg
      isplitl [Ho]; · iexact Ho
      isplitl [Ha]; · iexact Ha
      isplitl [Hb]; · iexact Hb
      isplitl [Hc]; · iexact Hc
      unfold owns; iexists _; isplitr
      swap; · iexact Hd
      ipureintro; exact View.read_writes_of_cover _ _ _ _ _ (out0_last_cover V c t hf hl _)
    · have hl : ¬isLast0 (grid0.coords t) := fun h => hkb ((isLast0_iff t).mp h)
      rw [Dat.leavesExact_idle (dat0 V c) 3 t (idle0_3 t hl) (noFlush0_3 t hl)]
      rw [outsAt0_mid V c t hka hkb]
      unfold acc0_mid; (try dsimp only)
      rw [PhiS0_castSucc V c t, PhiS0_pos V c _ _ hz]
      iintro ⟨⟨⟨HS, Hrest⟩, Hg⟩, Ho, ⟨%da, Ha⟩, ⟨%db, Hb⟩, ⟨%dc, Hc⟩, ⟨%dd, Hd⟩⟩
      iapply ((run0_mid c (grid0.coords t) _ _ _ _ _ _ _ _ _ _ hf hl (iblk0 V c 0 t) (iblk0 V c 1 t) _).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc0_mid_cover V c t hf hl _)
          iexact Hrest
        iexact Hg
      isplitl [Ho]; · iexact Ho
      isplitl [Ha]; · iexact Ha
      isplitl [Hb]; · iexact Hb
      isplitl [Hc]; · iexact Hc
      iexists _; iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its entry is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS, Hrest⟩, Hg⟩
  isplitl [HS Hrest]
  · isplitl [HS]
    · iexists _; iexact HS
    iexact Hrest
  iexact Hg

end Entry

end Cert.Kernel.Hand

end
-- ==== Proof.K.R1Base.lean ====
/- Region 1 of program Kernel, laid out from region 0's hand-written module of the idealized program (the template named above)
   by substituting the region's number, its grid's numbers (64 points, the contraction block is t % 4, the last is 3)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The accumulator is reset at this point: the contraction block is the first. -/
abbrev isFirst1 (i : grid1.Coords) : Prop := (Scalar.cmpi .ne (Scalar.extui (Scalar.cmpi .eq (BitVec.ofNat 32 (i 2).val) 0#32)) 0#32) = 1#1
/-- The output block is stored at this point: the contraction block is the last. -/
abbrev isLast1 (i : grid1.Coords) : Prop := k1_cond2 i = 1#1

theorem isFirst1_iff : ∀ t : Fin cfg1.N, isFirst1 (grid1.coords t) ↔ t.val % 4 = 0 :=
  (by decide +kernel : ∀ t : Fin grid1.N, isFirst1 (grid1.coords t) ↔ t.val % 4 = 0)
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last contraction block nothing is stored into the output block: the window is idle there, -/
theorem idle1_3 : ∀ t : Fin cfg1.N, ¬isLast1 (grid1.coords t) → cfg1.idle 3 (grid1.coords t) = true := by decide +kernel
/-- and it is not written back there. -/
theorem noFlush1_3 : ∀ t : Fin cfg1.N, ¬isLast1 (grid1.coords t) → (cfg1.win 3).flush t = false := by decide +kernel
/-- At the last contraction block the output block is stored. -/
theorem live1_3 : ∀ t : Fin cfg1.N, isLast1 (grid1.coords t) → cfg1.idle 3 (grid1.coords t) = false := by decide +kernel

/-! ## The staging memrefs the body is called with, and the accumulator -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
/-- The f32 accumulator: a whole scoped buffer of the kernel's own, passed beside the windows. -/
abbrev acc1 : Memref sig .tc .vmem S512x1024 .f32 := Memref.whole cc1_scratch0
/-- The accumulator as a view: its contents are stated through it. -/
abbrev accV1 : View sig .tc .vmem S512x1024 .f32 := acc1.view
/-- One staging buffer of the output window, through which an output block's contents are stated. -/
abbrev outV1 : View sig .tc .vmem S512x1024 .bf16 := (Memref.whole cc1_stg3_0 : Memref sig .tc .vmem S512x1024 .bf16).view

/-! ## The windows' blocks at the region's entry contents -/

section Entry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved. (The bias row is fetched only when the output's column block changes.) -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The region's invariant before its first point, opened at the accumulator -/

/-- The scoped buffers no window of this region stages, the generator register beside them: the accumulator whole
    at some contents, the other scoped buffers unopened, the register at some state. -/
theorem PhiA1_eq (c : Dev nD) :
    (Pipeline.ΦA spec1 c : sProp 𝕄)
      = iprop(iprop((∃ d, owns (c : Thread nD τ) acc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [acc1, owns_whole]; try rfl

end Cert.Kernel.Hand

end
-- ==== Proof.K.R1Runs.lean ====
/- Region 1 of program Kernel, laid out from region 0's hand-written module of the idealized program (the template named above)
   by substituting the region's number, its grid's numbers (64 points, the contraction block is t % 4, the last is 3)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R1Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST contraction block (k = 0 ≠ last): the accumulator, at anything, is reset and then takes the first product;
    the output block is not touched. -/
noncomputable def run1_first (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst1 i) (hl : ¬isLast1 i) (x : Vec F S512x1024 .bf16) (w : Vec F S1024x1024 .bf16) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun b o E K => ?run⟩
  case run =>
    simp only [cc1__mm_kernel_eq_skeleton]; unfold cc1__mm_kernel_skel
    unfold owns
    iintro ⟨⟨%f3, %hf3, H3⟩, ⟨%f4, %hf4, H4⟩, ⟨%f5, %hf5, H5⟩, ⟨%f6, %hf6, H6⟩, ⟨%ds, %fs, -, HS⟩, Hk⟩
    obtain rfl := harg3.eq_unread hf3; obtain rfl := harg4.eq_unread hf4; obtain rfl := harg5.eq_unread hf5; obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- A MIDDLE contraction block (neither first nor last): the accumulator, at what the point before left (`xs`),
    takes this block's product; the output block is not touched. -/
noncomputable def run1_mid (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst1 i) (hl : ¬isLast1 i) (x : Vec F S512x1024 .bf16) (w : Vec F S1024x1024 .bf16) (xs : Vec F S512x1024 .f32) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ owns (c : Thread nD τ) arg7 fullShare xs
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun b o E K => ?run⟩
  case run =>
    simp only [cc1__mm_kernel_eq_skeleton]; unfold cc1__mm_kernel_skel
    unfold owns
    iintro ⟨⟨%f3, %hf3, H3⟩, ⟨%f4, %hf4, H4⟩, ⟨%f5, %hf5, H5⟩, ⟨%f6, %hf6, H6⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- The LAST contraction block (k = 3 ≠ first): the accumulator, at what the point before left, takes the last product,
    and accumulator + bias row, rounded, is stored over the whole output block (which may hold anything before). -/
noncomputable def run1_last (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst1 i) (hl : isLast1 i) (x : Vec F S512x1024 .bf16) (w : Vec F S1024x1024 .bf16) (b : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.Kernel.Hand

end
-- ==== Proof.K.R1Dat.lean ====
/- Region 1 of program Kernel, laid out from region 0's hand-written module of the idealized program (the template named above)
   by substituting the region's number, its grid's numbers (64 points, the contraction block is t % 4, the last is 3)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R1Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What each case leaves, as its stores read back -/

/-- The accumulator after a first block: the run's stores into it, read back. -/
def acc1_first (c : Dev nD) (t : Fin cfg1.N) (hf : isFirst1 (grid1.coords t)) (hl : ¬isLast1 (grid1.coords t)) : Vec F S512x1024 .f32 :=
  accV1.read (Elt F) (accV1.writes (Elt F) accV1.junk (run1_first c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t)).1)
/-- Those stores cover the accumulator. -/
theorem acc1_first_cover (c : Dev nD) (t : Fin cfg1.N) (hf : isFirst1 (grid1.coords t)) (hl : ¬isLast1 (grid1.coords t)) (y : S512x1024.Idx) :
    ∃ pc ∈ (run1_first c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t)).1, y ∈ pc.1.set :=
  View.cover_of_tiledL _ S512x1024.size (by sl_kernel_rfl) y

/-- The accumulator after a middle block, over what the point before left (`xs`). -/
def acc1_mid (c : Dev nD) (t : Fin cfg1.N) (hf : ¬isFirst1 (grid1.coords t)) (hl : ¬isLast1 (grid1.coords t)) (xs : Vec F S512x1024 .f32) : Vec F S512x1024 .f32 :=
  accV1.read (Elt F) (accV1.writes (Elt F) accV1.junk (run1_mid c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) xs).1)
theorem acc1_mid_cover (c : Dev nD) (t : Fin cfg1.N) (hf : ¬isFirst1 (grid1.coords t)) (hl : ¬isLast1 (grid1.coords t)) (xs : Vec F S512x1024 .f32) (y : S512x1024.Idx) :
    ∃ pc ∈ (run1_mid c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) xs).1, y ∈ pc.1.set :=
  View.cover_of_tiledL _ S512x1024.size (by sl_kernel_rfl) y

/-- The accumulator after a last block, over what the point before left. -/
def acc1_last (c : Dev nD) (t : Fin cfg1.N) (hf : ¬isFirst1 (grid1.coords t)) (hl : isLast1 (grid1.coords t)) (xs : Vec F S512x1024 .f32) : Vec F S512x1024 .f32 :=
  accV1.read (Elt F) (accV1.writes (Elt F) accV1.junk (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).2.1)
theorem acc1_last_cover (c : Dev nD) (t : Fin cfg1.N) (hf : ¬isFirst1 (grid1.coords t)) (hl : isLast1 (grid1.coords t)) (xs : Vec F S512x1024 .f32) (y : S512x1024.Idx) :
    ∃ pc ∈ (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).2.1, y ∈ pc.1.set :=
  View.cover_of_tiledL _ S512x1024.size (by sl_kernel_rfl) y
/-- The output block a last block stores. -/
def out1_last (c : Dev nD) (t : Fin cfg1.N) (hf : ¬isFirst1 (grid1.coords t)) (hl : isLast1 (grid1.coords t)) (xs : Vec F S512x1024 .f32) : Vec F S512x1024 .bf16 :=
  outV1.read (Elt F) (outV1.writes (Elt F) outV1.junk (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).1)
theorem out1_last_cover (c : Dev nD) (t : Fin cfg1.N) (hf : ¬isFirst1 (grid1.coords t)) (hl : isLast1 (grid1.coords t)) (xs : Vec F S512x1024 .f32) (y : S512x1024.Idx) :
    ∃ pc ∈ (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).1, y ∈ pc.1.set :=
  View.cover_of_tiledL _ S512x1024.size (by sl_kernel_rfl) y
/-- Where nothing is stored into the output block its buffer's contents are not named: nothing consults them (the
    window is neither written back there nor read at the next point). -/
def out1_idle : Vec F S512x1024 .bf16 := outV1.read (Elt F) outV1.junk

/-! ## The accumulation, point by point -/

/-- What the output block's staging buffer and the accumulator hold after the body at position `n`. -/
def outsAt1 (c : Dev nD) : (n : ℕ) → n < cfg1.N → Vec F S512x1024 .bf16 × Vec F S512x1024 .f32
  | 0, hn => (out1_idle, acc1_first V c ⟨0, hn⟩ ((isFirst1_iff ⟨0, hn⟩).mpr (Nat.zero_mod _)) (fun h => by have := (isLast1_iff ⟨0, hn⟩).mp h; (try dsimp only at this); omega))
  | n + 1, hn =>
    if hka : (n + 1) % 4 = 0 then
      (out1_idle, acc1_first V c ⟨n + 1, hn⟩ ((isFirst1_iff ⟨n + 1, hn⟩).mpr hka) (fun h => by have := (isLast1_iff ⟨n + 1, hn⟩).mp h; (try dsimp only at this); omega))
    else if hkb : (n + 1) % 4 = 3 then
      (out1_last V c ⟨n + 1, hn⟩ (fun h => hka ((isFirst1_iff ⟨n + 1, hn⟩).mp h)) ((isLast1_iff ⟨n + 1, hn⟩).mpr hkb) (outsAt1 c n (Nat.lt_of_succ_lt hn)).2,
       acc1_last V c ⟨n + 1, hn⟩ (fun h => hka ((isFirst1_iff ⟨n + 1, hn⟩).mp h)) ((isLast1_iff ⟨n + 1, hn⟩).mpr hkb) (outsAt1 c n (Nat.lt_of_succ_lt hn)).2)
    else
      (out1_idle, acc1_mid V c ⟨n + 1, hn⟩ (fun h => hka ((isFirst1_iff ⟨n + 1, hn⟩).mp h)) (fun h => hkb ((isLast1_iff ⟨n + 1, hn⟩).mp h)) (outsAt1 c n (Nat.lt_of_succ_lt hn)).2)

theorem outsAt1_first (c : Dev nD) (t : Fin cfg1.N) (hka : t.val % 4 = 0) :
    outsAt1 V c t.val t.isLt = (out1_idle, acc1_first V c t ((isFirst1_iff t).mpr hka) (fun h => by have := (isLast1_iff t).mp h; omega)) := by
  obtain ⟨n, hn⟩ := t
  cases n with
  | zero => rfl
  | succ n => exact (dif_pos hka).trans rfl

theorem outsAt1_mid (c : Dev nD) (t : Fin cfg1.N) (hka : ¬t.val % 4 = 0) (hkb : ¬t.val % 4 = 3) :
    outsAt1 V c t.val t.isLt = (out1_idle, acc1_mid V c t (fun h => hka ((isFirst1_iff t).mp h)) (fun h => hkb ((isLast1_iff t).mp h)) (outsAt1 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_neg hkb).trans rfl)

theorem outsAt1_last (c : Dev nD) (t : Fin cfg1.N) (hka : ¬t.val % 4 = 0) (hkb : t.val % 4 = 3) :
    outsAt1 V c t.val t.isLt = (out1_last V c t (fun h => hka ((isFirst1_iff t).mp h)) ((isLast1_iff t).mpr hkb) (outsAt1 V c (t.val - 1) (Nat.lt_of_le_of_lt (Nat.sub_le _ _) t.isLt)).2,
      acc1_last V c t (fun h => hka ((isFirst1_iff t).mp h)) ((isLast1_iff t).mpr hkb) (outsAt1 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_pos hkb).trans rfl)

/-! ## The invariant: the accumulator carried from point to point -/

/-- Before position `n`: at the region's entry the scoped buffers no window stages at anything and the generator
    register at some state; afterwards the same with the accumulator at what the point before left in it. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the closed forms say which case the point is in;
    the invariant hands the body the accumulator (at anything before the first point, else at what the point before
    left) and takes it back at this point's contents; an idle output buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 64 := lt_of_lt_of_eq t.isLt (show cfg1.N = 64 from N_1)
  by_cases hka : t.val % 4 = 0
  · have hf : isFirst1 (grid1.coords t) := (isFirst1_iff t).mpr hka
    have hl : ¬isLast1 (grid1.coords t) := fun h => by have := (isLast1_iff t).mp h; omega
    rw [Dat.leavesExact_idle (dat1 V c) 3 t (idle1_3 t hl) (noFlush1_3 t hl)]
    rw [outsAt1_first V c t hka]
    unfold acc1_first; (try dsimp only)
    by_cases hz : t.val = 0
    · rw [PhiS1_castSucc V c t, PhiS1_zero V c _ _ hz, PhiA1_eq]
      iintro ⟨⟨⟨HS, Hrest⟩, Hg⟩, Ho, ⟨%da, Ha⟩, ⟨%db, Hb⟩, ⟨%dc, Hc⟩, ⟨%dd, Hd⟩⟩
      iapply ((run1_first c (grid1.coords t) _ _ _ _ _ _ _ _ _ _ hf hl (iblk1 V c 0 t) (iblk1 V c 1 t)).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc1_first_cover V c t hf hl)
          iexact Hrest
        iexact Hg
      isplitl [Ho]; · iexact Ho
      isplitl [Ha]; · iexact Ha
      isplitl [Hb]; · iexact Hb
      isplitl [Hc]; · iexact Hc
      iexists _; iexact Hd
    · rw [PhiS1_castSucc V c t, PhiS1_pos V c _ _ hz]
      iintro ⟨⟨⟨HS, Hrest⟩, Hg⟩, Ho, ⟨%da, Ha⟩, ⟨%db, Hb⟩, ⟨%dc, Hc⟩, ⟨%dd, Hd⟩⟩
      iapply ((run1_first c (grid1.coords t) _ _ _ _ _ _ _ _ _ _ hf hl (iblk1 V c 0 t) (iblk1 V c 1 t)).2 _ _ Set.univ _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc1_first_cover V c t hf hl)
          iexact Hrest
        iexact Hg
      isplitl [Ho]; · iexact Ho
      isplitl [Ha]; · iexact Ha
      isplitl [Hb]; · iexact Hb
      isplitl [Hc]; · iexact Hc
      iexists _; iexact Hd
  · have hf : ¬isFirst1 (grid1.coords t) := fun h => hka ((isFirst1_iff t).mp h)
    have hz : t.val ≠ 0 := fun h => hka (by rw [h])
    by_cases hkb : t.val % 4 = 3
    · have hl : isLast1 (grid1.coords t) := (isLast1_iff t).mpr hkb
      rw [show (dat1 V c).leavesExact 3 t = owns (c : Thread nD τ) (ms1_3 t) fullShare ((dat1 V c).after 3 t) from by
        unfold Dat.leavesExact; rw [live1_3 t hl], after1_3]
      rw [outsAt1_last V c t hka hkb]
      unfold out1_last acc1_last; (try dsimp only)
      rw [PhiS1_castSucc V c t, PhiS1_pos V c _ _ hz]
      iintro ⟨⟨⟨HS, Hrest⟩, Hg⟩, Ho, ⟨%da, Ha⟩, ⟨%db, Hb⟩, ⟨%dc, Hc⟩, ⟨%dd, Hd⟩⟩
      iapply ((run1_last c (grid1.coords t) _ _ _ _ _ _ _ _ _ _ hf hl (iblk1 V c 0 t) (iblk1 V c 1 t) (iblk1 V c 2 t) _).2.2 Set.univ _)
      isplitl [Ha]; · iexact Ha
      isplitl [Hb]; · iexact Hb
      isplitl [Hc]; · iexact Hc
      isplitl [Hd]; · iexists _; iexact Hd
      isplitl [HS]; · iexact HS
      iintro ⟨Ha, Hb, Hc, ⟨%ed, Hd⟩, ⟨%es, HS⟩⟩
      isplitl [HS Hrest Hg]
      · isplitl [HS Hrest]
        · isplitl [HS]
          · unfold owns; iexists _; isplitr
            swap; · iexact HS
            ipureintro; exact View.read_writes_of_cover _ _ _ _ _ (acc1_last_cover V c t hf hl _)
          iexact Hrest
        iexact Hg
      isplitl [Ho]; · iexact Ho
      isplitl [Ha]; · iexact Ha
      isplitl [Hb]; · iexact Hb
      isplitl [Hc]; · iexact Hc
      unfold owns; iexists _; isplitr
      swap; · iexact Hd
      ipureintro; exact View.read_writes_of_cover _ _ _ _ _ (out1_last_cover V c t hf hl _)
    · have hl : ¬isLast1 (grid1.coords t) := fun h => hkb ((isLast1_iff t).mp h)
      rw [Dat.leavesExact_idle (dat1 V c) 3 t (idle1_3 t hl) (noFlush1_3 t hl)]
      rw [outsAt1_mid V c t hka hkb]
      unfold acc1_mid; (try dsimp only)
      rw [PhiS1_castSucc V c t, PhiS1_pos V c _ _ hz]
      iintro ⟨⟨⟨HS, Hrest⟩, Hg⟩, Ho, ⟨%da, Ha⟩, ⟨%db, Hb⟩, ⟨%dc, Hc⟩, ⟨%dd, Hd⟩⟩
      iapply ((run1_mid c (grid1.coords t) _ _ _ _ _ _ _ _ _ _ hf hl (iblk1 V c 0 t) (iblk1 V c 1 t) _).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc1_mid_cover V c t hf hl _)
          iexact Hrest
        iexact Hg
      isplitl [Ho]; · iexact Ho
      isplitl [Ha]; · iexact Ha
      isplitl [Hb]; · iexact Hb
      isplitl [Hc]; · iexact Hc
      iexists _; iexact Hd

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS, Hrest⟩, Hg⟩
  isplitl [HS Hrest]
  · isplitl [HS]
    · iexists _; iexact HS
    iexact Hrest
  iexact Hg

end Entry

end Cert.Kernel.Hand

end
-- ==== Proof.K.R2Base.lean ====
/- Region 2 of program Kernel, laid out from region 0's hand-written module of the idealized program (the template named above)
   by substituting the region's number, its grid's numbers (32 points, the contraction block is t % 8, the last is 7)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The accumulator is reset at this point: the contraction block is the first. -/
abbrev isFirst2 (i : grid2.Coords) : Prop := (Scalar.cmpi .ne (Scalar.extui (Scalar.cmpi .eq (BitVec.ofNat 32 (i 2).val) 0#32)) 0#32) = 1#1
/-- The output block is stored at this point: the contraction block is the last. -/
abbrev isLast2 (i : grid2.Coords) : Prop := k2_cond2 i = 1#1

theorem isFirst2_iff : ∀ t : Fin cfg2.N, isFirst2 (grid2.coords t) ↔ t.val % 8 = 0 :=
  (by decide +kernel : ∀ t : Fin grid2.N, isFirst2 (grid2.coords t) ↔ t.val % 8 = 0)
theorem isLast2_iff : ∀ t : Fin cfg2.N, isLast2 (grid2.coords t) ↔ t.val % 8 = 7 :=
  (by decide +kernel : ∀ t : Fin grid2.N, isLast2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last contraction block nothing is stored into the output block: the window is idle there, -/
theorem idle2_3 : ∀ t : Fin cfg2.N, ¬isLast2 (grid2.coords t) → cfg2.idle 3 (grid2.coords t) = true := by decide +kernel
/-- and it is not written back there. -/
theorem noFlush2_3 : ∀ t : Fin cfg2.N, ¬isLast2 (grid2.coords t) → (cfg2.win 3).flush t = false := by decide +kernel
/-- At the last contraction block the output block is stored. -/
theorem live2_3 : ∀ t : Fin cfg2.N, isLast2 (grid2.coords t) → cfg2.idle 3 (grid2.coords t) = false := by decide +kernel

/-! ## The staging memrefs the body is called with, and the accumulator -/

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .bf16 := win2_3.stage (cfg2.slots t 3)
abbrev hs2_3 (t : Fin cfg2.N) : (ms2_3 t).IsWhole := hstage2_3 ((cfg2.slots t 3).cast nbuf2_3)
/-- The f32 accumulator: a whole scoped buffer of the kernel's own, passed beside the windows. -/
abbrev acc2 : Memref sig .tc .vmem S512x1024 .f32 := Memref.whole cc2_scratch0
/-- The accumulator as a view: its contents are stated through it. -/
abbrev accV2 : View sig .tc .vmem S512x1024 .f32 := acc2.view
/-- One staging buffer of the output window, through which an output block's contents are stated. -/
abbrev outV2 : View sig .tc .vmem S512x1024 .bf16 := (Memref.whole cc2_stg3_0 : Memref sig .tc .vmem S512x1024 .bf16).view

/-! ## The windows' blocks at the region's entry contents -/

section Entry
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: unfetched, the
    block index has not moved. (The bias row is fetched only when the output's column block changes.) -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Entry

/-! ## The region's invariant before its first point, opened at the accumulator -/

/-- The scoped buffers no window of this region stages, the generator register beside them: the accumulator whole
    at some contents, the other scoped buffers unopened, the register at some state. -/
theorem PhiA2_eq (c : Dev nD) :
    (Pipeline.ΦA spec2 c : sProp 𝕄)
      = iprop(iprop((∃ d, owns (c : Thread nD τ) acc2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [acc2, owns_whole]; try rfl

end Cert.Kernel.Hand

end
-- ==== Proof.K.R2Runs.lean ====
/- Region 2 of program Kernel, laid out from region 0's hand-written module of the idealized program (the template named above)
   by substituting the region's number, its grid's numbers (32 points, the contraction block is t % 8, the last is 7)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R2Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST contraction block (k = 0 ≠ last): the accumulator, at anything, is reset and then takes the first product;
    the output block is not touched. -/
noncomputable def run2_first (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst2 i) (hl : ¬isLast2 i) (x : Vec F S512x1024 .bf16) (w : Vec F S1024x1024 .bf16) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc2__mm_kernel i arg3 harg3 arg4 harg4 arg5 harg5 arg6 harg6 arg7 harg7) K } := by
  refine ⟨?_, fun b o E K => ?run⟩
  case run =>
    simp only [cc2__mm_kernel_eq_skeleton]; unfold cc2__mm_kernel_skel
    unfold owns
    iintro ⟨⟨%f3, %hf3, H3⟩, ⟨%f4, %hf4, H4⟩, ⟨%f5, %hf5, H5⟩, ⟨%f6, %hf6, H6⟩, ⟨%ds, %fs, -, HS⟩, Hk⟩
    obtain rfl := harg3.eq_unread hf3; obtain rfl := harg4.eq_unread hf4; obtain rfl := harg5.eq_unread hf5; obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- A MIDDLE contraction block (neither first nor last): the accumulator, at what the point before left (`xs`),
    takes this block's product; the output block is not touched. -/
noncomputable def run2_mid (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst2 i) (hl : ¬isLast2 i) (x : Vec F S512x1024 .bf16) (w : Vec F S1024x1024 .bf16) (xs : Vec F S512x1024 .f32) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ owns (c : Thread nD τ) arg7 fullShare xs
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc2__mm_kernel i arg3 harg3 arg4 harg4 arg5 harg5 arg6 harg6 arg7 harg7) K } := by
  refine ⟨?_, fun b o E K => ?run⟩
  case run =>
    simp only [cc2__mm_kernel_eq_skeleton]; unfold cc2__mm_kernel_skel
    unfold owns
    iintro ⟨⟨%f3, %hf3, H3⟩, ⟨%f4, %hf4, H4⟩, ⟨%f5, %hf5, H5⟩, ⟨%f6, %hf6, H6⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- The LAST contraction block (k = 3 ≠ first): the accumulator, at what the point before left, takes the last product,
    and accumulator + bias row, rounded, is stored over the whole output block (which may hold anything before). -/
noncomputable def run2_last (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst2 i) (hl : isLast2 i) (x : Vec F S512x1024 .bf16) (w : Vec F S1024x1024 .bf16) (b : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.Kernel.Hand

end
-- ==== Proof.K.R2Dat.lean ====
/- Region 2 of program Kernel, laid out from region 0's hand-written module of the idealized program (the template named above)
   by substituting the region's number, its grid's numbers (32 points, the contraction block is t % 8, the last is 7)
   and the program's name. The mathematics is the template's: reset the accumulator at the first contraction block, add one
   block's product at every block, store accumulator + bias at the last. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R2Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What each case leaves, as its stores read back -/

/-- The accumulator after a first block: the run's stores into it, read back. -/
def acc2_first (c : Dev nD) (t : Fin cfg2.N) (hf : isFirst2 (grid2.coords t)) (hl : ¬isLast2 (grid2.coords t)) : Vec F S512x1024 .f32 :=
  accV2.read (Elt F) (accV2.writes (Elt F) accV2.junk (run2_first c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t)).1)
/-- Those stores cover the accumulator. -/
theorem acc2_first_cover (c : Dev nD) (t : Fin cfg2.N) (hf : isFirst2 (grid2.coords t)) (hl : ¬isLast2 (grid2.coords t)) (y : S512x1024.Idx) :
    ∃ pc ∈ (run2_first c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t)).1, y ∈ pc.1.set :=
  View.cover_of_tiledL _ S512x1024.size (by sl_kernel_rfl) y

/-- The accumulator after a middle block, over what the point before left (`xs`). -/
def acc2_mid (c : Dev nD) (t : Fin cfg2.N) (hf : ¬isFirst2 (grid2.coords t)) (hl : ¬isLast2 (grid2.coords t)) (xs : Vec F S512x1024 .f32) : Vec F S512x1024 .f32 :=
  accV2.read (Elt F) (accV2.writes (Elt F) accV2.junk (run2_mid c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) xs).1)
theorem acc2_mid_cover (c : Dev nD) (t : Fin cfg2.N) (hf : ¬isFirst2 (grid2.coords t)) (hl : ¬isLast2 (grid2.coords t)) (xs : Vec F S512x1024 .f32) (y : S512x1024.Idx) :
    ∃ pc ∈ (run2_mid c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) xs).1, y ∈ pc.1.set :=
  View.cover_of_tiledL _ S512x1024.size (by sl_kernel_rfl) y

/-- The accumulator after a last block, over what the point before left. -/
def acc2_last (c : Dev nD) (t : Fin cfg2.N) (hf : ¬isFirst2 (grid2.coords t)) (hl : isLast2 (grid2.coords t)) (xs : Vec F S512x1024 .f32) : Vec F S512x1024 .f32 :=
  accV2.read (Elt F) (accV2.writes (Elt F) accV2.junk (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).2.1)
theorem acc2_last_cover (c : Dev nD) (t : Fin cfg2.N) (hf : ¬isFirst2 (grid2.coords t)) (hl : isLast2 (grid2.coords t)) (xs : Vec F S512x1024 .f32) (y : S512x1024.Idx) :
    ∃ pc ∈ (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).2.1, y ∈ pc.1.set :=
  View.cover_of_tiledL _ S512x1024.size (by sl_kernel_rfl) y
/-- The output block a last block stores. -/
def out2_last (c : Dev nD) (t : Fin cfg2.N) (hf : ¬isFirst2 (grid2.coords t)) (hl : isLast2 (grid2.coords t)) (xs : Vec F S512x1024 .f32) : Vec F S512x1024 .bf16 :=
  outV2.read (Elt F) (outV2.writes (Elt F) outV2.junk (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).1)
theorem out2_last_cover (c : Dev nD) (t : Fin cfg2.N) (hf : ¬isFirst2 (grid2.coords t)) (hl : isLast2 (grid2.coords t)) (xs : Vec F S512x1024 .f32) (y : S512x1024.Idx) :
    ∃ pc ∈ (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).1, y ∈ pc.1.set :=
  View.cover_of_tiledL _ S512x1024.size (by sl_kernel_rfl) y
/-- Where nothing is stored into the output block its buffer's contents are not named: nothing consults them (the
    window is neither written back there nor read at the next point). -/
def out2_idle : Vec F S512x1024 .bf16 := outV2.read (Elt F) outV2.junk

/-! ## The accumulation, point by point -/

/-- What the output block's staging buffer and the accumulator hold after the body at position `n`. -/
def outsAt2 (c : Dev nD) : (n : ℕ) → n < cfg2.N → Vec F S512x1024 .bf16 × Vec F S512x1024 .f32
  | 0, hn => (out2_idle, acc2_first V c ⟨0, hn⟩ ((isFirst2_iff ⟨0, hn⟩).mpr (Nat.zero_mod _)) (fun h => by have := (isLast2_iff ⟨0, hn⟩).mp h; (try dsimp only at this); omega))
  | n + 1, hn =>
    if hka : (n + 1) % 8 = 0 then
      (out2_idle, acc2_first V c ⟨n + 1, hn⟩ ((isFirst2_iff ⟨n + 1, hn⟩).mpr hka) (fun h => by have := (isLast2_iff ⟨n + 1, hn⟩).mp h; (try dsimp only at this); omega))
    else if hkb : (n + 1) % 8 = 7 then
      (out2_last V c ⟨n + 1, hn⟩ (fun h => hka ((isFirst2_iff ⟨n + 1, hn⟩).mp h)) ((isLast2_iff ⟨n + 1, hn⟩).mpr hkb) (outsAt2 c n (Nat.lt_of_succ_lt hn)).2,
       acc2_last V c ⟨n + 1, hn⟩ (fun h => hka ((isFirst2_iff ⟨n + 1, hn⟩).mp h)) ((isLast2_iff ⟨n + 1, hn⟩).mpr hkb) (outsAt2 c n (Nat.lt_of_succ_lt hn)).2)
    else
      (out2_idle, acc2_mid V c ⟨n + 1, hn⟩ (fun h => hka ((isFirst2_iff ⟨n + 1, hn⟩).mp h)) (fun h => hkb ((isLast2_iff ⟨n + 1, hn⟩).mp h)) (outsAt2 c n (Nat.lt_of_succ_lt hn)).2)

theorem outsAt2_first (c : Dev nD) (t : Fin cfg2.N) (hka : t.val % 8 = 0) :
    outsAt2 V c t.val t.isLt = (out2_idle, acc2_first V c t ((isFirst2_iff t).mpr hka) (fun h => by have := (isLast2_iff t).mp h; omega)) := by
  obtain ⟨n, hn⟩ := t
  cases n with
  | zero => rfl
  | succ n => exact (dif_pos hka).trans rfl

theorem outsAt2_mid (c : Dev nD) (t : Fin cfg2.N) (hka : ¬t.val % 8 = 0) (hkb : ¬t.val % 8 = 7) :
    outsAt2 V c t.val t.isLt = (out2_idle, acc2_mid V c t (fun h => hka ((isFirst2_iff t).mp h)) (fun h => hkb ((isLast2_iff t).mp h)) (outsAt2 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_neg hkb).trans rfl)

theorem outsAt2_last (c : Dev nD) (t : Fin cfg2.N) (hka : ¬t.val % 8 = 0) (hkb : t.val % 8 = 7) :
    outsAt2 V c t.val t.isLt = (out2_last V c t (fun h => hka ((isFirst2_iff t).mp h)) ((isLast2_iff t).mpr hkb) (outsAt2 V c (t.val - 1) (Nat.lt_of_le_of_lt (Nat.sub_le _ _) t.isLt)).2,
      acc2_last V c t (fun h => hka ((isFirst2_iff t).mp h)) ((isLast2_iff t).mpr hkb) (outsAt2 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_pos hkb).trans rfl)

/-! ## The invariant: the accumulator carried from point to point -/

/-- Before position `n`: at the region's entry the scoped buffers no window stages at anything and the generator
    register at some state; afterwards the same with the accumulator at what the point before left in it. -/
def PhiS2 (c : Dev nD) : (n : ℕ) → n ≤ cfg2.N → sProp 𝕄
  | 0, _ => Pipeline.ΦA spec2 c
  | n + 1, hn => iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) acc2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block, the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the closed forms say which case the point is in;
    the invariant hands the body the accumulator (at anything before the first point, else at what the point before
    left) and takes it back at this point's contents; an idle output buffer is handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 32 := lt_of_lt_of_eq t.isLt (show cfg2.N = 32 from N_2)
  by_cases hka : t.val % 8 = 0
  · have hf : isFirst2 (grid2.coords t) := (isFirst2_iff t).mpr hka
    have hl : ¬isLast2 (grid2.coords t) := fun h => by have := (isLast2_iff t).mp h; omega
    rw [Dat.leavesExact_idle (dat2 V c) 3 t (idle2_3 t hl) (noFlush2_3 t hl)]
    rw [outsAt2_first V c t hka]
    unfold acc2_first; (try dsimp only)
    by_cases hz : t.val = 0
    · rw [PhiS2_castSucc V c t, PhiS2_zero V c _ _ hz, PhiA2_eq]
      iintro ⟨⟨⟨HS, Hrest⟩, Hg⟩, Ho, ⟨%da, Ha⟩, ⟨%db, Hb⟩, ⟨%dc, Hc⟩, ⟨%dd, Hd⟩⟩
      iapply ((run2_first c (grid2.coords t) _ _ _ _ _ _ _ _ _ _ hf hl (iblk2 V c 0 t) (iblk2 V c 1 t)).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc2_first_cover V c t hf hl)
          iexact Hrest
        iexact Hg
      isplitl [Ho]; · iexact Ho
      isplitl [Ha]; · iexact Ha
      isplitl [Hb]; · iexact Hb
      isplitl [Hc]; · iexact Hc
      iexists _; iexact Hd
    · rw [PhiS2_castSucc V c t, PhiS2_pos V c _ _ hz]
      iintro ⟨⟨⟨HS, Hrest⟩, Hg⟩, Ho, ⟨%da, Ha⟩, ⟨%db, Hb⟩, ⟨%dc, Hc⟩, ⟨%dd, Hd⟩⟩
      iapply ((run2_first c (grid2.coords t) _ _ _ _ _ _ _ _ _ _ hf hl (iblk2 V c 0 t) (iblk2 V c 1 t)).2 _ _ Set.univ _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc2_first_cover V c t hf hl)
          iexact Hrest
        iexact Hg
      isplitl [Ho]; · iexact Ho
      isplitl [Ha]; · iexact Ha
      isplitl [Hb]; · iexact Hb
      isplitl [Hc]; · iexact Hc
      iexists _; iexact Hd
  · have hf : ¬isFirst2 (grid2.coords t) := fun h => hka ((isFirst2_iff t).mp h)
    have hz : t.val ≠ 0 := fun h => hka (by rw [h])
    by_cases hkb : t.val % 8 = 7
    · have hl : isLast2 (grid2.coords t) := (isLast2_iff t).mpr hkb
      rw [show (dat2 V c).leavesExact 3 t = owns (c : Thread nD τ) (ms2_3 t) fullShare ((dat2 V c).after 3 t) from by
        unfold Dat.leavesExact; rw [live2_3 t hl], after2_3]
      rw [outsAt2_last V c t hka hkb]
      unfold out2_last acc2_last; (try dsimp only)
      rw [PhiS2_castSucc V c t, PhiS2_pos V c _ _ hz]
      iintro ⟨⟨⟨HS, Hrest⟩, Hg⟩, Ho, ⟨%da, Ha⟩, ⟨%db, Hb⟩, ⟨%dc, Hc⟩, ⟨%dd, Hd⟩⟩
      iapply ((run2_last c (grid2.coords t) _ _ _ _ _ _ _ _ _ _ hf hl (iblk2 V c 0 t) (iblk2 V c 1 t) (iblk2 V c 2 t) _).2.2 Set.univ _)
      isplitl [Ha]; · iexact Ha
      isplitl [Hb]; · iexact Hb
      isplitl [Hc]; · iexact Hc
      isplitl [Hd]; · iexists _; iexact Hd
      isplitl [HS]; · iexact HS
      iintro ⟨Ha, Hb, Hc, ⟨%ed, Hd⟩, ⟨%es, HS⟩⟩
      isplitl [HS Hrest Hg]
      · isplitl [HS Hrest]
        · isplitl [HS]
          · unfold owns; iexists _; isplitr
            swap; · iexact HS
            ipureintro; exact View.read_writes_of_cover _ _ _ _ _ (acc2_last_cover V c t hf hl _)
          iexact Hrest
        iexact Hg
      isplitl [Ho]; · iexact Ho
      isplitl [Ha]; · iexact Ha
      isplitl [Hb]; · iexact Hb
      isplitl [Hc]; · iexact Hc
      unfold owns; iexists _; isplitr
      swap; · iexact Hd
      ipureintro; exact View.read_writes_of_cover _ _ _ _ _ (out2_last_cover V c t hf hl _)
    · have hl : ¬isLast2 (grid2.coords t) := fun h => hkb ((isLast2_iff t).mp h)
      rw [Dat.leavesExact_idle (dat2 V c) 3 t (idle2_3 t hl) (noFlush2_3 t hl)]
      rw [outsAt2_mid V c t hka hkb]
      unfold acc2_mid; (try dsimp only)
      rw [PhiS2_castSucc V c t, PhiS2_pos V c _ _ hz]
      iintro ⟨⟨⟨HS, Hrest⟩, Hg⟩, Ho, ⟨%da, Ha⟩, ⟨%db, Hb⟩, ⟨%dc, Hc⟩, ⟨%dd, Hd⟩⟩
      iapply ((run2_mid c (grid2.coords t) _ _ _ _ _ _ _ _ _ _ hf hl (iblk2 V c 0 t) (iblk2 V c 1 t) _).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc2_mid_cover V c t hf hl _)
          iexact Hrest
        iexact Hg
      isplitl [Ho]; · iexact Ho
      isplitl [Ha]; · iexact Ha
      isplitl [Hb]; · iexact Hb
      isplitl [Hc]; · iexact Hc
      iexists _; iexact Hd

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed at its entry is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the same back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS, Hrest⟩, Hg⟩
  isplitl [HS Hrest]
  · isplitl [HS]
    · iexists _; iexact HS
    iexact Hrest
  iexact Hg

end Entry

end Cert.Kernel.Hand

end
-- ==== Proof.K.R3Base.lean ====
/- Program Kernel: the hand-written module of the idealized program named above (the template), with the program's name
   substituted. Both programs are printed from one source and their generated kits differ only in that name; the template's
   text is generic in the float instance, so it serves the word-level program as it stands. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, both true at the grid's only point -/

/-- The accumulator is cleared at this point: the contraction block is the first. -/
abbrev isFirst3 (i : grid3.Coords) : Prop := (Scalar.cmpi .ne (Scalar.extui (Scalar.cmpi .eq (BitVec.ofNat 32 (i 2).val) 0#32)) 0#32) = 1#1
/-- The output block is stored at this point: the contraction block is the last. -/
abbrev isLast3 (i : grid3.Coords) : Prop := k3_cond2 i = 1#1

theorem isFirst3_all : ∀ t : Fin cfg3.N, isFirst3 (grid3.coords t) :=
  (by decide +kernel : ∀ t : Fin grid3.N, isFirst3 (grid3.coords t))
theorem isLast3_all : ∀ t : Fin cfg3.N, isLast3 (grid3.coords t) :=
  (by decide +kernel : ∀ t : Fin grid3.N, isLast3 (grid3.coords t))

/-! ## No window is idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- The output block is stored at the point. -/
theorem live3_3 : ∀ t : Fin cfg3.N, cfg3.idle 3 (grid3.coords t) = false := by decide +kernel

/-! ## The staging memrefs the body is called with, and the accumulator -/

abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x4 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x4 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x4 .f32 := win3_3.stage (cfg3.slots t 3)
abbrev hs3_3 (t : Fin cfg3.N) : (ms3_3 t).IsWhole := hstage3_3 ((cfg3.slots t 3).cast nbuf3_3)
/-- The f32 accumulator: a whole scoped buffer of the kernel's own, passed beside the windows. -/
abbrev acc3 : Memref sig .tc .vmem S1024x4 .f32 := Memref.whole cc3_scratch0
/-- The accumulator as a view: its contents are stated through it. -/
abbrev accV3 : View sig .tc .vmem S1024x4 .f32 := acc3.view
/-- The output window's one staging buffer, through which the output block's contents are stated. -/
abbrev outV3 : View sig .tc .vmem S1024x4 .f32 := (Memref.whole cc3_stg3_0 : Memref sig .tc .vmem S1024x4 .f32).view

/-! ## The windows' blocks at the region's entry contents -/

section Entry
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block when the body runs: the block as fetched off the array the
    region found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Entry

/-! ## The region's invariant before its point, opened at the accumulator -/

/-- The scoped buffers no window of this region stages, the generator register beside them: the accumulator whole
    at some contents, the other scoped buffers unopened, the register at some state. -/
theorem PhiA3_eq (c : Dev nD) :
    (Pipeline.ΦA spec3 c : sProp 𝕄)
      = iprop(iprop((∃ d, owns (c : Thread nD τ) acc3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [scopedRest3_split c]
  simp only [acc3, owns_whole]; try rfl

end Cert.Kernel.Hand

end
-- ==== Proof.K.R3Runs.lean ====
/- Program Kernel: the hand-written module of the idealized program named above (the template), with the program's name
   substituted. Both programs are printed from one source and their generated kits differ only in that name; the template's
   text is generic in the float instance, so it serves the word-level program as it stands. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R3Base
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The ONLY case (the contraction block is both first and last): the accumulator, at anything, is cleared and then
    takes the product; accumulator + bias row is stored over the whole output block (which may hold anything before). -/
noncomputable def run3_only (c : Dev nD) (i : grid3.Coords) (arg3 : Memref sig .tc .vmem S1024x2048 .bf16) (harg3 : arg3.IsWhole) (arg4 : Memref sig .tc .vmem S2048x4 .bf16) (harg4 : arg4.IsWhole) (arg5 : Memref sig .tc .vmem S1x4 .f32) (harg5 : arg5.IsWhole) (arg6 : Memref sig .tc .vmem S1024x4 .f32) (harg6 : arg6.IsWhole) (arg7 : Memref sig .tc .vmem S1024x4 .f32) (harg7 : arg7.IsWhole)
    (hf : isFirst3 i) (hl : isLast3 i) (x : Vec F S1024x2048 .bf16) (w : Vec F S2048x4 .bf16) (b : Vec F S1x4 .f32) :
    Σ' (LO : List (View.Piece (Elt F) S1024x4 .f32)), { LS : List (View.Piece (Elt F) S1024x4 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ (∃ d, owns (c : Thread nD τ) arg7 fullShare d)
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f3, %hf3, H3⟩, ⟨%f4, %hf4, H4⟩, ⟨%f5, %hf5, H5⟩, ⟨%d6, %f6, -, H6⟩, ⟨%ds, %fs, -, HS⟩, Hk⟩
    obtain rfl := harg3.eq_unread hf3; obtain rfl := harg4.eq_unread hf4; obtain rfl := harg5.eq_unread hf5
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.Kernel.Hand

end
-- ==== Proof.K.R3Dat.lean ====
/- Program Kernel: the hand-written module of the idealized program named above (the template), with the program's name
   substituted. Both programs are printed from one source and their generated kits differ only in that name; the template's
   text is generic in the float instance, so it serves the word-level program as it stands. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R3Runs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What the body leaves, as its stores read back -/

/-- The accumulator after the point: the run's stores into it, read back. -/
def acc3_only (c : Dev nD) (t : Fin cfg3.N) : Vec F S1024x4 .f32 :=
  accV3.read (Elt F) (accV3.writes (Elt F) accV3.junk (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).2.1)
/-- Those stores cover the accumulator. -/
theorem acc3_only_cover (c : Dev nD) (t : Fin cfg3.N) (y : S1024x4.Idx) :
    ∃ pc ∈ (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).2.1, y ∈ pc.1.set :=
  View.cover_of_tiledL _ S1024x4.size (by sl_kernel_rfl) y
/-- The output block the point stores. -/
def out3_only (c : Dev nD) (t : Fin cfg3.N) : Vec F S1024x4 .f32 :=
  outV3.read (Elt F) (outV3.writes (Elt F) outV3.junk (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).1)
/-- Those stores cover the output block. -/
theorem out3_only_cover (c : Dev nD) (t : Fin cfg3.N) (y : S1024x4.Idx) :
    ∃ pc ∈ (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).1, y ∈ pc.1.set :=
  View.cover_of_tiledL _ S1024x4.size (by sl_kernel_rfl) y

/-! ## The invariant: the accumulator before and after the point -/

/-- Before position `n`: at the region's entry the scoped buffers no window stages at anything and the generator
    register at some state; afterwards the same with the accumulator at what the point before left in it. -/
def PhiS3 (c : Dev nD) : (n : ℕ) → n ≤ cfg3.N → sProp 𝕄
  | 0, _ => Pipeline.ΦA spec3 c
  | n + 1, hn => iprop(iprop(owns (c : Thread nD τ) acc3 fullShare (acc3_only V c ⟨n, hn⟩) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) acc3 fullShare (acc3_only V c ⟨n, hn⟩) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) acc3 fullShare (acc3_only V c ⟨n - 1, by omega⟩) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block, the output's at the block
    the point stores; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_only V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_only V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at the point. The inputs' buffers hold their blocks; both conditions hold; the invariant hands the body
    the accumulator at anything and takes it back at the point's contents; the output buffer, at anything, comes back
    at the stored block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rw [show (dat3 V c).leavesExact 3 t = owns (c : Thread nD τ) (ms3_3 t) fullShare ((dat3 V c).after 3 t) from by
    unfold Dat.leavesExact; rw [live3_3 t], after3_3]
  have hz : t.val = 0 := by have := lt_of_lt_of_eq t.isLt (show cfg3.N = 1 from N_3); omega
  rw [PhiS3_castSucc V c t, PhiS3_zero V c _ _ hz, PhiA3_eq]
  rw [show (⟨t.val, t.isLt⟩ : Fin cfg3.N) = t from rfl]
  unfold acc3_only out3_only; (try dsimp only)
  iintro ⟨⟨⟨HS, Hrest⟩, Hg⟩, Ho, ⟨%d0, H0⟩, ⟨%d1, H1⟩, ⟨%d2, H2⟩, ⟨%d3, H3⟩⟩
  iapply ((run3_only c (grid3.coords t) _ _ _ _ _ _ _ _ _ _ (isFirst3_all t) (isLast3_all t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · unfold owns; iexists _; isplitr
        swap; · iexact HS
        ipureintro; exact View.read_writes_of_cover _ _ _ _ _ (acc3_only_cover V c t)
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (out3_only_cover V c t)

/-- The library's body obligation, at the point. -/
theorem body_obligation3 (c : Dev nD) : BodyObligation (dat3 (F := F) V c) (defs₀ (F := F)) Variants.none () Set.univ := fun t => by
  rw [bigSep_W3, bigSep_W3]
  exact sound_body3 V c t

/-- What the region is handed at its entry is the invariant before the point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the point the invariant gives the same back: the accumulator's contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 1 := N_3; omega
  rw [show (dat3 V c).Φ (Fin.last cfg3.N) = PhiS3 V c (Fin.last cfg3.N).val (Nat.le_of_lt_succ (Fin.last cfg3.N).isLt) from rfl, PhiS3_pos V c _ _ hne, PhiA3_eq]
  iintro ⟨⟨HS, Hrest⟩, Hg⟩
  isplitl [HS Hrest]
  · isplitl [HS]
    · iexists _; iexact HS
    iexact Hrest
  iexact Hg

end Entry

end Cert.Kernel.Hand

end
-- ==== Proof.K.RegKit.lean ====
/- Program Kernel: the hand-written module of the idealized program named above (the template), with the program's name
   substituted. Both programs are printed from one source and their generated kits differ only in that name; the template's
   text is generic in the float instance, so it serves the word-level program as it stands. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.Gen.Kernel.Regions
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱h : Variants := Variants.none
/-- No core owes another anything: no level is assigned. -/
abbrev Lh : GSem nD τ sig → Finset Unit := fun _ => ∅
abbrev lvh : GSem nD τ sig → Unit → ℕ := fun _ _ => 0

/-- What rides beside the buffers through every segment: the generator register at some state, and the core owing
    nothing. -/
abbrev Rr (c : Dev nD) : sProp 𝕄 := iprop((∃ r, prngReg c r) ∗ ∃ W, owes (c : Thread nD τ) (0 : CellTallies nD τ sig Unit) W)

section
variable (pdats : (p : Fin 4) → (c : Dev nD) → Dat τ (Elt F) Unit ℕ (UR sig nD τ) ℕ (Pipeline.pin (pcfgs (F := F)) adm p) c)

set_option backward.isDefEq.respectTransparency.types false in
/-- The region's record, from its layout, its body obligation, its two valuations and the two ends of its invariant. -/
def mkReg (p : Fin 4) (lf : Pipeline.LaunchFacts (nD := nD) (τ := τ) cfgs p)
    (hbody : ∀ c, Pipeline.BodyObligationLoose (pdats p c) (defs₀ (F := F)) 𝒱h () Set.univ)
    (howed : ∀ c t, (pdats p c).owed t = 0)
    (hq : ∀ c w, (pdats p c).q w = fullShare)
    (hrec : ∀ c t, (pdats p c).recorded t = Set.univ)
    (Vin Vout : Dev nD → Valuation τ sig (Elt F))
    (hA : ∀ c w, (pdats p c).A w = Vin c (Pipeline.arrRef (Pipeline.pin (pcfgs (F := F)) adm p).spec w))
    (hF : ∀ c w, (pdats p c).arrAt w (Pipeline.pin (pcfgs (F := F)) adm p).N = Vout c (Pipeline.arrRef (Pipeline.pin (pcfgs (F := F)) adm p).spec w))
    (hrest : ∀ c (b : Ref sig .tc), b ∉ Finset.univ.image (Pipeline.arrRef (Pipeline.pin (pcfgs (F := F)) adm p).spec) → Vout c b = Vin c b)
    (hin : ∀ c, Pipeline.ΦA (Pipeline.pin (pcfgs (F := F)) adm p).spec c ⊢ (pdats p c).Φ 0)
    (hout : ∀ c, (pdats p c).Φ (Fin.last (Pipeline.pin (pcfgs (F := F)) adm p).N) ⊢ Pipeline.ΦA (Pipeline.pin (pcfgs (F := F)) adm p).spec c) :
    Pipeline.RegionSeg (pcfgs (F := F)) adm pdats () defs₀ 𝒱h Lh lvh p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ Lh lvh p howed
  pre c := iprop(StableHlo.held (c : Thread nD τ) (Pipeline.ucRefs τ sig) (Vin c) ∗ Rr c)
  post c := iprop(StableHlo.held (c : Thread nD τ) (Pipeline.ucRefs τ sig) (Vout c) ∗ Rr c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Vin c b)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c :=
    (show (iprop((∃ r, prngReg c r) ∗ Pipeline.prefHeld (pcfgs (F := F) p).pre c (fun _ => fullShare) (adm p).1 ∗ Pipeline.scopedRest (Pipeline.pin (pcfgs (F := F)) adm p).spec c) : sProp 𝕄)
        ⊢ Pipeline.ΦA (Pipeline.pin (pcfgs (F := F)) adm p).spec c from by
      unfold Pipeline.ΦA
      iintro ⟨Hp, -, Hr⟩
      isplitl [Hr]; · iexact Hr
      iexact Hp).trans (hin c)
  hout c := by
    rw [Pipeline.ownSems0_none]
    exact (hout c).trans
      (show (Pipeline.ΦA (Pipeline.pin (pcfgs (F := F)) adm p).spec c : sProp 𝕄)
          ⊢ iprop((∃ r, prngReg c r) ∗ BI.emp ∗ Pipeline.scopedRest (Pipeline.pin (pcfgs (F := F)) adm p).spec c) from by
        unfold Pipeline.ΦA
        iintro ⟨Hr, Hp⟩
        isplitl [Hp]; · iexact Hp
        isplitr; · iempintro
        iexact Hr)
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end

end Cert.Kernel.Hand

end
-- ==== Proof.K.Regs.lean ====
/- Program Kernel: the hand-written module of the idealized program named above (the template), with the program's name
   substituted. Both programs are printed from one source and their generated kits differ only in that name; the template's
   text is generic in the float instance, so it serves the word-level program as it stands. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.R0Dat
import proofs.«113652_j49297634623952_1_alg».proof.Proof.K.R1Dat
import proofs.«113652_j49297634623952_1_alg».proof.Proof.K.R2Dat
import proofs.«113652_j49297634623952_1_alg».proof.Proof.K.R3Dat
import proofs.«113652_j49297634623952_1_alg».proof.Proof.K.RegKit
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents, read at the TensorCore's references. -/
abbrev E0 : (c : Dev nD) → (b : Ref sig .tc) → Buf (Elt F) ((c : Thread nD τ).loc b) := fun c b => V3 m c b
/-- What region 0 leaves in its output array. -/
def o4 (c : Dev nD) : Buf (Elt F) ((c : Thread nD τ).loc main_v19) := (dat0 (E0 m) c).arrAt 3 cfg0.N
/-- After region 0. -/
def W4 (c : Dev nD) : Valuation τ sig (Elt F) := Function.update (V3 m c) main_v19 (o4 m c)
/-- After the host stretch between regions 0 and 1. -/
abbrev W5 (c : Dev nD) : Valuation τ sig (Elt F) := StableHlo.after hostOps1 (W4 m c)
abbrev E1 : (c : Dev nD) → (b : Ref sig .tc) → Buf (Elt F) ((c : Thread nD τ).loc b) := fun c b => W5 m c b
def o6 (c : Dev nD) : Buf (Elt F) ((c : Thread nD τ).loc main_v21) := (dat1 (E1 m) c).arrAt 3 cfg1.N
def W6 (c : Dev nD) : Valuation τ sig (Elt F) := Function.update (W5 m c) main_v21 (o6 m c)
abbrev W7 (c : Dev nD) : Valuation τ sig (Elt F) := StableHlo.after hostOps2 (W6 m c)
abbrev E2 : (c : Dev nD) → (b : Ref sig .tc) → Buf (Elt F) ((c : Thread nD τ).loc b) := fun c b => W7 m c b
def o8 (c : Dev nD) : Buf (Elt F) ((c : Thread nD τ).loc main_v23) := (dat2 (E2 m) c).arrAt 3 cfg2.N
def W8 (c : Dev nD) : Valuation τ sig (Elt F) := Function.update (W7 m c) main_v23 (o8 m c)
abbrev W9 (c : Dev nD) : Valuation τ sig (Elt F) := StableHlo.after hostOps3 (W8 m c)
abbrev E3 : (c : Dev nD) → (b : Ref sig .tc) → Buf (Elt F) ((c : Thread nD τ).loc b) := fun c b => W9 m c b
def o10 (c : Dev nD) : Buf (Elt F) ((c : Thread nD τ).loc main_v25) := (dat3 (E3 m) c).arrAt 3 cfg3.N
/-- At the return. -/
def W10 (c : Dev nD) : Valuation τ sig (Elt F) := Function.update (W9 m c) main_v25 (o10 m c)

/-- The unknowns of the conditional frame, chosen: after a region, the valuation built above. -/
def outs : Outs (F := F) := fun J r c =>
  match J with
  | 4 => W4 m c r
  | 6 => W6 m c r
  | 8 => W8 m c r
  | 10 => W10 m c r
  | _ => V3 m c r

theorem V4_eq (c : Dev nD) : V4 m (outs m) c = W4 m c := by
  show Function.update (V3 m c) main_v19 (W4 m c main_v19) = W4 m c
  unfold W4; rw [Function.update_self]
theorem V5_eq (c : Dev nD) : V5 m (outs m) c = W5 m c := by
  show StableHlo.after hostOps1 (V4 m (outs m) c) = _; rw [V4_eq]
theorem V6_eq (c : Dev nD) : V6 m (outs m) c = W6 m c := by
  show Function.update (V5 m (outs m) c) main_v21 (W6 m c main_v21) = W6 m c
  rw [V5_eq]; unfold W6; rw [Function.update_self]
theorem V7_eq (c : Dev nD) : V7 m (outs m) c = W7 m c := by
  show StableHlo.after hostOps2 (V6 m (outs m) c) = _; rw [V6_eq]
theorem V8_eq (c : Dev nD) : V8 m (outs m) c = W8 m c := by
  show Function.update (V7 m (outs m) c) main_v23 (W8 m c main_v23) = W8 m c
  rw [V7_eq]; unfold W8; rw [Function.update_self]
theorem V9_eq (c : Dev nD) : V9 m (outs m) c = W9 m c := by
  show StableHlo.after hostOps3 (V8 m (outs m) c) = _; rw [V8_eq]
theorem V10_eq (c : Dev nD) : V10 m (outs m) c = W10 m c := by
  show Function.update (V9 m (outs m) c) main_v25 (W10 m c main_v25) = W10 m c
  rw [V9_eq]; unfold W10; rw [Function.update_self]

/-! ## Each region's arrays at its exit -/

theorem hF0 (c : Dev nD) (w : Fin cfg0.W) : (dat0 (E0 m) c).arrAt w cfg0.N = W4 m c (Pipeline.arrRef spec0 w) := by
  match w with
  | ⟨0, _⟩ => exact ((dat0 (E0 m) c).arrAt_in 0 rfl _).trans ((A_eq0 (E0 m) c 0).trans (Function.update_of_ne (StableHlo.devRef_ne_of_ne (by decide)) _ _).symm)
  | ⟨1, _⟩ => exact ((dat0 (E0 m) c).arrAt_in 1 rfl _).trans ((A_eq0 (E0 m) c 1).trans (Function.update_of_ne (StableHlo.devRef_ne_of_ne (by decide)) _ _).symm)
  | ⟨2, _⟩ => exact ((dat0 (E0 m) c).arrAt_in 2 rfl _).trans ((A_eq0 (E0 m) c 2).trans (Function.update_of_ne (StableHlo.devRef_ne_of_ne (by decide)) _ _).symm)
  | ⟨3, _⟩ =>
    unfold W4 o4
    exact (Function.update_self (Proc.devRef (τ := τ) .tc main_v19) _ (V3 m c)).symm
theorem hrest0 (c : Dev nD) (b : Ref sig .tc) (hb : b ∉ Finset.univ.image (Pipeline.arrRef spec0)) : W4 m c b = V3 m c b :=
  Function.update_of_ne (StableHlo.devRef_ne_of_ne fun e => hb (Finset.mem_image.mpr ⟨3, Finset.mem_univ _, e.symm⟩)) _ _

theorem hF1 (c : Dev nD) (w : Fin cfg1.W) : (dat1 (E1 m) c).arrAt w cfg1.N = W6 m c (Pipeline.arrRef spec1 w) := by
  match w with
  | ⟨0, _⟩ => exact ((dat1 (E1 m) c).arrAt_in 0 rfl _).trans ((A_eq1 (E1 m) c 0).trans (Function.update_of_ne (StableHlo.devRef_ne_of_ne (by decide)) _ _).symm)
  | ⟨1, _⟩ => exact ((dat1 (E1 m) c).arrAt_in 1 rfl _).trans ((A_eq1 (E1 m) c 1).trans (Function.update_of_ne (StableHlo.devRef_ne_of_ne (by decide)) _ _).symm)
  | ⟨2, _⟩ => exact ((dat1 (E1 m) c).arrAt_in 2 rfl _).trans ((A_eq1 (E1 m) c 2).trans (Function.update_of_ne (StableHlo.devRef_ne_of_ne (by decide)) _ _).symm)
  | ⟨3, _⟩ =>
    unfold W6 o6
    exact (Function.update_self (Proc.devRef (τ := τ) .tc main_v21) _ (W5 m c)).symm
theorem hrest1 (c : Dev nD) (b : Ref sig .tc) (hb : b ∉ Finset.univ.image (Pipeline.arrRef spec1)) : W6 m c b = W5 m c b :=
  Function.update_of_ne (StableHlo.devRef_ne_of_ne fun e => hb (Finset.mem_image.mpr ⟨3, Finset.mem_univ _, e.symm⟩)) _ _

theorem hF2 (c : Dev nD) (w : Fin cfg2.W) : (dat2 (E2 m) c).arrAt w cfg2.N = W8 m c (Pipeline.arrRef spec2 w) := by
  match w with
  | ⟨0, _⟩ => exact ((dat2 (E2 m) c).arrAt_in 0 rfl _).trans ((A_eq2 (E2 m) c 0).trans (Function.update_of_ne (StableHlo.devRef_ne_of_ne (by decide)) _ _).symm)
  | ⟨1, _⟩ => exact ((dat2 (E2 m) c).arrAt_in 1 rfl _).trans ((A_eq2 (E2 m) c 1).trans (Function.update_of_ne (StableHlo.devRef_ne_of_ne (by decide)) _ _).symm)
  | ⟨2, _⟩ => exact ((dat2 (E2 m) c).arrAt_in 2 rfl _).trans ((A_eq2 (E2 m) c 2).trans (Function.update_of_ne (StableHlo.devRef_ne_of_ne (by decide)) _ _).symm)
  | ⟨3, _⟩ =>
    unfold W8 o8
    exact (Function.update_self (Proc.devRef (τ := τ) .tc main_v23) _ (W7 m c)).symm
theorem hrest2 (c : Dev nD) (b : Ref sig .tc) (hb : b ∉ Finset.univ.image (Pipeline.arrRef spec2)) : W8 m c b = W7 m c b :=
  Function.update_of_ne (StableHlo.devRef_ne_of_ne fun e => hb (Finset.mem_image.mpr ⟨3, Finset.mem_univ _, e.symm⟩)) _ _

theorem hF3 (c : Dev nD) (w : Fin cfg3.W) : (dat3 (E3 m) c).arrAt w cfg3.N = W10 m c (Pipeline.arrRef spec3 w) := by
  match w with
  | ⟨0, _⟩ => exact ((dat3 (E3 m) c).arrAt_in 0 rfl _).trans ((A_eq3 (E3 m) c 0).trans (Function.update_of_ne (StableHlo.devRef_ne_of_ne (by decide)) _ _).symm)
  | ⟨1, _⟩ => exact ((dat3 (E3 m) c).arrAt_in 1 rfl _).trans ((A_eq3 (E3 m) c 1).trans (Function.update_of_ne (StableHlo.devRef_ne_of_ne (by decide)) _ _).symm)
  | ⟨2, _⟩ => exact ((dat3 (E3 m) c).arrAt_in 2 rfl _).trans ((A_eq3 (E3 m) c 2).trans (Function.update_of_ne (StableHlo.devRef_ne_of_ne (by decide)) _ _).symm)
  | ⟨3, _⟩ =>
    unfold W10 o10
    exact (Function.update_self (Proc.devRef (τ := τ) .tc main_v25) _ (W9 m c)).symm
theorem hrest3 (c : Dev nD) (b : Ref sig .tc) (hb : b ∉ Finset.univ.image (Pipeline.arrRef spec3)) : W10 m c b = W9 m c b :=
  Function.update_of_ne (StableHlo.devRef_ne_of_ne fun e => hb (Finset.mem_image.mpr ⟨3, Finset.mem_univ _, e.symm⟩)) _ _

/-! ## The proof data family and the regions' records -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c

def reg0 : Pipeline.RegionSeg (pcfgs (F := F)) adm (pdats m) () defs₀ 𝒱h Lh lvh 0 :=
  mkReg (pdats m) 0 launch0 (fun c => (body_obligation0 (E0 m) c).loose) (fun _ _ => rfl) (fun _ _ => rfl) (fun _ _ => rfl)
    (fun c => V3 m c) (fun c => W4 m c) (fun c w => A_eq0 (E0 m) c w) (hF0 m) (hrest0 m) (fun c => hin0 (E0 m) c) (fun c => hout0 (E0 m) c)
def reg1 : Pipeline.RegionSeg (pcfgs (F := F)) adm (pdats m) () defs₀ 𝒱h Lh lvh 1 :=
  mkReg (pdats m) 1 launch1 (fun c => (body_obligation1 (E1 m) c).loose) (fun _ _ => rfl) (fun _ _ => rfl) (fun _ _ => rfl)
    (fun c => W5 m c) (fun c => W6 m c) (fun c w => A_eq1 (E1 m) c w) (hF1 m) (hrest1 m) (fun c => hin1 (E1 m) c) (fun c => hout1 (E1 m) c)
def reg2 : Pipeline.RegionSeg (pcfgs (F := F)) adm (pdats m) () defs₀ 𝒱h Lh lvh 2 :=
  mkReg (pdats m) 2 launch2 (fun c => (body_obligation2 (E2 m) c).loose) (fun _ _ => rfl) (fun _ _ => rfl) (fun _ _ => rfl)
    (fun c => W7 m c) (fun c => W8 m c) (fun c w => A_eq2 (E2 m) c w) (hF2 m) (hrest2 m) (fun c => hin2 (E2 m) c) (fun c => hout2 (E2 m) c)
def reg3 : Pipeline.RegionSeg (pcfgs (F := F)) adm (pdats m) () defs₀ 𝒱h Lh lvh 3 :=
  mkReg (pdats m) 3 launch3 (fun c => (body_obligation3 (E3 m) c).loose) (fun _ _ => rfl) (fun _ _ => rfl) (fun _ _ => rfl)
    (fun c => W9 m c) (fun c => W10 m c) (fun c w => A_eq3 (E3 m) c w) (hF3 m) (hrest3 m) (fun c => hin3 (E3 m) c) (fun c => hout3 (E3 m) c)

end Cert.Kernel.Hand

end
-- ==== Proof.K.Frame.lean ====
/- Program Kernel: the hand-written module of the idealized program named above (the template), with the program's name
   substituted. Both programs are printed from one source and their generated kits differ only in that name; the template's
   text is generic in the float instance, so it serves the word-level program as it stands. -/
import proofs.«113652_j49297634623952_1_alg».proof.Proof.Gen.Kernel.Launch
import proofs.«113652_j49297634623952_1_alg».proof.Proof.Gen.Kernel.Skeleton
import proofs.«113652_j49297634623952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.K.Regs
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱h Lh lvh
    (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rr c from by
          iintro ⟨-, HO, -, Hp, -⟩
          isplitl [Hp]; · iexists _; iexact Hp
          iexists ∅; iexact HO)
      iintro ⟨H, -⟩
      imodintro
      ihave H' := hmono $$ H
      iexact H')
    (fun c => by
      iintro ⟨-, HO⟩
      iexact HO)
    (reg0 m) (fun c => .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)

end Cert.Kernel.Hand

end
-- ==== Proof.KI.R0Base.lean ====
/-
  Region 0 of the kernel program (the first tiled matrix product, grid 2 × 4 × 4, the contraction axis innermost):
  what the later modules about this region share. A grid point t has coordinates (t / 16, (t / 4) % 4, t % 4); the
  last coordinate k = t % 4 is the block of the contraction axis. The body resets its f32 accumulator when k = 0,
  adds the product of the point's two blocks to it at every k, and when k = 3 stores accumulator + bias, rounded to
  the output's format, into the output block. So the output window is idle unless k = 3, and it is written back
  exactly there.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The accumulator is reset at this point: the contraction block is the first. -/
abbrev isFirst0 (i : grid0.Coords) : Prop := (Scalar.cmpi .ne (Scalar.extui (Scalar.cmpi .eq (BitVec.ofNat 32 (i 2).val) 0#32)) 0#32) = 1#1
/-- The output block is stored at this point: the contraction block is the last. -/
abbrev isLast0 (i : grid0.Coords) : Prop := k0_cond2 i = 1#1

theorem isFirst0_iff : ∀ t : Fin cfg0.N, isFirst0 (grid0.coords t) ↔ t.val % 4 = 0 :=
  (by decide +kernel : ∀ t : Fin grid0.N, isFirst0 (grid0.coords t) ↔ t.val % 4 = 0)
theorem isLast0_iff : ∀ t : Fin cfg0.N, isLast0 (grid0.coords t) ↔ t.val % 4 = 3 :=
  (by decide +kernel : ∀ t : Fin grid0.N, isLast0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last contraction block nothing is stored into the output block: the window is idle there, -/
theorem idle0_3 : ∀ t : Fin cfg0.N, ¬isLast0 (grid0.coords t) → cfg0.idle 3 (grid0.coords t) = true := by decide +kernel
/-- and it is not written back there. -/
theorem noFlush0_3 : ∀ t : Fin cfg0.N, ¬isLast0 (grid0.coords t) → (cfg0.win 3).flush t = false := by decide +kernel
/-- At the last contraction block the output block is stored. -/
theorem live0_3 : ∀ t : Fin cfg0.N, isLast0 (grid0.coords t) → cfg0.idle 3 (grid0.coords t) = false := by decide +kernel

/-! ## The staging memrefs the body is called with, and the accumulator -/

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
/-- The f32 accumulator: a whole scoped buffer of the kernel's own, passed beside the windows. -/
abbrev acc0 : Memref sig .tc .vmem S512x1024 .f32 := Memref.whole cc0_scratch0
/-- The accumulator as a view: its contents are stated through it. -/
abbrev accV0 : View sig .tc .vmem S512x1024 .f32 := acc0.view
/-- One staging buffer of the output window, through which an output block's contents are stated. -/
abbrev outV0 : View sig .tc .vmem S512x1024 .bf16 := (Memref.whole cc0_stg3_0 : Memref sig .tc .vmem S512x1024 .bf16).view

/-! ## The windows' blocks at the region's entry contents -/

section Entry
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. (The bias row is fetched only when the output's column block changes.) -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Entry

/-! ## The region's invariant before its first point, opened at the accumulator -/

/-- The scoped buffers no window of this region stages, the generator register beside them: the accumulator whole
    at some contents, the other scoped buffers unopened, the register at some state. -/
theorem PhiA0_eq (c : Dev nD) :
    (Pipeline.ΦA spec0 c : sProp 𝕄)
      = iprop(iprop((∃ d, owns (c : Thread nD τ) acc0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [acc0, owns_whole]; try rfl

end Cert.KernelIdeal.Hand

end
-- ==== Proof.KI.R0Runs.lean ====
/-
  Region 0: the body run once per control case. The body has two conditionals, both on the contraction block k
  alone: "k is the first" (reset the accumulator) and "k is the last" (store the output block). With four contraction
  blocks a point is in exactly one of three cases — first, middle, last — and each run below executes the printed
  body symbolically in its case on whole staging memrefs. What a run leaves in a buffer it stores into is recorded as
  the list of its stores (newest first), found while the run is executed; the buffers it only reads come back as
  they were.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R0Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST contraction block (k = 0 ≠ last): the accumulator, at anything, is reset and then takes the first product;
    the output block is not touched. -/
noncomputable def run0_first (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst0 i) (hl : ¬isLast0 i) (x : Vec F S512x1024 .bf16) (w : Vec F S1024x1024 .bf16) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc0__mm_kernel i arg3 harg3 arg4 harg4 arg5 harg5 arg6 harg6 arg7 harg7) K } := by
  refine ⟨?_, fun b o E K => ?run⟩
  case run =>
    simp only [cc0__mm_kernel_eq_skeleton]; unfold cc0__mm_kernel_skel
    unfold owns
    iintro ⟨⟨%f3, %hf3, H3⟩, ⟨%f4, %hf4, H4⟩, ⟨%f5, %hf5, H5⟩, ⟨%f6, %hf6, H6⟩, ⟨%ds, %fs, -, HS⟩, Hk⟩
    obtain rfl := harg3.eq_unread hf3; obtain rfl := harg4.eq_unread hf4; obtain rfl := harg5.eq_unread hf5; obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- A MIDDLE contraction block (neither first nor last): the accumulator, at what the point before left (`xs`),
    takes this block's product; the output block is not touched. -/
noncomputable def run0_mid (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst0 i) (hl : ¬isLast0 i) (x : Vec F S512x1024 .bf16) (w : Vec F S1024x1024 .bf16) (xs : Vec F S512x1024 .f32) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ owns (c : Thread nD τ) arg7 fullShare xs
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc0__mm_kernel i arg3 harg3 arg4 harg4 arg5 harg5 arg6 harg6 arg7 harg7) K } := by
  refine ⟨?_, fun b o E K => ?run⟩
  case run =>
    simp only [cc0__mm_kernel_eq_skeleton]; unfold cc0__mm_kernel_skel
    unfold owns
    iintro ⟨⟨%f3, %hf3, H3⟩, ⟨%f4, %hf4, H4⟩, ⟨%f5, %hf5, H5⟩, ⟨%f6, %hf6, H6⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- The LAST contraction block (k = 3 ≠ first): the accumulator, at what the point before left, takes the last product,
    and accumulator + bias row, rounded, is stored over the whole output block (which may hold anything before). -/
noncomputable def run0_last (c : Dev nD) (i : grid0.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst0 i) (hl : isLast0 i) (x : Vec F S512x1024 .bf16) (w : Vec F S1024x1024 .bf16) (b : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.KernelIdeal.Hand

end
-- ==== Proof.KI.R0Dat.lean ====
/-
  Region 0: the pipeline's proof data and the body obligation.

  After the body at point t the accumulator holds: at a first contraction block, the first product over a reset; at a
  later block, this block's product added to what the point before left. Only at a last block is the output block
  stored (accumulator + bias row, rounded). This is a recursion on the point, `outsAt0`; the region's invariant
  carries the accumulator at the recursion's value from one point to the next, and forgets it at the region's end.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R0Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What each case leaves, as its stores read back -/

/-- The accumulator after a first block: the run's stores into it, read back. -/
def acc0_first (c : Dev nD) (t : Fin cfg0.N) (hf : isFirst0 (grid0.coords t)) (hl : ¬isLast0 (grid0.coords t)) : Vec F S512x1024 .f32 :=
  accV0.read (Elt F) (accV0.writes (Elt F) accV0.junk (run0_first c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t)).1)
/-- Those stores cover the accumulator. -/
theorem acc0_first_cover (c : Dev nD) (t : Fin cfg0.N) (hf : isFirst0 (grid0.coords t)) (hl : ¬isLast0 (grid0.coords t)) (y : S512x1024.Idx) :
    ∃ pc ∈ (run0_first c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t)).1, y ∈ pc.1.set :=
  View.cover_of_tiledL _ S512x1024.size (by sl_kernel_rfl) y

/-- The accumulator after a middle block, over what the point before left (`xs`). -/
def acc0_mid (c : Dev nD) (t : Fin cfg0.N) (hf : ¬isFirst0 (grid0.coords t)) (hl : ¬isLast0 (grid0.coords t)) (xs : Vec F S512x1024 .f32) : Vec F S512x1024 .f32 :=
  accV0.read (Elt F) (accV0.writes (Elt F) accV0.junk (run0_mid c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) xs).1)
theorem acc0_mid_cover (c : Dev nD) (t : Fin cfg0.N) (hf : ¬isFirst0 (grid0.coords t)) (hl : ¬isLast0 (grid0.coords t)) (xs : Vec F S512x1024 .f32) (y : S512x1024.Idx) :
    ∃ pc ∈ (run0_mid c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) xs).1, y ∈ pc.1.set :=
  View.cover_of_tiledL _ S512x1024.size (by sl_kernel_rfl) y

/-- The accumulator after a last block, over what the point before left. -/
def acc0_last (c : Dev nD) (t : Fin cfg0.N) (hf : ¬isFirst0 (grid0.coords t)) (hl : isLast0 (grid0.coords t)) (xs : Vec F S512x1024 .f32) : Vec F S512x1024 .f32 :=
  accV0.read (Elt F) (accV0.writes (Elt F) accV0.junk (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).2.1)
theorem acc0_last_cover (c : Dev nD) (t : Fin cfg0.N) (hf : ¬isFirst0 (grid0.coords t)) (hl : isLast0 (grid0.coords t)) (xs : Vec F S512x1024 .f32) (y : S512x1024.Idx) :
    ∃ pc ∈ (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).2.1, y ∈ pc.1.set :=
  View.cover_of_tiledL _ S512x1024.size (by sl_kernel_rfl) y
/-- The output block a last block stores. -/
def out0_last (c : Dev nD) (t : Fin cfg0.N) (hf : ¬isFirst0 (grid0.coords t)) (hl : isLast0 (grid0.coords t)) (xs : Vec F S512x1024 .f32) : Vec F S512x1024 .bf16 :=
  outV0.read (Elt F) (outV0.writes (Elt F) outV0.junk (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).1)
theorem out0_last_cover (c : Dev nD) (t : Fin cfg0.N) (hf : ¬isFirst0 (grid0.coords t)) (hl : isLast0 (grid0.coords t)) (xs : Vec F S512x1024 .f32) (y : S512x1024.Idx) :
    ∃ pc ∈ (run0_last c (grid0.coords t) (ms0_0 t) (hs0_0 t) (ms0_1 t) (hs0_1 t) (ms0_2 t) (hs0_2 t) (ms0_3 t) (hs0_3 t) acc0 (Memref.isWhole_whole _) hf hl (iblk0 V c 0 t) (iblk0 V c 1 t) (iblk0 V c 2 t) xs).1, y ∈ pc.1.set :=
  View.cover_of_tiledL _ S512x1024.size (by sl_kernel_rfl) y
/-- Where nothing is stored into the output block its buffer's contents are not named: nothing consults them (the
    window is neither written back there nor read at the next point). -/
def out0_idle : Vec F S512x1024 .bf16 := outV0.read (Elt F) outV0.junk

/-! ## The accumulation, point by point -/

/-- What the output block's staging buffer and the accumulator hold after the body at position `n`. -/
def outsAt0 (c : Dev nD) : (n : ℕ) → n < cfg0.N → Vec F S512x1024 .bf16 × Vec F S512x1024 .f32
  | 0, hn => (out0_idle, acc0_first V c ⟨0, hn⟩ ((isFirst0_iff ⟨0, hn⟩).mpr (Nat.zero_mod _)) (fun h => by have := (isLast0_iff ⟨0, hn⟩).mp h; (try dsimp only at this); omega))
  | n + 1, hn =>
    if hka : (n + 1) % 4 = 0 then
      (out0_idle, acc0_first V c ⟨n + 1, hn⟩ ((isFirst0_iff ⟨n + 1, hn⟩).mpr hka) (fun h => by have := (isLast0_iff ⟨n + 1, hn⟩).mp h; (try dsimp only at this); omega))
    else if hkb : (n + 1) % 4 = 3 then
      (out0_last V c ⟨n + 1, hn⟩ (fun h => hka ((isFirst0_iff ⟨n + 1, hn⟩).mp h)) ((isLast0_iff ⟨n + 1, hn⟩).mpr hkb) (outsAt0 c n (Nat.lt_of_succ_lt hn)).2,
       acc0_last V c ⟨n + 1, hn⟩ (fun h => hka ((isFirst0_iff ⟨n + 1, hn⟩).mp h)) ((isLast0_iff ⟨n + 1, hn⟩).mpr hkb) (outsAt0 c n (Nat.lt_of_succ_lt hn)).2)
    else
      (out0_idle, acc0_mid V c ⟨n + 1, hn⟩ (fun h => hka ((isFirst0_iff ⟨n + 1, hn⟩).mp h)) (fun h => hkb ((isLast0_iff ⟨n + 1, hn⟩).mp h)) (outsAt0 c n (Nat.lt_of_succ_lt hn)).2)

theorem outsAt0_first (c : Dev nD) (t : Fin cfg0.N) (hka : t.val % 4 = 0) :
    outsAt0 V c t.val t.isLt = (out0_idle, acc0_first V c t ((isFirst0_iff t).mpr hka) (fun h => by have := (isLast0_iff t).mp h; omega)) := by
  obtain ⟨n, hn⟩ := t
  cases n with
  | zero => rfl
  | succ n => exact (dif_pos hka).trans rfl

theorem outsAt0_mid (c : Dev nD) (t : Fin cfg0.N) (hka : ¬t.val % 4 = 0) (hkb : ¬t.val % 4 = 3) :
    outsAt0 V c t.val t.isLt = (out0_idle, acc0_mid V c t (fun h => hka ((isFirst0_iff t).mp h)) (fun h => hkb ((isLast0_iff t).mp h)) (outsAt0 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_neg hkb).trans rfl)

theorem outsAt0_last (c : Dev nD) (t : Fin cfg0.N) (hka : ¬t.val % 4 = 0) (hkb : t.val % 4 = 3) :
    outsAt0 V c t.val t.isLt = (out0_last V c t (fun h => hka ((isFirst0_iff t).mp h)) ((isLast0_iff t).mpr hkb) (outsAt0 V c (t.val - 1) (Nat.lt_of_le_of_lt (Nat.sub_le _ _) t.isLt)).2,
      acc0_last V c t (fun h => hka ((isFirst0_iff t).mp h)) ((isLast0_iff t).mpr hkb) (outsAt0 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_pos hkb).trans rfl)

/-! ## The invariant: the accumulator carried from point to point -/

/-- Before position `n`: at the region's entry the scoped buffers no window stages at anything and the generator
    register at some state; afterwards the same with the accumulator at what the point before left in it. -/
def PhiS0 (c : Dev nD) : (n : ℕ) → n ≤ cfg0.N → sProp 𝕄
  | 0, _ => Pipeline.ΦA spec0 c
  | n + 1, hn => iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) acc0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) acc0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; after the body each input's buffer at its block, the output's at
    `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the closed forms say which case the point is in;
    the invariant hands the body the accumulator (at anything before the first point, else at what the point before
    left) and takes it back at this point's contents; an idle output buffer is handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 32 := lt_of_lt_of_eq t.isLt (show cfg0.N = 32 from N_0)
  by_cases hka : t.val % 4 = 0
  · have hf : isFirst0 (grid0.coords t) := (isFirst0_iff t).mpr hka
    have hl : ¬isLast0 (grid0.coords t) := fun h => by have := (isLast0_iff t).mp h; omega
    rw [Dat.leavesExact_idle (dat0 V c) 3 t (idle0_3 t hl) (noFlush0_3 t hl)]
    rw [outsAt0_first V c t hka]
    unfold acc0_first; (try dsimp only)
    by_cases hz : t.val = 0
    · rw [PhiS0_castSucc V c t, PhiS0_zero V c _ _ hz, PhiA0_eq]
      iintro ⟨⟨⟨HS, Hrest⟩, Hg⟩, Ho, ⟨%da, Ha⟩, ⟨%db, Hb⟩, ⟨%dc, Hc⟩, ⟨%dd, Hd⟩⟩
      iapply ((run0_first c (grid0.coords t) _ _ _ _ _ _ _ _ _ _ hf hl (iblk0 V c 0 t) (iblk0 V c 1 t)).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc0_first_cover V c t hf hl)
          iexact Hrest
        iexact Hg
      isplitl [Ho]; · iexact Ho
      isplitl [Ha]; · iexact Ha
      isplitl [Hb]; · iexact Hb
      isplitl [Hc]; · iexact Hc
      iexists _; iexact Hd
    · rw [PhiS0_castSucc V c t, PhiS0_pos V c _ _ hz]
      iintro ⟨⟨⟨HS, Hrest⟩, Hg⟩, Ho, ⟨%da, Ha⟩, ⟨%db, Hb⟩, ⟨%dc, Hc⟩, ⟨%dd, Hd⟩⟩
      iapply ((run0_first c (grid0.coords t) _ _ _ _ _ _ _ _ _ _ hf hl (iblk0 V c 0 t) (iblk0 V c 1 t)).2 _ _ Set.univ _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc0_first_cover V c t hf hl)
          iexact Hrest
        iexact Hg
      isplitl [Ho]; · iexact Ho
      isplitl [Ha]; · iexact Ha
      isplitl [Hb]; · iexact Hb
      isplitl [Hc]; · iexact Hc
      iexists _; iexact Hd
  · have hf : ¬isFirst0 (grid0.coords t) := fun h => hka ((isFirst0_iff t).mp h)
    have hz : t.val ≠ 0 := fun h => hka (by rw [h])
    by_cases hkb : t.val % 4 = 3
    · have hl : isLast0 (grid0.coords t) := (isLast0_iff t).mpr hkb
      rw [show (dat0 V c).leavesExact 3 t = owns (c : Thread nD τ) (ms0_3 t) fullShare ((dat0 V c).after 3 t) from by
        unfold Dat.leavesExact; rw [live0_3 t hl], after0_3]
      rw [outsAt0_last V c t hka hkb]
      unfold out0_last acc0_last; (try dsimp only)
      rw [PhiS0_castSucc V c t, PhiS0_pos V c _ _ hz]
      iintro ⟨⟨⟨HS, Hrest⟩, Hg⟩, Ho, ⟨%da, Ha⟩, ⟨%db, Hb⟩, ⟨%dc, Hc⟩, ⟨%dd, Hd⟩⟩
      iapply ((run0_last c (grid0.coords t) _ _ _ _ _ _ _ _ _ _ hf hl (iblk0 V c 0 t) (iblk0 V c 1 t) (iblk0 V c 2 t) _).2.2 Set.univ _)
      isplitl [Ha]; · iexact Ha
      isplitl [Hb]; · iexact Hb
      isplitl [Hc]; · iexact Hc
      isplitl [Hd]; · iexists _; iexact Hd
      isplitl [HS]; · iexact HS
      iintro ⟨Ha, Hb, Hc, ⟨%ed, Hd⟩, ⟨%es, HS⟩⟩
      isplitl [HS Hrest Hg]
      · isplitl [HS Hrest]
        · isplitl [HS]
          · unfold owns; iexists _; isplitr
            swap; · iexact HS
            ipureintro; exact View.read_writes_of_cover _ _ _ _ _ (acc0_last_cover V c t hf hl _)
          iexact Hrest
        iexact Hg
      isplitl [Ho]; · iexact Ho
      isplitl [Ha]; · iexact Ha
      isplitl [Hb]; · iexact Hb
      isplitl [Hc]; · iexact Hc
      unfold owns; iexists _; isplitr
      swap; · iexact Hd
      ipureintro; exact View.read_writes_of_cover _ _ _ _ _ (out0_last_cover V c t hf hl _)
    · have hl : ¬isLast0 (grid0.coords t) := fun h => hkb ((isLast0_iff t).mp h)
      rw [Dat.leavesExact_idle (dat0 V c) 3 t (idle0_3 t hl) (noFlush0_3 t hl)]
      rw [outsAt0_mid V c t hka hkb]
      unfold acc0_mid; (try dsimp only)
      rw [PhiS0_castSucc V c t, PhiS0_pos V c _ _ hz]
      iintro ⟨⟨⟨HS, Hrest⟩, Hg⟩, Ho, ⟨%da, Ha⟩, ⟨%db, Hb⟩, ⟨%dc, Hc⟩, ⟨%dd, Hd⟩⟩
      iapply ((run0_mid c (grid0.coords t) _ _ _ _ _ _ _ _ _ _ hf hl (iblk0 V c 0 t) (iblk0 V c 1 t) _).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc0_mid_cover V c t hf hl _)
          iexact Hrest
        iexact Hg
      isplitl [Ho]; · iexact Ho
      isplitl [Ha]; · iexact Ha
      isplitl [Hb]; · iexact Hb
      isplitl [Hc]; · iexact Hc
      iexists _; iexact Hd

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its entry is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the same back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne, PhiA0_eq]
  iintro ⟨⟨HS, Hrest⟩, Hg⟩
  isplitl [HS Hrest]
  · isplitl [HS]
    · iexists _; iexact HS
    iexact Hrest
  iexact Hg

end Entry

end Cert.KernelIdeal.Hand

end
-- ==== Proof.KI.R1Base.lean ====
/- Region 1 of program KernelIdeal, laid out from region 0's hand-written module of the idealized program (the template named above)
   by substituting the region's number, its grid's numbers (64 points, the contraction block is t % 4, the last is 3)
   and the program's name. The mathematics is the template's: reset the accumulator at the first contraction block, add one
   block's product at every block, store accumulator + bias at the last. -/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The accumulator is reset at this point: the contraction block is the first. -/
abbrev isFirst1 (i : grid1.Coords) : Prop := (Scalar.cmpi .ne (Scalar.extui (Scalar.cmpi .eq (BitVec.ofNat 32 (i 2).val) 0#32)) 0#32) = 1#1
/-- The output block is stored at this point: the contraction block is the last. -/
abbrev isLast1 (i : grid1.Coords) : Prop := k1_cond2 i = 1#1

theorem isFirst1_iff : ∀ t : Fin cfg1.N, isFirst1 (grid1.coords t) ↔ t.val % 4 = 0 :=
  (by decide +kernel : ∀ t : Fin grid1.N, isFirst1 (grid1.coords t) ↔ t.val % 4 = 0)
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from the last contraction block nothing is stored into the output block: the window is idle there, -/
theorem idle1_3 : ∀ t : Fin cfg1.N, ¬isLast1 (grid1.coords t) → cfg1.idle 3 (grid1.coords t) = true := by decide +kernel
/-- and it is not written back there. -/
theorem noFlush1_3 : ∀ t : Fin cfg1.N, ¬isLast1 (grid1.coords t) → (cfg1.win 3).flush t = false := by decide +kernel
/-- At the last contraction block the output block is stored. -/
theorem live1_3 : ∀ t : Fin cfg1.N, isLast1 (grid1.coords t) → cfg1.idle 3 (grid1.coords t) = false := by decide +kernel

/-! ## The staging memrefs the body is called with, and the accumulator -/

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
/-- The f32 accumulator: a whole scoped buffer of the kernel's own, passed beside the windows. -/
abbrev acc1 : Memref sig .tc .vmem S512x1024 .f32 := Memref.whole cc1_scratch0
/-- The accumulator as a view: its contents are stated through it. -/
abbrev accV1 : View sig .tc .vmem S512x1024 .f32 := acc1.view
/-- One staging buffer of the output window, through which an output block's contents are stated. -/
abbrev outV1 : View sig .tc .vmem S512x1024 .bf16 := (Memref.whole cc1_stg3_0 : Memref sig .tc .vmem S512x1024 .bf16).view

/-! ## The windows' blocks at the region's entry contents -/

section Entry
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved. (The bias row is fetched only when the output's column block changes.) -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The region's invariant before its first point, opened at the accumulator -/

/-- The scoped buffers no window of this region stages, the generator register beside them: the accumulator whole
    at some contents, the other scoped buffers unopened, the register at some state. -/
theorem PhiA1_eq (c : Dev nD) :
    (Pipeline.ΦA spec1 c : sProp 𝕄)
      = iprop(iprop((∃ d, owns (c : Thread nD τ) acc1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [acc1, owns_whole]; try rfl

end Cert.KernelIdeal.Hand

end
-- ==== Proof.KI.R1Runs.lean ====
/- Region 1 of program KernelIdeal, laid out from region 0's hand-written module of the idealized program (the template named above)
   by substituting the region's number, its grid's numbers (64 points, the contraction block is t % 4, the last is 3)
   and the program's name. The mathematics is the template's: reset the accumulator at the first contraction block, add one
   block's product at every block, store accumulator + bias at the last. -/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R1Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST contraction block (k = 0 ≠ last): the accumulator, at anything, is reset and then takes the first product;
    the output block is not touched. -/
noncomputable def run1_first (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst1 i) (hl : ¬isLast1 i) (x : Vec F S512x1024 .bf16) (w : Vec F S1024x1024 .bf16) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun b o E K => ?run⟩
  case run =>
    simp only [cc1__mm_kernel_eq_skeleton]; unfold cc1__mm_kernel_skel
    unfold owns
    iintro ⟨⟨%f3, %hf3, H3⟩, ⟨%f4, %hf4, H4⟩, ⟨%f5, %hf5, H5⟩, ⟨%f6, %hf6, H6⟩, ⟨%ds, %fs, -, HS⟩, Hk⟩
    obtain rfl := harg3.eq_unread hf3; obtain rfl := harg4.eq_unread hf4; obtain rfl := harg5.eq_unread hf5; obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- A MIDDLE contraction block (neither first nor last): the accumulator, at what the point before left (`xs`),
    takes this block's product; the output block is not touched. -/
noncomputable def run1_mid (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst1 i) (hl : ¬isLast1 i) (x : Vec F S512x1024 .bf16) (w : Vec F S1024x1024 .bf16) (xs : Vec F S512x1024 .f32) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ owns (c : Thread nD τ) arg7 fullShare xs
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, fun b o E K => ?run⟩
  case run =>
    simp only [cc1__mm_kernel_eq_skeleton]; unfold cc1__mm_kernel_skel
    unfold owns
    iintro ⟨⟨%f3, %hf3, H3⟩, ⟨%f4, %hf4, H4⟩, ⟨%f5, %hf5, H5⟩, ⟨%f6, %hf6, H6⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- The LAST contraction block (k = 3 ≠ first): the accumulator, at what the point before left, takes the last product,
    and accumulator + bias row, rounded, is stored over the whole output block (which may hold anything before). -/
noncomputable def run1_last (c : Dev nD) (i : grid1.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst1 i) (hl : isLast1 i) (x : Vec F S512x1024 .bf16) (w : Vec F S1024x1024 .bf16) (b : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.KernelIdeal.Hand

end
-- ==== Proof.KI.R1Dat.lean ====
/- Region 1 of program KernelIdeal, laid out from region 0's hand-written module of the idealized program (the template named above)
   by substituting the region's number, its grid's numbers (64 points, the contraction block is t % 4, the last is 3)
   and the program's name. The mathematics is the template's: reset the accumulator at the first contraction block, add one
   block's product at every block, store accumulator + bias at the last. -/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R1Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What each case leaves, as its stores read back -/

/-- The accumulator after a first block: the run's stores into it, read back. -/
def acc1_first (c : Dev nD) (t : Fin cfg1.N) (hf : isFirst1 (grid1.coords t)) (hl : ¬isLast1 (grid1.coords t)) : Vec F S512x1024 .f32 :=
  accV1.read (Elt F) (accV1.writes (Elt F) accV1.junk (run1_first c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t)).1)
/-- Those stores cover the accumulator. -/
theorem acc1_first_cover (c : Dev nD) (t : Fin cfg1.N) (hf : isFirst1 (grid1.coords t)) (hl : ¬isLast1 (grid1.coords t)) (y : S512x1024.Idx) :
    ∃ pc ∈ (run1_first c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t)).1, y ∈ pc.1.set :=
  View.cover_of_tiledL _ S512x1024.size (by sl_kernel_rfl) y

/-- The accumulator after a middle block, over what the point before left (`xs`). -/
def acc1_mid (c : Dev nD) (t : Fin cfg1.N) (hf : ¬isFirst1 (grid1.coords t)) (hl : ¬isLast1 (grid1.coords t)) (xs : Vec F S512x1024 .f32) : Vec F S512x1024 .f32 :=
  accV1.read (Elt F) (accV1.writes (Elt F) accV1.junk (run1_mid c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) xs).1)
theorem acc1_mid_cover (c : Dev nD) (t : Fin cfg1.N) (hf : ¬isFirst1 (grid1.coords t)) (hl : ¬isLast1 (grid1.coords t)) (xs : Vec F S512x1024 .f32) (y : S512x1024.Idx) :
    ∃ pc ∈ (run1_mid c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) xs).1, y ∈ pc.1.set :=
  View.cover_of_tiledL _ S512x1024.size (by sl_kernel_rfl) y

/-- The accumulator after a last block, over what the point before left. -/
def acc1_last (c : Dev nD) (t : Fin cfg1.N) (hf : ¬isFirst1 (grid1.coords t)) (hl : isLast1 (grid1.coords t)) (xs : Vec F S512x1024 .f32) : Vec F S512x1024 .f32 :=
  accV1.read (Elt F) (accV1.writes (Elt F) accV1.junk (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).2.1)
theorem acc1_last_cover (c : Dev nD) (t : Fin cfg1.N) (hf : ¬isFirst1 (grid1.coords t)) (hl : isLast1 (grid1.coords t)) (xs : Vec F S512x1024 .f32) (y : S512x1024.Idx) :
    ∃ pc ∈ (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).2.1, y ∈ pc.1.set :=
  View.cover_of_tiledL _ S512x1024.size (by sl_kernel_rfl) y
/-- The output block a last block stores. -/
def out1_last (c : Dev nD) (t : Fin cfg1.N) (hf : ¬isFirst1 (grid1.coords t)) (hl : isLast1 (grid1.coords t)) (xs : Vec F S512x1024 .f32) : Vec F S512x1024 .bf16 :=
  outV1.read (Elt F) (outV1.writes (Elt F) outV1.junk (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).1)
theorem out1_last_cover (c : Dev nD) (t : Fin cfg1.N) (hf : ¬isFirst1 (grid1.coords t)) (hl : isLast1 (grid1.coords t)) (xs : Vec F S512x1024 .f32) (y : S512x1024.Idx) :
    ∃ pc ∈ (run1_last c (grid1.coords t) (ms1_0 t) (hs1_0 t) (ms1_1 t) (hs1_1 t) (ms1_2 t) (hs1_2 t) (ms1_3 t) (hs1_3 t) acc1 (Memref.isWhole_whole _) hf hl (iblk1 V c 0 t) (iblk1 V c 1 t) (iblk1 V c 2 t) xs).1, y ∈ pc.1.set :=
  View.cover_of_tiledL _ S512x1024.size (by sl_kernel_rfl) y
/-- Where nothing is stored into the output block its buffer's contents are not named: nothing consults them (the
    window is neither written back there nor read at the next point). -/
def out1_idle : Vec F S512x1024 .bf16 := outV1.read (Elt F) outV1.junk

/-! ## The accumulation, point by point -/

/-- What the output block's staging buffer and the accumulator hold after the body at position `n`. -/
def outsAt1 (c : Dev nD) : (n : ℕ) → n < cfg1.N → Vec F S512x1024 .bf16 × Vec F S512x1024 .f32
  | 0, hn => (out1_idle, acc1_first V c ⟨0, hn⟩ ((isFirst1_iff ⟨0, hn⟩).mpr (Nat.zero_mod _)) (fun h => by have := (isLast1_iff ⟨0, hn⟩).mp h; (try dsimp only at this); omega))
  | n + 1, hn =>
    if hka : (n + 1) % 4 = 0 then
      (out1_idle, acc1_first V c ⟨n + 1, hn⟩ ((isFirst1_iff ⟨n + 1, hn⟩).mpr hka) (fun h => by have := (isLast1_iff ⟨n + 1, hn⟩).mp h; (try dsimp only at this); omega))
    else if hkb : (n + 1) % 4 = 3 then
      (out1_last V c ⟨n + 1, hn⟩ (fun h => hka ((isFirst1_iff ⟨n + 1, hn⟩).mp h)) ((isLast1_iff ⟨n + 1, hn⟩).mpr hkb) (outsAt1 c n (Nat.lt_of_succ_lt hn)).2,
       acc1_last V c ⟨n + 1, hn⟩ (fun h => hka ((isFirst1_iff ⟨n + 1, hn⟩).mp h)) ((isLast1_iff ⟨n + 1, hn⟩).mpr hkb) (outsAt1 c n (Nat.lt_of_succ_lt hn)).2)
    else
      (out1_idle, acc1_mid V c ⟨n + 1, hn⟩ (fun h => hka ((isFirst1_iff ⟨n + 1, hn⟩).mp h)) (fun h => hkb ((isLast1_iff ⟨n + 1, hn⟩).mp h)) (outsAt1 c n (Nat.lt_of_succ_lt hn)).2)

theorem outsAt1_first (c : Dev nD) (t : Fin cfg1.N) (hka : t.val % 4 = 0) :
    outsAt1 V c t.val t.isLt = (out1_idle, acc1_first V c t ((isFirst1_iff t).mpr hka) (fun h => by have := (isLast1_iff t).mp h; omega)) := by
  obtain ⟨n, hn⟩ := t
  cases n with
  | zero => rfl
  | succ n => exact (dif_pos hka).trans rfl

theorem outsAt1_mid (c : Dev nD) (t : Fin cfg1.N) (hka : ¬t.val % 4 = 0) (hkb : ¬t.val % 4 = 3) :
    outsAt1 V c t.val t.isLt = (out1_idle, acc1_mid V c t (fun h => hka ((isFirst1_iff t).mp h)) (fun h => hkb ((isLast1_iff t).mp h)) (outsAt1 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_neg hkb).trans rfl)

theorem outsAt1_last (c : Dev nD) (t : Fin cfg1.N) (hka : ¬t.val % 4 = 0) (hkb : t.val % 4 = 3) :
    outsAt1 V c t.val t.isLt = (out1_last V c t (fun h => hka ((isFirst1_iff t).mp h)) ((isLast1_iff t).mpr hkb) (outsAt1 V c (t.val - 1) (Nat.lt_of_le_of_lt (Nat.sub_le _ _) t.isLt)).2,
      acc1_last V c t (fun h => hka ((isFirst1_iff t).mp h)) ((isLast1_iff t).mpr hkb) (outsAt1 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_pos hkb).trans rfl)

/-! ## The invariant: the accumulator carried from point to point -/

/-- Before position `n`: at the region's entry the scoped buffers no window stages at anything and the generator
    register at some state; afterwards the same with the accumulator at what the point before left in it. -/
def PhiS1 (c : Dev nD) : (n : ℕ) → n ≤ cfg1.N → sProp 𝕄
  | 0, _ => Pipeline.ΦA spec1 c
  | n + 1, hn => iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) acc1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) acc1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the closed forms say which case the point is in;
    the invariant hands the body the accumulator (at anything before the first point, else at what the point before
    left) and takes it back at this point's contents; an idle output buffer is handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 64 := lt_of_lt_of_eq t.isLt (show cfg1.N = 64 from N_1)
  by_cases hka : t.val % 4 = 0
  · have hf : isFirst1 (grid1.coords t) := (isFirst1_iff t).mpr hka
    have hl : ¬isLast1 (grid1.coords t) := fun h => by have := (isLast1_iff t).mp h; omega
    rw [Dat.leavesExact_idle (dat1 V c) 3 t (idle1_3 t hl) (noFlush1_3 t hl)]
    rw [outsAt1_first V c t hka]
    unfold acc1_first; (try dsimp only)
    by_cases hz : t.val = 0
    · rw [PhiS1_castSucc V c t, PhiS1_zero V c _ _ hz, PhiA1_eq]
      iintro ⟨⟨⟨HS, Hrest⟩, Hg⟩, Ho, ⟨%da, Ha⟩, ⟨%db, Hb⟩, ⟨%dc, Hc⟩, ⟨%dd, Hd⟩⟩
      iapply ((run1_first c (grid1.coords t) _ _ _ _ _ _ _ _ _ _ hf hl (iblk1 V c 0 t) (iblk1 V c 1 t)).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc1_first_cover V c t hf hl)
          iexact Hrest
        iexact Hg
      isplitl [Ho]; · iexact Ho
      isplitl [Ha]; · iexact Ha
      isplitl [Hb]; · iexact Hb
      isplitl [Hc]; · iexact Hc
      iexists _; iexact Hd
    · rw [PhiS1_castSucc V c t, PhiS1_pos V c _ _ hz]
      iintro ⟨⟨⟨HS, Hrest⟩, Hg⟩, Ho, ⟨%da, Ha⟩, ⟨%db, Hb⟩, ⟨%dc, Hc⟩, ⟨%dd, Hd⟩⟩
      iapply ((run1_first c (grid1.coords t) _ _ _ _ _ _ _ _ _ _ hf hl (iblk1 V c 0 t) (iblk1 V c 1 t)).2 _ _ Set.univ _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc1_first_cover V c t hf hl)
          iexact Hrest
        iexact Hg
      isplitl [Ho]; · iexact Ho
      isplitl [Ha]; · iexact Ha
      isplitl [Hb]; · iexact Hb
      isplitl [Hc]; · iexact Hc
      iexists _; iexact Hd
  · have hf : ¬isFirst1 (grid1.coords t) := fun h => hka ((isFirst1_iff t).mp h)
    have hz : t.val ≠ 0 := fun h => hka (by rw [h])
    by_cases hkb : t.val % 4 = 3
    · have hl : isLast1 (grid1.coords t) := (isLast1_iff t).mpr hkb
      rw [show (dat1 V c).leavesExact 3 t = owns (c : Thread nD τ) (ms1_3 t) fullShare ((dat1 V c).after 3 t) from by
        unfold Dat.leavesExact; rw [live1_3 t hl], after1_3]
      rw [outsAt1_last V c t hka hkb]
      unfold out1_last acc1_last; (try dsimp only)
      rw [PhiS1_castSucc V c t, PhiS1_pos V c _ _ hz]
      iintro ⟨⟨⟨HS, Hrest⟩, Hg⟩, Ho, ⟨%da, Ha⟩, ⟨%db, Hb⟩, ⟨%dc, Hc⟩, ⟨%dd, Hd⟩⟩
      iapply ((run1_last c (grid1.coords t) _ _ _ _ _ _ _ _ _ _ hf hl (iblk1 V c 0 t) (iblk1 V c 1 t) (iblk1 V c 2 t) _).2.2 Set.univ _)
      isplitl [Ha]; · iexact Ha
      isplitl [Hb]; · iexact Hb
      isplitl [Hc]; · iexact Hc
      isplitl [Hd]; · iexists _; iexact Hd
      isplitl [HS]; · iexact HS
      iintro ⟨Ha, Hb, Hc, ⟨%ed, Hd⟩, ⟨%es, HS⟩⟩
      isplitl [HS Hrest Hg]
      · isplitl [HS Hrest]
        · isplitl [HS]
          · unfold owns; iexists _; isplitr
            swap; · iexact HS
            ipureintro; exact View.read_writes_of_cover _ _ _ _ _ (acc1_last_cover V c t hf hl _)
          iexact Hrest
        iexact Hg
      isplitl [Ho]; · iexact Ho
      isplitl [Ha]; · iexact Ha
      isplitl [Hb]; · iexact Hb
      isplitl [Hc]; · iexact Hc
      unfold owns; iexists _; isplitr
      swap; · iexact Hd
      ipureintro; exact View.read_writes_of_cover _ _ _ _ _ (out1_last_cover V c t hf hl _)
    · have hl : ¬isLast1 (grid1.coords t) := fun h => hkb ((isLast1_iff t).mp h)
      rw [Dat.leavesExact_idle (dat1 V c) 3 t (idle1_3 t hl) (noFlush1_3 t hl)]
      rw [outsAt1_mid V c t hka hkb]
      unfold acc1_mid; (try dsimp only)
      rw [PhiS1_castSucc V c t, PhiS1_pos V c _ _ hz]
      iintro ⟨⟨⟨HS, Hrest⟩, Hg⟩, Ho, ⟨%da, Ha⟩, ⟨%db, Hb⟩, ⟨%dc, Hc⟩, ⟨%dd, Hd⟩⟩
      iapply ((run1_mid c (grid1.coords t) _ _ _ _ _ _ _ _ _ _ hf hl (iblk1 V c 0 t) (iblk1 V c 1 t) _).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc1_mid_cover V c t hf hl _)
          iexact Hrest
        iexact Hg
      isplitl [Ho]; · iexact Ho
      isplitl [Ha]; · iexact Ha
      isplitl [Hb]; · iexact Hb
      isplitl [Hc]; · iexact Hc
      iexists _; iexact Hd

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its entry is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the same back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨HS, Hrest⟩, Hg⟩
  isplitl [HS Hrest]
  · isplitl [HS]
    · iexists _; iexact HS
    iexact Hrest
  iexact Hg

end Entry

end Cert.KernelIdeal.Hand

end
-- ==== Proof.KI.R2Base.lean ====
/- Region 2 of program KernelIdeal, laid out from region 0's hand-written module of the idealized program (the template named above)
   by substituting the region's number, its grid's numbers (32 points, the contraction block is t % 8, the last is 7)
   and the program's name. The mathematics is the template's: reset the accumulator at the first contraction block, add one
   block's product at every block, store accumulator + bias at the last. -/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, in closed form over the grid -/

/-- The accumulator is reset at this point: the contraction block is the first. -/
abbrev isFirst2 (i : grid2.Coords) : Prop := (Scalar.cmpi .ne (Scalar.extui (Scalar.cmpi .eq (BitVec.ofNat 32 (i 2).val) 0#32)) 0#32) = 1#1
/-- The output block is stored at this point: the contraction block is the last. -/
abbrev isLast2 (i : grid2.Coords) : Prop := k2_cond2 i = 1#1

theorem isFirst2_iff : ∀ t : Fin cfg2.N, isFirst2 (grid2.coords t) ↔ t.val % 8 = 0 :=
  (by decide +kernel : ∀ t : Fin grid2.N, isFirst2 (grid2.coords t) ↔ t.val % 8 = 0)
theorem isLast2_iff : ∀ t : Fin cfg2.N, isLast2 (grid2.coords t) ↔ t.val % 8 = 7 :=
  (by decide +kernel : ∀ t : Fin grid2.N, isLast2 (grid2.coords t) ↔ t.val % 8 = 7)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
/-- Away from the last contraction block nothing is stored into the output block: the window is idle there, -/
theorem idle2_3 : ∀ t : Fin cfg2.N, ¬isLast2 (grid2.coords t) → cfg2.idle 3 (grid2.coords t) = true := by decide +kernel
/-- and it is not written back there. -/
theorem noFlush2_3 : ∀ t : Fin cfg2.N, ¬isLast2 (grid2.coords t) → (cfg2.win 3).flush t = false := by decide +kernel
/-- At the last contraction block the output block is stored. -/
theorem live2_3 : ∀ t : Fin cfg2.N, isLast2 (grid2.coords t) → cfg2.idle 3 (grid2.coords t) = false := by decide +kernel

/-! ## The staging memrefs the body is called with, and the accumulator -/

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .bf16 := win2_3.stage (cfg2.slots t 3)
abbrev hs2_3 (t : Fin cfg2.N) : (ms2_3 t).IsWhole := hstage2_3 ((cfg2.slots t 3).cast nbuf2_3)
/-- The f32 accumulator: a whole scoped buffer of the kernel's own, passed beside the windows. -/
abbrev acc2 : Memref sig .tc .vmem S512x1024 .f32 := Memref.whole cc2_scratch0
/-- The accumulator as a view: its contents are stated through it. -/
abbrev accV2 : View sig .tc .vmem S512x1024 .f32 := acc2.view
/-- One staging buffer of the output window, through which an output block's contents are stated. -/
abbrev outV2 : View sig .tc .vmem S512x1024 .bf16 := (Memref.whole cc2_stg3_0 : Memref sig .tc .vmem S512x1024 .bf16).view

/-! ## The windows' blocks at the region's entry contents -/

section Entry
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: unfetched, the
    block index has not moved. (The bias row is fetched only when the output's column block changes.) -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Entry

/-! ## The region's invariant before its first point, opened at the accumulator -/

/-- The scoped buffers no window of this region stages, the generator register beside them: the accumulator whole
    at some contents, the other scoped buffers unopened, the register at some state. -/
theorem PhiA2_eq (c : Dev nD) :
    (Pipeline.ΦA spec2 c : sProp 𝕄)
      = iprop(iprop((∃ d, owns (c : Thread nD τ) acc2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [acc2, owns_whole]; try rfl

end Cert.KernelIdeal.Hand

end
-- ==== Proof.KI.R2Runs.lean ====
/- Region 2 of program KernelIdeal, laid out from region 0's hand-written module of the idealized program (the template named above)
   by substituting the region's number, its grid's numbers (32 points, the contraction block is t % 8, the last is 7)
   and the program's name. The mathematics is the template's: reset the accumulator at the first contraction block, add one
   block's product at every block, store accumulator + bias at the last. -/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R2Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- FIRST contraction block (k = 0 ≠ last): the accumulator, at anything, is reset and then takes the first product;
    the output block is not touched. -/
noncomputable def run2_first (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : isFirst2 i) (hl : ¬isLast2 i) (x : Vec F S512x1024 .bf16) (w : Vec F S1024x1024 .bf16) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ (∃ d, owns (c : Thread nD τ) arg7 fullShare d)
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc2__mm_kernel i arg3 harg3 arg4 harg4 arg5 harg5 arg6 harg6 arg7 harg7) K } := by
  refine ⟨?_, fun b o E K => ?run⟩
  case run =>
    simp only [cc2__mm_kernel_eq_skeleton]; unfold cc2__mm_kernel_skel
    unfold owns
    iintro ⟨⟨%f3, %hf3, H3⟩, ⟨%f4, %hf4, H4⟩, ⟨%f5, %hf5, H5⟩, ⟨%f6, %hf6, H6⟩, ⟨%ds, %fs, -, HS⟩, Hk⟩
    obtain rfl := harg3.eq_unread hf3; obtain rfl := harg4.eq_unread hf4; obtain rfl := harg5.eq_unread hf5; obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- A MIDDLE contraction block (neither first nor last): the accumulator, at what the point before left (`xs`),
    takes this block's product; the output block is not touched. -/
noncomputable def run2_mid (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst2 i) (hl : ¬isLast2 i) (x : Vec F S512x1024 .bf16) (w : Vec F S1024x1024 .bf16) (xs : Vec F S512x1024 .f32) :
    { LS : List (View.Piece (Elt F) S512x1024 .f32) //
      ∀ (b : Vec F S1x1024 .f32) (o : Vec F S512x1024 .bf16) (E : Set ℕ) (K : PUnit → sProp 𝕄),
        iprop(owns (c : Thread nD τ) arg3 fullShare x ∗ owns (c : Thread nD τ) arg4 fullShare w ∗ owns (c : Thread nD τ) arg5 fullShare b ∗ owns (c : Thread nD τ) arg6 fullShare o ∗ owns (c : Thread nD τ) arg7 fullShare xs
            ∗ (iprop(owns (c : Thread nD τ) arg3 fullShare x ∗ owns (c : Thread nD τ) arg4 fullShare w ∗ owns (c : Thread nD τ) arg5 fullShare b ∗ owns (c : Thread nD τ) arg6 fullShare o ∗ (∃ f, arg7.view.loc (c : Thread nD τ) ↦[arg7.view.set]{fullShare} arg7.view.writes (Elt F) f LS)) -∗ K ⟨⟩))
          ⊢ wp frame (wpE (defs₀ (F := F)) Variants.none c none) E (cc2__mm_kernel i arg3 harg3 arg4 harg4 arg5 harg5 arg6 harg6 arg7 harg7) K } := by
  refine ⟨?_, fun b o E K => ?run⟩
  case run =>
    simp only [cc2__mm_kernel_eq_skeleton]; unfold cc2__mm_kernel_skel
    unfold owns
    iintro ⟨⟨%f3, %hf3, H3⟩, ⟨%f4, %hf4, H4⟩, ⟨%f5, %hf5, H5⟩, ⟨%f6, %hf6, H6⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

set_option maxHeartbeats 4000000 in
/-- The LAST contraction block (k = 3 ≠ first): the accumulator, at what the point before left, takes the last product,
    and accumulator + bias row, rounded, is stored over the whole output block (which may hold anything before). -/
noncomputable def run2_last (c : Dev nD) (i : grid2.Coords) (arg3 : Memref sig .tc .vmem S512x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole)
    (hf : ¬isFirst2 i) (hl : isLast2 i) (x : Vec F S512x1024 .bf16) (w : Vec F S1024x1024 .bf16) (b : Vec F S1x1024 .f32) (xs : Vec F S512x1024 .f32) :
    Σ' (LO : List (View.Piece (Elt F) S512x1024 .bf16)), { LS : List (View.Piece (Elt F) S512x1024 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ owns (c : Thread nD τ) arg7 fullShare xs
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f3, %hf3, H3⟩, ⟨%f4, %hf4, H4⟩, ⟨%f5, %hf5, H5⟩, ⟨%d6, %f6, -, H6⟩, ⟨%fs, %hfs, HS⟩, Hk⟩
    obtain rfl := harg3.eq_unread hf3; obtain rfl := harg4.eq_unread hf4; obtain rfl := harg5.eq_unread hf5; obtain rfl := harg7.eq_unread hfs
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.KernelIdeal.Hand

end
-- ==== Proof.KI.R2Dat.lean ====
/- Region 2 of program KernelIdeal, laid out from region 0's hand-written module of the idealized program (the template named above)
   by substituting the region's number, its grid's numbers (32 points, the contraction block is t % 8, the last is 7)
   and the program's name. The mathematics is the template's: reset the accumulator at the first contraction block, add one
   block's product at every block, store accumulator + bias at the last. -/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R2Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What each case leaves, as its stores read back -/

/-- The accumulator after a first block: the run's stores into it, read back. -/
def acc2_first (c : Dev nD) (t : Fin cfg2.N) (hf : isFirst2 (grid2.coords t)) (hl : ¬isLast2 (grid2.coords t)) : Vec F S512x1024 .f32 :=
  accV2.read (Elt F) (accV2.writes (Elt F) accV2.junk (run2_first c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t)).1)
/-- Those stores cover the accumulator. -/
theorem acc2_first_cover (c : Dev nD) (t : Fin cfg2.N) (hf : isFirst2 (grid2.coords t)) (hl : ¬isLast2 (grid2.coords t)) (y : S512x1024.Idx) :
    ∃ pc ∈ (run2_first c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t)).1, y ∈ pc.1.set :=
  View.cover_of_tiledL _ S512x1024.size (by sl_kernel_rfl) y

/-- The accumulator after a middle block, over what the point before left (`xs`). -/
def acc2_mid (c : Dev nD) (t : Fin cfg2.N) (hf : ¬isFirst2 (grid2.coords t)) (hl : ¬isLast2 (grid2.coords t)) (xs : Vec F S512x1024 .f32) : Vec F S512x1024 .f32 :=
  accV2.read (Elt F) (accV2.writes (Elt F) accV2.junk (run2_mid c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) xs).1)
theorem acc2_mid_cover (c : Dev nD) (t : Fin cfg2.N) (hf : ¬isFirst2 (grid2.coords t)) (hl : ¬isLast2 (grid2.coords t)) (xs : Vec F S512x1024 .f32) (y : S512x1024.Idx) :
    ∃ pc ∈ (run2_mid c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) xs).1, y ∈ pc.1.set :=
  View.cover_of_tiledL _ S512x1024.size (by sl_kernel_rfl) y

/-- The accumulator after a last block, over what the point before left. -/
def acc2_last (c : Dev nD) (t : Fin cfg2.N) (hf : ¬isFirst2 (grid2.coords t)) (hl : isLast2 (grid2.coords t)) (xs : Vec F S512x1024 .f32) : Vec F S512x1024 .f32 :=
  accV2.read (Elt F) (accV2.writes (Elt F) accV2.junk (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).2.1)
theorem acc2_last_cover (c : Dev nD) (t : Fin cfg2.N) (hf : ¬isFirst2 (grid2.coords t)) (hl : isLast2 (grid2.coords t)) (xs : Vec F S512x1024 .f32) (y : S512x1024.Idx) :
    ∃ pc ∈ (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).2.1, y ∈ pc.1.set :=
  View.cover_of_tiledL _ S512x1024.size (by sl_kernel_rfl) y
/-- The output block a last block stores. -/
def out2_last (c : Dev nD) (t : Fin cfg2.N) (hf : ¬isFirst2 (grid2.coords t)) (hl : isLast2 (grid2.coords t)) (xs : Vec F S512x1024 .f32) : Vec F S512x1024 .bf16 :=
  outV2.read (Elt F) (outV2.writes (Elt F) outV2.junk (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).1)
theorem out2_last_cover (c : Dev nD) (t : Fin cfg2.N) (hf : ¬isFirst2 (grid2.coords t)) (hl : isLast2 (grid2.coords t)) (xs : Vec F S512x1024 .f32) (y : S512x1024.Idx) :
    ∃ pc ∈ (run2_last c (grid2.coords t) (ms2_0 t) (hs2_0 t) (ms2_1 t) (hs2_1 t) (ms2_2 t) (hs2_2 t) (ms2_3 t) (hs2_3 t) acc2 (Memref.isWhole_whole _) hf hl (iblk2 V c 0 t) (iblk2 V c 1 t) (iblk2 V c 2 t) xs).1, y ∈ pc.1.set :=
  View.cover_of_tiledL _ S512x1024.size (by sl_kernel_rfl) y
/-- Where nothing is stored into the output block its buffer's contents are not named: nothing consults them (the
    window is neither written back there nor read at the next point). -/
def out2_idle : Vec F S512x1024 .bf16 := outV2.read (Elt F) outV2.junk

/-! ## The accumulation, point by point -/

/-- What the output block's staging buffer and the accumulator hold after the body at position `n`. -/
def outsAt2 (c : Dev nD) : (n : ℕ) → n < cfg2.N → Vec F S512x1024 .bf16 × Vec F S512x1024 .f32
  | 0, hn => (out2_idle, acc2_first V c ⟨0, hn⟩ ((isFirst2_iff ⟨0, hn⟩).mpr (Nat.zero_mod _)) (fun h => by have := (isLast2_iff ⟨0, hn⟩).mp h; (try dsimp only at this); omega))
  | n + 1, hn =>
    if hka : (n + 1) % 8 = 0 then
      (out2_idle, acc2_first V c ⟨n + 1, hn⟩ ((isFirst2_iff ⟨n + 1, hn⟩).mpr hka) (fun h => by have := (isLast2_iff ⟨n + 1, hn⟩).mp h; (try dsimp only at this); omega))
    else if hkb : (n + 1) % 8 = 7 then
      (out2_last V c ⟨n + 1, hn⟩ (fun h => hka ((isFirst2_iff ⟨n + 1, hn⟩).mp h)) ((isLast2_iff ⟨n + 1, hn⟩).mpr hkb) (outsAt2 c n (Nat.lt_of_succ_lt hn)).2,
       acc2_last V c ⟨n + 1, hn⟩ (fun h => hka ((isFirst2_iff ⟨n + 1, hn⟩).mp h)) ((isLast2_iff ⟨n + 1, hn⟩).mpr hkb) (outsAt2 c n (Nat.lt_of_succ_lt hn)).2)
    else
      (out2_idle, acc2_mid V c ⟨n + 1, hn⟩ (fun h => hka ((isFirst2_iff ⟨n + 1, hn⟩).mp h)) (fun h => hkb ((isLast2_iff ⟨n + 1, hn⟩).mp h)) (outsAt2 c n (Nat.lt_of_succ_lt hn)).2)

theorem outsAt2_first (c : Dev nD) (t : Fin cfg2.N) (hka : t.val % 8 = 0) :
    outsAt2 V c t.val t.isLt = (out2_idle, acc2_first V c t ((isFirst2_iff t).mpr hka) (fun h => by have := (isLast2_iff t).mp h; omega)) := by
  obtain ⟨n, hn⟩ := t
  cases n with
  | zero => rfl
  | succ n => exact (dif_pos hka).trans rfl

theorem outsAt2_mid (c : Dev nD) (t : Fin cfg2.N) (hka : ¬t.val % 8 = 0) (hkb : ¬t.val % 8 = 7) :
    outsAt2 V c t.val t.isLt = (out2_idle, acc2_mid V c t (fun h => hka ((isFirst2_iff t).mp h)) (fun h => hkb ((isLast2_iff t).mp h)) (outsAt2 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_neg hkb).trans rfl)

theorem outsAt2_last (c : Dev nD) (t : Fin cfg2.N) (hka : ¬t.val % 8 = 0) (hkb : t.val % 8 = 7) :
    outsAt2 V c t.val t.isLt = (out2_last V c t (fun h => hka ((isFirst2_iff t).mp h)) ((isLast2_iff t).mpr hkb) (outsAt2 V c (t.val - 1) (Nat.lt_of_le_of_lt (Nat.sub_le _ _) t.isLt)).2,
      acc2_last V c t (fun h => hka ((isFirst2_iff t).mp h)) ((isLast2_iff t).mpr hkb) (outsAt2 V c (t.val - 1) (Nat.lt_of_le_of_lt (Nat.sub_le _ _) t.isLt)).2) := by
  obtain ⟨n, hn⟩ := t
  cases n with
  | zero => exact absurd (Nat.zero_mod _) hka
  | succ n => exact (dif_neg hka).trans ((dif_pos hkb).trans rfl)

/-! ## The invariant: the accumulator carried from point to point -/

/-- Before position `n`: at the region's entry the scoped buffers no window stages at anything and the generator
    register at some state; afterwards the same with the accumulator at what the point before left in it. -/
def PhiS2 (c : Dev nD) : (n : ℕ) → n ≤ cfg2.N → sProp 𝕄
  | 0, _ => Pipeline.ΦA spec2 c
  | n + 1, hn => iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) acc2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) acc2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block, the output's at
    `outsAt2`'s first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the closed forms say which case the point is in;
    the invariant hands the body the accumulator (at anything before the first point, else at what the point before
    left) and takes it back at this point's contents; an idle output buffer is handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  have hN : t.val < 32 := lt_of_lt_of_eq t.isLt (show cfg2.N = 32 from N_2)
  by_cases hka : t.val % 8 = 0
  · have hf : isFirst2 (grid2.coords t) := (isFirst2_iff t).mpr hka
    have hl : ¬isLast2 (grid2.coords t) := fun h => by have := (isLast2_iff t).mp h; omega
    rw [Dat.leavesExact_idle (dat2 V c) 3 t (idle2_3 t hl) (noFlush2_3 t hl)]
    rw [outsAt2_first V c t hka]
    unfold acc2_first; (try dsimp only)
    by_cases hz : t.val = 0
    · rw [PhiS2_castSucc V c t, PhiS2_zero V c _ _ hz, PhiA2_eq]
      iintro ⟨⟨⟨HS, Hrest⟩, Hg⟩, Ho, ⟨%da, Ha⟩, ⟨%db, Hb⟩, ⟨%dc, Hc⟩, ⟨%dd, Hd⟩⟩
      iapply ((run2_first c (grid2.coords t) _ _ _ _ _ _ _ _ _ _ hf hl (iblk2 V c 0 t) (iblk2 V c 1 t)).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc2_first_cover V c t hf hl)
          iexact Hrest
        iexact Hg
      isplitl [Ho]; · iexact Ho
      isplitl [Ha]; · iexact Ha
      isplitl [Hb]; · iexact Hb
      isplitl [Hc]; · iexact Hc
      iexists _; iexact Hd
    · rw [PhiS2_castSucc V c t, PhiS2_pos V c _ _ hz]
      iintro ⟨⟨⟨HS, Hrest⟩, Hg⟩, Ho, ⟨%da, Ha⟩, ⟨%db, Hb⟩, ⟨%dc, Hc⟩, ⟨%dd, Hd⟩⟩
      iapply ((run2_first c (grid2.coords t) _ _ _ _ _ _ _ _ _ _ hf hl (iblk2 V c 0 t) (iblk2 V c 1 t)).2 _ _ Set.univ _)
      isplitl [Ha]; · iexact Ha
      isplitl [Hb]; · iexact Hb
      isplitl [Hc]; · iexact Hc
      isplitl [Hd]; · iexact Hd
      isplitl [HS]; · iexists _; iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc2_first_cover V c t hf hl)
          iexact Hrest
        iexact Hg
      isplitl [Ho]; · iexact Ho
      isplitl [Ha]; · iexact Ha
      isplitl [Hb]; · iexact Hb
      isplitl [Hc]; · iexact Hc
      iexists _; iexact Hd
  · have hf : ¬isFirst2 (grid2.coords t) := fun h => hka ((isFirst2_iff t).mp h)
    have hz : t.val ≠ 0 := fun h => hka (by rw [h])
    by_cases hkb : t.val % 8 = 7
    · have hl : isLast2 (grid2.coords t) := (isLast2_iff t).mpr hkb
      rw [show (dat2 V c).leavesExact 3 t = owns (c : Thread nD τ) (ms2_3 t) fullShare ((dat2 V c).after 3 t) from by
        unfold Dat.leavesExact; rw [live2_3 t hl], after2_3]
      rw [outsAt2_last V c t hka hkb]
      unfold out2_last acc2_last; (try dsimp only)
      rw [PhiS2_castSucc V c t, PhiS2_pos V c _ _ hz]
      iintro ⟨⟨⟨HS, Hrest⟩, Hg⟩, Ho, ⟨%da, Ha⟩, ⟨%db, Hb⟩, ⟨%dc, Hc⟩, ⟨%dd, Hd⟩⟩
      iapply ((run2_last c (grid2.coords t) _ _ _ _ _ _ _ _ _ _ hf hl (iblk2 V c 0 t) (iblk2 V c 1 t) (iblk2 V c 2 t) _).2.2 Set.univ _)
      isplitl [Ha]; · iexact Ha
      isplitl [Hb]; · iexact Hb
      isplitl [Hc]; · iexact Hc
      isplitl [Hd]; · iexists _; iexact Hd
      isplitl [HS]; · iexact HS
      iintro ⟨Ha, Hb, Hc, ⟨%ed, Hd⟩, ⟨%es, HS⟩⟩
      isplitl [HS Hrest Hg]
      · isplitl [HS Hrest]
        · isplitl [HS]
          · unfold owns; iexists _; isplitr
            swap; · iexact HS
            ipureintro; exact View.read_writes_of_cover _ _ _ _ _ (acc2_last_cover V c t hf hl _)
          iexact Hrest
        iexact Hg
      isplitl [Ho]; · iexact Ho
      isplitl [Ha]; · iexact Ha
      isplitl [Hb]; · iexact Hb
      isplitl [Hc]; · iexact Hc
      unfold owns; iexists _; isplitr
      swap; · iexact Hd
      ipureintro; exact View.read_writes_of_cover _ _ _ _ _ (out2_last_cover V c t hf hl _)
    · have hl : ¬isLast2 (grid2.coords t) := fun h => hkb ((isLast2_iff t).mp h)
      rw [Dat.leavesExact_idle (dat2 V c) 3 t (idle2_3 t hl) (noFlush2_3 t hl)]
      rw [outsAt2_mid V c t hka hkb]
      unfold acc2_mid; (try dsimp only)
      rw [PhiS2_castSucc V c t, PhiS2_pos V c _ _ hz]
      iintro ⟨⟨⟨HS, Hrest⟩, Hg⟩, Ho, ⟨%da, Ha⟩, ⟨%db, Hb⟩, ⟨%dc, Hc⟩, ⟨%dd, Hd⟩⟩
      iapply ((run2_mid c (grid2.coords t) _ _ _ _ _ _ _ _ _ _ hf hl (iblk2 V c 0 t) (iblk2 V c 1 t) _).2 _ _ Set.univ _)
      isplitl [Ha]; · iexact Ha
      isplitl [Hb]; · iexact Hb
      isplitl [Hc]; · iexact Hc
      isplitl [Hd]; · iexact Hd
      isplitl [HS]; · iexact HS
      iintro ⟨Ha, Hb, Hc, Hd, ⟨%es, HS⟩⟩
      isplitl [HS Hrest Hg]
      · isplitl [HS Hrest]
        · isplitl [HS]
          · unfold owns; iexists _; isplitr
            swap; · iexact HS
            ipureintro; exact View.read_writes_of_cover _ _ _ _ _ (acc2_mid_cover V c t hf hl _)
          iexact Hrest
        iexact Hg
      isplitl [Ho]; · iexact Ho
      isplitl [Ha]; · iexact Ha
      isplitl [Hb]; · iexact Hb
      isplitl [Hc]; · iexact Hc
      iexists _; iexact Hd

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed at its entry is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the same back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨HS, Hrest⟩, Hg⟩
  isplitl [HS Hrest]
  · isplitl [HS]
    · iexists _; iexact HS
    iexact Hrest
  iexact Hg

end Entry

end Cert.KernelIdeal.Hand

end
-- ==== Proof.KI.R3Base.lean ====
/-
  Region 3 of the kernel program (the fourth and last tiled matrix product): what the later modules about this
  region share. Its grid is 1 × 1 × 1, a single point, so the one contraction block is at once the first and the
  last: at that point the body clears its f32 accumulator, adds the product of the two whole operands to it, and
  stores accumulator + bias row into the (f32) output block. Every window is fetched, or written back, at the point;
  none is idle.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, both true at the grid's only point -/

/-- The accumulator is cleared at this point: the contraction block is the first. -/
abbrev isFirst3 (i : grid3.Coords) : Prop := (Scalar.cmpi .ne (Scalar.extui (Scalar.cmpi .eq (BitVec.ofNat 32 (i 2).val) 0#32)) 0#32) = 1#1
/-- The output block is stored at this point: the contraction block is the last. -/
abbrev isLast3 (i : grid3.Coords) : Prop := k3_cond2 i = 1#1

theorem isFirst3_all : ∀ t : Fin cfg3.N, isFirst3 (grid3.coords t) :=
  (by decide +kernel : ∀ t : Fin grid3.N, isFirst3 (grid3.coords t))
theorem isLast3_all : ∀ t : Fin cfg3.N, isLast3 (grid3.coords t) :=
  (by decide +kernel : ∀ t : Fin grid3.N, isLast3 (grid3.coords t))

/-! ## No window is idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- The output block is stored at the point. -/
theorem live3_3 : ∀ t : Fin cfg3.N, cfg3.idle 3 (grid3.coords t) = false := by decide +kernel

/-! ## The staging memrefs the body is called with, and the accumulator -/

abbrev ms3_0 (t : Fin cfg3.N) : Memref sig .tc .vmem S1024x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x4 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x4 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x4 .f32 := win3_3.stage (cfg3.slots t 3)
abbrev hs3_3 (t : Fin cfg3.N) : (ms3_3 t).IsWhole := hstage3_3 ((cfg3.slots t 3).cast nbuf3_3)
/-- The f32 accumulator: a whole scoped buffer of the kernel's own, passed beside the windows. -/
abbrev acc3 : Memref sig .tc .vmem S1024x4 .f32 := Memref.whole cc3_scratch0
/-- The accumulator as a view: its contents are stated through it. -/
abbrev accV3 : View sig .tc .vmem S1024x4 .f32 := acc3.view
/-- The output window's one staging buffer, through which the output block's contents are stated. -/
abbrev outV3 : View sig .tc .vmem S1024x4 .f32 := (Memref.whole cc3_stg3_0 : Memref sig .tc .vmem S1024x4 .f32).view

/-! ## The windows' blocks at the region's entry contents -/

section Entry
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block when the body runs: the block as fetched off the array the
    region found. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Entry

/-! ## The region's invariant before its point, opened at the accumulator -/

/-- The scoped buffers no window of this region stages, the generator register beside them: the accumulator whole
    at some contents, the other scoped buffers unopened, the register at some state. -/
theorem PhiA3_eq (c : Dev nD) :
    (Pipeline.ΦA spec3 c : sProp 𝕄)
      = iprop(iprop((∃ d, owns (c : Thread nD τ) acc3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [scopedRest3_split c]
  simp only [acc3, owns_whole]; try rfl

end Cert.KernelIdeal.Hand

end
-- ==== Proof.KI.R3Runs.lean ====
/-
  Region 3: the body run at the grid's single point. Both of the body's conditionals hold there (the one contraction
  block is the first and the last), so there is one case: the accumulator, holding anything, is cleared, takes the
  product of the two operand blocks, and accumulator + bias row is stored over the whole output block. The run below
  executes the printed body symbolically on whole staging memrefs. What it leaves in the two buffers it stores into
  is recorded as the list of its stores (newest first), found while the run is executed; the three buffers it only
  reads come back as they were.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R3Base
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The ONLY case (the contraction block is both first and last): the accumulator, at anything, is cleared and then
    takes the product; accumulator + bias row is stored over the whole output block (which may hold anything before). -/
noncomputable def run3_only (c : Dev nD) (i : grid3.Coords) (arg3 : Memref sig .tc .vmem S1024x2048 .bf16) (harg3 : arg3.IsWhole) (arg4 : Memref sig .tc .vmem S2048x4 .bf16) (harg4 : arg4.IsWhole) (arg5 : Memref sig .tc .vmem S1x4 .f32) (harg5 : arg5.IsWhole) (arg6 : Memref sig .tc .vmem S1024x4 .f32) (harg6 : arg6.IsWhole) (arg7 : Memref sig .tc .vmem S1024x4 .f32) (harg7 : arg7.IsWhole)
    (hf : isFirst3 i) (hl : isLast3 i) (x : Vec F S1024x2048 .bf16) (w : Vec F S2048x4 .bf16) (b : Vec F S1x4 .f32) :
    Σ' (LO : List (View.Piece (Elt F) S1024x4 .f32)), { LS : List (View.Piece (Elt F) S1024x4 .f32) //
      ∀ (E : Set ℕ) (K : PUnit → sProp 𝕄),
        iprop(owns (c : Thread nD τ) arg3 fullShare x ∗ owns (c : Thread nD τ) arg4 fullShare w ∗ owns (c : Thread nD τ) arg5 fullShare b ∗ (∃ d, owns (c : Thread nD τ) arg6 fullShare d) ∗ (∃ d, owns (c : Thread nD τ) arg7 fullShare d)
            ∗ (iprop(owns (c : Thread nD τ) arg3 fullShare x ∗ owns (c : Thread nD τ) arg4 fullShare w ∗ owns (c : Thread nD τ) arg5 fullShare b ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f3, %hf3, H3⟩, ⟨%f4, %hf4, H4⟩, ⟨%f5, %hf5, H5⟩, ⟨%d6, %f6, -, H6⟩, ⟨%ds, %fs, -, HS⟩, Hk⟩
    obtain rfl := harg3.eq_unread hf3; obtain rfl := harg4.eq_unread hf4; obtain rfl := harg5.eq_unread hf5
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.KernelIdeal.Hand

end
-- ==== Proof.KI.R3Dat.lean ====
/-
  Region 3: the pipeline's proof data and the body obligation.

  The region has one point. After the body there the accumulator holds the product of the two operands over a cleared
  buffer, and the output block holds accumulator + bias row. The region's invariant is, before the point, what the
  region is handed (the accumulator at anything); after it, the same with the accumulator at the value the body left,
  which the region's end forgets again.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R3Runs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## What the body leaves, as its stores read back -/

/-- The accumulator after the point: the run's stores into it, read back. -/
def acc3_only (c : Dev nD) (t : Fin cfg3.N) : Vec F S1024x4 .f32 :=
  accV3.read (Elt F) (accV3.writes (Elt F) accV3.junk (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).2.1)
/-- Those stores cover the accumulator. -/
theorem acc3_only_cover (c : Dev nD) (t : Fin cfg3.N) (y : S1024x4.Idx) :
    ∃ pc ∈ (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).2.1, y ∈ pc.1.set :=
  View.cover_of_tiledL _ S1024x4.size (by sl_kernel_rfl) y
/-- The output block the point stores. -/
def out3_only (c : Dev nD) (t : Fin cfg3.N) : Vec F S1024x4 .f32 :=
  outV3.read (Elt F) (outV3.writes (Elt F) outV3.junk (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).1)
/-- Those stores cover the output block. -/
theorem out3_only_cover (c : Dev nD) (t : Fin cfg3.N) (y : S1024x4.Idx) :
    ∃ pc ∈ (run3_only c (grid3.coords t) (ms3_0 t) (hs3_0 t) (ms3_1 t) (hs3_1 t) (ms3_2 t) (hs3_2 t) (ms3_3 t) (hs3_3 t) acc3 (Memref.isWhole_whole _) (isFirst3_all t) (isLast3_all t) (iblk3 V c 0 t) (iblk3 V c 1 t) (iblk3 V c 2 t)).1, y ∈ pc.1.set :=
  View.cover_of_tiledL _ S1024x4.size (by sl_kernel_rfl) y

/-! ## The invariant: the accumulator before and after the point -/

/-- Before position `n`: at the region's entry the scoped buffers no window stages at anything and the generator
    register at some state; afterwards the same with the accumulator at what the point before left in it. -/
def PhiS3 (c : Dev nD) : (n : ℕ) → n ≤ cfg3.N → sProp 𝕄
  | 0, _ => Pipeline.ΦA spec3 c
  | n + 1, hn => iprop(iprop(owns (c : Thread nD τ) acc3 fullShare (acc3_only V c ⟨n, hn⟩) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) acc3 fullShare (acc3_only V c ⟨n, hn⟩) ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) acc3 fullShare (acc3_only V c ⟨n - 1, by omega⟩) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block, the output's at the block
    the point stores; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_only V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_only V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at the point. The inputs' buffers hold their blocks; both conditions hold; the invariant hands the body
    the accumulator at anything and takes it back at the point's contents; the output buffer, at anything, comes back
    at the stored block. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [live3_0 t], after3_0]
  rw [show (dat3 V c).leavesExact 1 t = owns (c : Thread nD τ) (ms3_1 t) fullShare ((dat3 V c).after 1 t) from by
    unfold Dat.leavesExact; rw [live3_1 t], after3_1]
  rw [show (dat3 V c).leavesExact 2 t = owns (c : Thread nD τ) (ms3_2 t) fullShare ((dat3 V c).after 2 t) from by
    unfold Dat.leavesExact; rw [live3_2 t], after3_2]
  rw [show (dat3 V c).leavesExact 3 t = owns (c : Thread nD τ) (ms3_3 t) fullShare ((dat3 V c).after 3 t) from by
    unfold Dat.leavesExact; rw [live3_3 t], after3_3]
  have hz : t.val = 0 := by have := lt_of_lt_of_eq t.isLt (show cfg3.N = 1 from N_3); omega
  rw [PhiS3_castSucc V c t, PhiS3_zero V c _ _ hz, PhiA3_eq]
  rw [show (⟨t.val, t.isLt⟩ : Fin cfg3.N) = t from rfl]
  unfold acc3_only out3_only; (try dsimp only)
  iintro ⟨⟨⟨HS, Hrest⟩, Hg⟩, Ho, ⟨%d0, H0⟩, ⟨%d1, H1⟩, ⟨%d2, H2⟩, ⟨%d3, H3⟩⟩
  iapply ((run3_only c (grid3.coords t) _ _ _ _ _ _ _ _ _ _ (isFirst3_all t) (isLast3_all t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS Hrest Hg]
  · isplitl [HS Hrest]
    · isplitl [HS]
      · unfold owns; iexists _; isplitr
        swap; · iexact HS
        ipureintro; exact View.read_writes_of_cover _ _ _ _ _ (acc3_only_cover V c t)
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (out3_only_cover V c t)

/-- The library's body obligation, at the point. -/
theorem body_obligation3 (c : Dev nD) : BodyObligation (dat3 (F := F) V c) (defs₀ (F := F)) Variants.none () Set.univ := fun t => by
  rw [bigSep_W3, bigSep_W3]
  exact sound_body3 V c t

/-- What the region is handed at its entry is the invariant before the point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the point the invariant gives the same back: the accumulator's contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 1 := N_3; omega
  rw [show (dat3 V c).Φ (Fin.last cfg3.N) = PhiS3 V c (Fin.last cfg3.N).val (Nat.le_of_lt_succ (Fin.last cfg3.N).isLt) from rfl, PhiS3_pos V c _ _ hne, PhiA3_eq]
  iintro ⟨⟨HS, Hrest⟩, Hg⟩
  isplitl [HS Hrest]
  · isplitl [HS]
    · iexists _; iexact HS
    iexact Hrest
  iexact Hg

end Entry

end Cert.KernelIdeal.Hand

end
-- ==== Proof.KI.RegKit.lean ====
/-
  A kernel region of @main as a segment, for a region of the plainest protocol: its body owes no other core anything,
  it has no semaphores of its own, and its invariant is entered from and gives back "the scoped buffers no window
  stages, at anything, and the generator register at some state". Such a region takes the core's unscoped buffers at a
  valuation `Vin`, splits its windows' arrays out of them, runs its pipeline, and puts the arrays back at what the
  write-backs left: the unscoped buffers at any valuation `Vout` that has the arrays there and agrees with `Vin`
  elsewhere. Beside the buffers ride the generator register and the core's (empty) debt.
  One construction serves the program's four regions: it is generic in the pipeline's index.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱h : Variants := Variants.none
/-- No core owes another anything: no level is assigned. -/
abbrev Lh : GSem nD τ sig → Finset Unit := fun _ => ∅
abbrev lvh : GSem nD τ sig → Unit → ℕ := fun _ _ => 0

/-- What rides beside the buffers through every segment: the generator register at some state, and the core owing
    nothing. -/
abbrev Rr (c : Dev nD) : sProp 𝕄 := iprop((∃ r, prngReg c r) ∗ ∃ W, owes (c : Thread nD τ) (0 : CellTallies nD τ sig Unit) W)

section
variable (pdats : (p : Fin 4) → (c : Dev nD) → Dat τ (Elt F) Unit ℕ (UR sig nD τ) ℕ (Pipeline.pin (pcfgs (F := F)) adm p) c)

set_option backward.isDefEq.respectTransparency.types false in
/-- The region's record, from its layout, its body obligation, its two valuations and the two ends of its invariant. -/
def mkReg (p : Fin 4) (lf : Pipeline.LaunchFacts (nD := nD) (τ := τ) cfgs p)
    (hbody : ∀ c, Pipeline.BodyObligationLoose (pdats p c) (defs₀ (F := F)) 𝒱h () Set.univ)
    (howed : ∀ c t, (pdats p c).owed t = 0)
    (hq : ∀ c w, (pdats p c).q w = fullShare)
    (hrec : ∀ c t, (pdats p c).recorded t = Set.univ)
    (Vin Vout : Dev nD → Valuation τ sig (Elt F))
    (hA : ∀ c w, (pdats p c).A w = Vin c (Pipeline.arrRef (Pipeline.pin (pcfgs (F := F)) adm p).spec w))
    (hF : ∀ c w, (pdats p c).arrAt w (Pipeline.pin (pcfgs (F := F)) adm p).N = Vout c (Pipeline.arrRef (Pipeline.pin (pcfgs (F := F)) adm p).spec w))
    (hrest : ∀ c (b : Ref sig .tc), b ∉ Finset.univ.image (Pipeline.arrRef (Pipeline.pin (pcfgs (F := F)) adm p).spec) → Vout c b = Vin c b)
    (hin : ∀ c, Pipeline.ΦA (Pipeline.pin (pcfgs (F := F)) adm p).spec c ⊢ (pdats p c).Φ 0)
    (hout : ∀ c, (pdats p c).Φ (Fin.last (Pipeline.pin (pcfgs (F := F)) adm p).N) ⊢ Pipeline.ΦA (Pipeline.pin (pcfgs (F := F)) adm p).spec c) :
    Pipeline.RegionSeg (pcfgs (F := F)) adm pdats () defs₀ 𝒱h Lh lvh p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ Lh lvh p howed
  pre c := iprop(StableHlo.held (c : Thread nD τ) (Pipeline.ucRefs τ sig) (Vin c) ∗ Rr c)
  post c := iprop(StableHlo.held (c : Thread nD τ) (Pipeline.ucRefs τ sig) (Vout c) ∗ Rr c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Vin c b)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c :=
    (show (iprop((∃ r, prngReg c r) ∗ Pipeline.prefHeld (pcfgs (F := F) p).pre c (fun _ => fullShare) (adm p).1 ∗ Pipeline.scopedRest (Pipeline.pin (pcfgs (F := F)) adm p).spec c) : sProp 𝕄)
        ⊢ Pipeline.ΦA (Pipeline.pin (pcfgs (F := F)) adm p).spec c from by
      unfold Pipeline.ΦA
      iintro ⟨Hp, -, Hr⟩
      isplitl [Hr]; · iexact Hr
      iexact Hp).trans (hin c)
  hout c := by
    rw [Pipeline.ownSems0_none]
    exact (hout c).trans
      (show (Pipeline.ΦA (Pipeline.pin (pcfgs (F := F)) adm p).spec c : sProp 𝕄)
          ⊢ iprop((∃ r, prngReg c r) ∗ BI.emp ∗ Pipeline.scopedRest (Pipeline.pin (pcfgs (F := F)) adm p).spec c) from by
        unfold Pipeline.ΦA
        iintro ⟨Hr, Hp⟩
        isplitl [Hp]; · iexact Hp
        isplitr; · iempintro
        iexact Hr)
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end

end Cert.KernelIdeal.Hand

end
-- ==== Proof.KI.Regs.lean ====
/-
  The four regions of @main as segments between the buffer contents the host stretches compute.

  Between two items of @main a core's unscoped buffers sit at a valuation: the launch contents, then each host
  stretch applied, and after a region the same valuation with the region's output array replaced by what the
  pipeline's write-backs left there. These valuations are built here stage by stage (`W4 … W10`); the unknowns the
  conditional frame is stated over (`outs`) are chosen to be exactly them, so that its thread states and the regions'
  agree.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R0Dat
import proofs.«113652_j49297634623952_1_alg».proof.Proof.KI.R1Dat
import proofs.«113652_j49297634623952_1_alg».proof.Proof.KI.R2Dat
import proofs.«113652_j49297634623952_1_alg».proof.Proof.KI.R3Dat
import proofs.«113652_j49297634623952_1_alg».proof.Proof.KI.RegKit
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents, read at the TensorCore's references. -/
abbrev E0 : (c : Dev nD) → (b : Ref sig .tc) → Buf (Elt F) ((c : Thread nD τ).loc b) := fun c b => V3 m c b
/-- What region 0 leaves in its output array. -/
def o4 (c : Dev nD) : Buf (Elt F) ((c : Thread nD τ).loc main_v19) := (dat0 (E0 m) c).arrAt 3 cfg0.N
/-- After region 0. -/
def W4 (c : Dev nD) : Valuation τ sig (Elt F) := Function.update (V3 m c) main_v19 (o4 m c)
/-- After the host stretch between regions 0 and 1. -/
abbrev W5 (c : Dev nD) : Valuation τ sig (Elt F) := StableHlo.after hostOps1 (W4 m c)
abbrev E1 : (c : Dev nD) → (b : Ref sig .tc) → Buf (Elt F) ((c : Thread nD τ).loc b) := fun c b => W5 m c b
def o6 (c : Dev nD) : Buf (Elt F) ((c : Thread nD τ).loc main_v21) := (dat1 (E1 m) c).arrAt 3 cfg1.N
def W6 (c : Dev nD) : Valuation τ sig (Elt F) := Function.update (W5 m c) main_v21 (o6 m c)
abbrev W7 (c : Dev nD) : Valuation τ sig (Elt F) := StableHlo.after hostOps2 (W6 m c)
abbrev E2 : (c : Dev nD) → (b : Ref sig .tc) → Buf (Elt F) ((c : Thread nD τ).loc b) := fun c b => W7 m c b
def o8 (c : Dev nD) : Buf (Elt F) ((c : Thread nD τ).loc main_v23) := (dat2 (E2 m) c).arrAt 3 cfg2.N
def W8 (c : Dev nD) : Valuation τ sig (Elt F) := Function.update (W7 m c) main_v23 (o8 m c)
abbrev W9 (c : Dev nD) : Valuation τ sig (Elt F) := StableHlo.after hostOps3 (W8 m c)
abbrev E3 : (c : Dev nD) → (b : Ref sig .tc) → Buf (Elt F) ((c : Thread nD τ).loc b) := fun c b => W9 m c b
def o10 (c : Dev nD) : Buf (Elt F) ((c : Thread nD τ).loc main_v25) := (dat3 (E3 m) c).arrAt 3 cfg3.N
/-- At the return. -/
def W10 (c : Dev nD) : Valuation τ sig (Elt F) := Function.update (W9 m c) main_v25 (o10 m c)

/-- The unknowns of the conditional frame, chosen: after a region, the valuation built above. -/
def outs : Outs (F := F) := fun J r c =>
  match J with
  | 4 => W4 m c r
  | 6 => W6 m c r
  | 8 => W8 m c r
  | 10 => W10 m c r
  | _ => V3 m c r

theorem V4_eq (c : Dev nD) : V4 m (outs m) c = W4 m c := by
  show Function.update (V3 m c) main_v19 (W4 m c main_v19) = W4 m c
  unfold W4; rw [Function.update_self]
theorem V5_eq (c : Dev nD) : V5 m (outs m) c = W5 m c := by
  show StableHlo.after hostOps1 (V4 m (outs m) c) = _; rw [V4_eq]
theorem V6_eq (c : Dev nD) : V6 m (outs m) c = W6 m c := by
  show Function.update (V5 m (outs m) c) main_v21 (W6 m c main_v21) = W6 m c
  rw [V5_eq]; unfold W6; rw [Function.update_self]
theorem V7_eq (c : Dev nD) : V7 m (outs m) c = W7 m c := by
  show StableHlo.after hostOps2 (V6 m (outs m) c) = _; rw [V6_eq]
theorem V8_eq (c : Dev nD) : V8 m (outs m) c = W8 m c := by
  show Function.update (V7 m (outs m) c) main_v23 (W8 m c main_v23) = W8 m c
  rw [V7_eq]; unfold W8; rw [Function.update_self]
theorem V9_eq (c : Dev nD) : V9 m (outs m) c = W9 m c := by
  show StableHlo.after hostOps3 (V8 m (outs m) c) = _; rw [V8_eq]
theorem V10_eq (c : Dev nD) : V10 m (outs m) c = W10 m c := by
  show Function.update (V9 m (outs m) c) main_v25 (W10 m c main_v25) = W10 m c
  rw [V9_eq]; unfold W10; rw [Function.update_self]

/-! ## Each region's arrays at its exit -/

theorem hF0 (c : Dev nD) (w : Fin cfg0.W) : (dat0 (E0 m) c).arrAt w cfg0.N = W4 m c (Pipeline.arrRef spec0 w) := by
  match w with
  | ⟨0, _⟩ => exact ((dat0 (E0 m) c).arrAt_in 0 rfl _).trans ((A_eq0 (E0 m) c 0).trans (Function.update_of_ne (StableHlo.devRef_ne_of_ne (by decide)) _ _).symm)
  | ⟨1, _⟩ => exact ((dat0 (E0 m) c).arrAt_in 1 rfl _).trans ((A_eq0 (E0 m) c 1).trans (Function.update_of_ne (StableHlo.devRef_ne_of_ne (by decide)) _ _).symm)
  | ⟨2, _⟩ => exact ((dat0 (E0 m) c).arrAt_in 2 rfl _).trans ((A_eq0 (E0 m) c 2).trans (Function.update_of_ne (StableHlo.devRef_ne_of_ne (by decide)) _ _).symm)
  | ⟨3, _⟩ =>
    unfold W4 o4
    exact (Function.update_self (Proc.devRef (τ := τ) .tc main_v19) _ (V3 m c)).symm
theorem hrest0 (c : Dev nD) (b : Ref sig .tc) (hb : b ∉ Finset.univ.image (Pipeline.arrRef spec0)) : W4 m c b = V3 m c b :=
  Function.update_of_ne (StableHlo.devRef_ne_of_ne fun e => hb (Finset.mem_image.mpr ⟨3, Finset.mem_univ _, e.symm⟩)) _ _

theorem hF1 (c : Dev nD) (w : Fin cfg1.W) : (dat1 (E1 m) c).arrAt w cfg1.N = W6 m c (Pipeline.arrRef spec1 w) := by
  match w with
  | ⟨0, _⟩ => exact ((dat1 (E1 m) c).arrAt_in 0 rfl _).trans ((A_eq1 (E1 m) c 0).trans (Function.update_of_ne (StableHlo.devRef_ne_of_ne (by decide)) _ _).symm)
  | ⟨1, _⟩ => exact ((dat1 (E1 m) c).arrAt_in 1 rfl _).trans ((A_eq1 (E1 m) c 1).trans (Function.update_of_ne (StableHlo.devRef_ne_of_ne (by decide)) _ _).symm)
  | ⟨2, _⟩ => exact ((dat1 (E1 m) c).arrAt_in 2 rfl _).trans ((A_eq1 (E1 m) c 2).trans (Function.update_of_ne (StableHlo.devRef_ne_of_ne (by decide)) _ _).symm)
  | ⟨3, _⟩ =>
    unfold W6 o6
    exact (Function.update_self (Proc.devRef (τ := τ) .tc main_v21) _ (W5 m c)).symm
theorem hrest1 (c : Dev nD) (b : Ref sig .tc) (hb : b ∉ Finset.univ.image (Pipeline.arrRef spec1)) : W6 m c b = W5 m c b :=
  Function.update_of_ne (StableHlo.devRef_ne_of_ne fun e => hb (Finset.mem_image.mpr ⟨3, Finset.mem_univ _, e.symm⟩)) _ _

theorem hF2 (c : Dev nD) (w : Fin cfg2.W) : (dat2 (E2 m) c).arrAt w cfg2.N = W8 m c (Pipeline.arrRef spec2 w) := by
  match w with
  | ⟨0, _⟩ => exact ((dat2 (E2 m) c).arrAt_in 0 rfl _).trans ((A_eq2 (E2 m) c 0).trans (Function.update_of_ne (StableHlo.devRef_ne_of_ne (by decide)) _ _).symm)
  | ⟨1, _⟩ => exact ((dat2 (E2 m) c).arrAt_in 1 rfl _).trans ((A_eq2 (E2 m) c 1).trans (Function.update_of_ne (StableHlo.devRef_ne_of_ne (by decide)) _ _).symm)
  | ⟨2, _⟩ => exact ((dat2 (E2 m) c).arrAt_in 2 rfl _).trans ((A_eq2 (E2 m) c 2).trans (Function.update_of_ne (StableHlo.devRef_ne_of_ne (by decide)) _ _).symm)
  | ⟨3, _⟩ =>
    unfold W8 o8
    exact (Function.update_self (Proc.devRef (τ := τ) .tc main_v23) _ (W7 m c)).symm
theorem hrest2 (c : Dev nD) (b : Ref sig .tc) (hb : b ∉ Finset.univ.image (Pipeline.arrRef spec2)) : W8 m c b = W7 m c b :=
  Function.update_of_ne (StableHlo.devRef_ne_of_ne fun e => hb (Finset.mem_image.mpr ⟨3, Finset.mem_univ _, e.symm⟩)) _ _

theorem hF3 (c : Dev nD) (w : Fin cfg3.W) : (dat3 (E3 m) c).arrAt w cfg3.N = W10 m c (Pipeline.arrRef spec3 w) := by
  match w with
  | ⟨0, _⟩ => exact ((dat3 (E3 m) c).arrAt_in 0 rfl _).trans ((A_eq3 (E3 m) c 0).trans (Function.update_of_ne (StableHlo.devRef_ne_of_ne (by decide)) _ _).symm)
  | ⟨1, _⟩ => exact ((dat3 (E3 m) c).arrAt_in 1 rfl _).trans ((A_eq3 (E3 m) c 1).trans (Function.update_of_ne (StableHlo.devRef_ne_of_ne (by decide)) _ _).symm)
  | ⟨2, _⟩ => exact ((dat3 (E3 m) c).arrAt_in 2 rfl _).trans ((A_eq3 (E3 m) c 2).trans (Function.update_of_ne (StableHlo.devRef_ne_of_ne (by decide)) _ _).symm)
  | ⟨3, _⟩ =>
    unfold W10 o10
    exact (Function.update_self (Proc.devRef (τ := τ) .tc main_v25) _ (W9 m c)).symm
theorem hrest3 (c : Dev nD) (b : Ref sig .tc) (hb : b ∉ Finset.univ.image (Pipeline.arrRef spec3)) : W10 m c b = W9 m c b :=
  Function.update_of_ne (StableHlo.devRef_ne_of_ne fun e => hb (Finset.mem_image.mpr ⟨3, Finset.mem_univ _, e.symm⟩)) _ _

/-! ## The proof data family and the regions' records -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c

def reg0 : Pipeline.RegionSeg (pcfgs (F := F)) adm (pdats m) () defs₀ 𝒱h Lh lvh 0 :=
  mkReg (pdats m) 0 launch0 (fun c => (body_obligation0 (E0 m) c).loose) (fun _ _ => rfl) (fun _ _ => rfl) (fun _ _ => rfl)
    (fun c => V3 m c) (fun c => W4 m c) (fun c w => A_eq0 (E0 m) c w) (hF0 m) (hrest0 m) (fun c => hin0 (E0 m) c) (fun c => hout0 (E0 m) c)
def reg1 : Pipeline.RegionSeg (pcfgs (F := F)) adm (pdats m) () defs₀ 𝒱h Lh lvh 1 :=
  mkReg (pdats m) 1 launch1 (fun c => (body_obligation1 (E1 m) c).loose) (fun _ _ => rfl) (fun _ _ => rfl) (fun _ _ => rfl)
    (fun c => W5 m c) (fun c => W6 m c) (fun c w => A_eq1 (E1 m) c w) (hF1 m) (hrest1 m) (fun c => hin1 (E1 m) c) (fun c => hout1 (E1 m) c)
def reg2 : Pipeline.RegionSeg (pcfgs (F := F)) adm (pdats m) () defs₀ 𝒱h Lh lvh 2 :=
  mkReg (pdats m) 2 launch2 (fun c => (body_obligation2 (E2 m) c).loose) (fun _ _ => rfl) (fun _ _ => rfl) (fun _ _ => rfl)
    (fun c => W7 m c) (fun c => W8 m c) (fun c w => A_eq2 (E2 m) c w) (hF2 m) (hrest2 m) (fun c => hin2 (E2 m) c) (fun c => hout2 (E2 m) c)
def reg3 : Pipeline.RegionSeg (pcfgs (F := F)) adm (pdats m) () defs₀ 𝒱h Lh lvh 3 :=
  mkReg (pdats m) 3 launch3 (fun c => (body_obligation3 (E3 m) c).loose) (fun _ _ => rfl) (fun _ _ => rfl) (fun _ _ => rfl)
    (fun c => W9 m c) (fun c => W10 m c) (fun c w => A_eq3 (E3 m) c w) (hF3 m) (hrest3 m) (fun c => hin3 (E3 m) c) (fun c => hout3 (E3 m) c)

end Cert.KernelIdeal.Hand

end
-- ==== Proof.KI.Frame.lean ====
/-
  The frame of the kernel program: from any memory with zero counters every weakly fair execution of @main ends, nothing
  faults, and the ten argument arrays end as launched. The host stretches, their chaining and the read-back are the
  conditional frame's; supplied here are the four regions' records, the state that rides beside the buffers (the
  generator register and an empty debt), and the launch's ghost state (nothing beyond the pipelines' cells).
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.Regs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_cond m emb₁ () 𝒱h Lh lvh
    (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rr c from by
          iintro ⟨-, HO, -, Hp, -⟩
          isplitl [Hp]; · iexists _; iexact Hp
          iexists ∅; iexact HO)
      iintro ⟨H, -⟩
      imodintro
      ihave H' := hmono $$ H
      iexact H')
    (fun c => by
      iintro ⟨-, HO⟩
      iexact HO)
    (reg0 m) (fun c => .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl)

end Cert.KernelIdeal.Hand

end
-- ==== Proof.KI.ValueRun.lean ====
/-
  The kernel program's run with its result named: every weakly fair execution of @main ends with the result buffer
  (the last region's output array) holding what the valuation at the return says, and the ten argument arrays as
  launched. It is the launch of the conditional frame once more, reading one more buffer off the last valuation.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.Regs
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

section Cond
variable (m : (ℓ : Loc nD τ sig) → Buf (Elt F) ℓ)

set_option backward.isDefEq.respectTransparency.types false in
/-- The run, given the regions' records: the result buffer at the last valuation, the arguments as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c)) :
    θ_run defs (onTc (τ := τ) (main (F := F))) ⟨m, fun _ => 0, ρ⟩ (fun r => ∀ c : Dev nD,
      r.2.mem ((c.tc : Thread nD τ).loc main_v25) = V10 m outs c main_v25
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v25) = V10 m outs c main_v25 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v25) (Finset.mem_filter.mpr ⟨StableHlo.devRef_mem_tcRefs main_v25, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c),
        (h (Proc.devRef .tc main_arg9) (Finset.mem_filter.mpr ⟨StableHlo.devRef_mem_tcRefs main_arg9, by decide⟩)).trans (V10_main_arg9 m outs c)⟩
    · iexact HSI

end Cond

variable (m : (ℓ : Loc nD τ sig) → Buf (Elt F) ℓ) (ρ : Dev nD → PrngReg)

set_option backward.isDefEq.respectTransparency.types false in
/-- The run of the kernel program: its result buffer ends at what the last region's write-backs left (`o10`). -/
theorem run_value : θ_run defs (onTc (τ := τ) (main (F := F))) ⟨m, fun _ => 0, ρ⟩ (fun r => ∀ c : Dev nD,
      r.2.mem ((c.tc : Thread nD τ).loc main_v25) = o10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (by rw [V10_eq]; unfold W10; rw [Function.update_self]), (h c).2⟩)
    (run_cond m emb₁ () 𝒱h Lh lvh
    (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rr c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)))
          ⊢ (bigSep Finset.univ (fun c : Dev nD => Rr c) : sProp 𝕄) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ iprop(emp)) : sProp 𝕄) ⊢ Rr c from by
          iintro ⟨-, HO, -, Hp, -⟩
          isplitl [Hp]; · iexists _; iexact Hp
          iexists ∅; iexact HO)
      iintro ⟨H, -⟩
      imodintro
      ihave H' := hmono $$ H
      iexact H')
    (fun c => by
      iintro ⟨-, HO⟩
      iexact HO)
    (reg0 m) (fun c => .rfl) (fun c => by rw [V4_eq]; exact .rfl)
    (reg1 m) (fun c => by rw [V5_eq]; exact .rfl) (fun c => by rw [V6_eq]; exact .rfl)
    (reg2 m) (fun c => by rw [V7_eq]; exact .rfl) (fun c => by rw [V8_eq]; exact .rfl)
    (reg3 m) (fun c => by rw [V9_eq]; exact .rfl) (fun c => by rw [V10_eq]; exact .rfl))

end Cert.KernelIdeal.Hand

end
-- ==== Proof.LibDense.lean ====
/-
  One dense layer read at an entry, on the extended reals.

  For an M×K array x, a K×N array w and a 1×N row b, the entry (p, q) of x·w + b is Σ_k x (p, k) · w (k, q) + b (0, q).
  Two ways of computing it are the same number: a matrix product over the whole shared axis, and a sum that visits the
  shared axis block by block (nb blocks of bs entries), starting from zero and adding one block's partial product at a
  time. Addition of extended reals is commutative and associative, so no finiteness is needed for the regrouping.
-/
import Idealize.ShloMosaic.PureOps.Ideal.Laws
import Idealize.ShloMosaic.Lib.ValueIdx

namespace Idealize.ShloMosaic.Dense

open Idealize.ShloMosaic Idealize.ShloMosaic.ValueIdx

/-- Entry (p, q) of x·w + b. -/
noncomputable def entry {M K N : Nat} (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 0 q)

/-- The entry depends on x only through row p: two arrays that agree on that row give the same entry. -/
theorem entry_congr_left {M K N : Nat} {x x' : (⟨2, ![M, K]⟩ : Shape).Idx → EReal} (w : (⟨2, ![K, N]⟩ : Shape).Idx → EReal)
    (b : (⟨2, ![1, N]⟩ : Shape).Idx → EReal) (p : Fin M) (q : Fin N) (h : ∀ k : Fin K, x (ix2 p k) = x' (ix2 p k)) :
    entry x w b p q = entry x' w b p q := by
  unfold entry
  rw [Finset.sum_congr rfl fun k _ => by rw [h k]]

/-- The layer as a whole array: its entry at every index. -/
noncomputable def layer {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => entry x w b (i 0) (i 1)

theorem layer_apply {M K N : Nat} (x : (⟨2, ![M, K]⟩ : Shape).Idx → EReal) (w : (⟨2, ![K, N]⟩ : Shape).Idx → EReal)
    (b : (⟨2, ![1, N]⟩ : Shape).Idx → EReal) (p : Fin M) (q : Fin N) : layer x w b (ix2 p q) = entry x w b p q := rfl

/-- An array that agrees with the layer at every entry (p, q) IS the layer. -/
theorem eq_layer_of_apply {M K N : Nat} {a : (⟨2, ![M, N]⟩ : Shape).Idx → EReal} {x : (⟨2, ![M, K]⟩ : Shape).Idx → EReal}
    {w : (⟨2, ![K, N]⟩ : Shape).Idx → EReal} {b : (⟨2, ![1, N]⟩ : Shape).Idx → EReal}
    (h : ∀ (p : Fin M) (q : Fin N), a (ix2 p q) = entry x w b p q) : a = layer x w b := by
  funext i; rw [eq_ix2 i]; exact h _ _

/-- The layer followed by the positive part. -/
noncomputable def reluLayer {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => max (layer x w b i) 0

/-- Four layers in a row, the third followed by the positive part: the network both programs compute. -/
noncomputable def net {B D0 D1 D2 D3 D4 : Nat} (x : (⟨2, ![B, D0]⟩ : Shape).Idx → EReal)
    (w1 : (⟨2, ![D0, D1]⟩ : Shape).Idx → EReal) (b1 : (⟨2, ![1, D1]⟩ : Shape).Idx → EReal)
    (w2 : (⟨2, ![D1, D2]⟩ : Shape).Idx → EReal) (b2 : (⟨2, ![1, D2]⟩ : Shape).Idx → EReal)
    (w3 : (⟨2, ![D2, D3]⟩ : Shape).Idx → EReal) (b3 : (⟨2, ![1, D3]⟩ : Shape).Idx → EReal)
    (w4 : (⟨2, ![D3, D4]⟩ : Shape).Idx → EReal) (b4 : (⟨2, ![1, D4]⟩ : Shape).Idx → EReal) :
    (⟨2, ![B, D4]⟩ : Shape).Idx → EReal :=
  layer (reluLayer (layer (layer x w1 b1) w2 b2) w3 b3) w4 b4

end Idealize.ShloMosaic.Dense
-- ==== Proof.RefValue.lean ====
/-
  The reference's value: a network of four dense layers.

  The reference multiplies a 1024×4096 input by four weight arrays in turn, adding a bias row after each product and
  taking the positive part after the third. The first two weight arrays are the stored weights times a mask, built
  entry by entry before the products; they are kept here as the arrays they are (w1m, w2m), not opened. Read at an
  entry (p, q), each product is Σ_k left (p, k) · right (k, q) and each bias is the vector's q-th entry, so every stage
  is one layer of LibDense on the stage before it as an array; chaining the four equalities of arrays gives the
  network.
-/
import proofs.«113652_j49297634623952_1_alg».proof.Proof.Gen.ReferenceIdeal.Run
import proofs.«113652_j49297634623952_1_alg».proof.Proof.Gen.ReferenceIdeal.Read
import proofs.«113652_j49297634623952_1_alg».proof.Proof.LibDense
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Idealize.ShloMosaic.Dense

/-- A bias vector as the 1×N row that is added to every row of a product. -/
def row {N : Nat} (b : (⟨1, ![N]⟩ : Shape).Idx → EReal) : (⟨2, ![1, N]⟩ : Shape).Idx → EReal :=
  fun i => b (ix1 (i 1))

theorem row_apply {N : Nat} (b : (⟨1, ![N]⟩ : Shape).Idx → EReal) (q : Fin N) : row b (ix2 0 q) = b (ix1 q) := rfl

/-- The first layer's weights: the stored weights times the integer mask, each mask entry spread over eight neighbouring columns. -/
def w1m (a1 : (⟨S4096x512, .i32⟩ : BufTy).Contents (Elt Ideal)) (a2 : (⟨S4096x4096, .f32⟩ : BufTy).Contents (Elt Ideal)) :
    (⟨S4096x4096, .f32⟩ : BufTy).Contents (Elt Ideal) :=
  mulf (F := Ideal) a2 (shapeCast _ (broadcastInDim S4096x512x8 ![0, 1] bcast_S4096x512_S4096x512x8_0_1 (sitofp (F := Ideal) .f32 a1)) shapeCasts_S4096x512x8_S4096x4096)

theorem w1m_eq (a1 : (⟨S4096x512, .i32⟩ : BufTy).Contents (Elt Ideal)) (a2 : (⟨S4096x4096, .f32⟩ : BufTy).Contents (Elt Ideal)) :
    val_main_v11 (F := Ideal) a1 a2 = w1m a1 a2 := rfl

/-- The second layer's weights: the stored weights times a block mask, the Kronecker product of the 512×512 identity with an 8×16 block of ones. -/
def w2m (a4 : (⟨S4096x8192, .f32⟩ : BufTy).Contents (Elt Ideal)) : (⟨S4096x8192, .f32⟩ : BufTy).Contents (Elt Ideal) :=
  mulf (F := Ideal) a4 (shapeCast _ (mulf (F := Ideal) (broadcastInDim S512x8x512x16 ![0, 1, 2, 3] bcast_S512x1x512x1_S512x8x512x16_0_1_2_3 (broadcastInDim S512x1x512x1 ![0, 2] bcast_S512x512_S512x1x512x1_0_2 (uitofp (F := Ideal) .f32 (cmpi .eq (addi (iotaInDim S512x512 32 0) (broadcastInDim S512x512 ![] bcast_S_S512x512 (constantI S_ 32 0#32))) (iotaInDim S512x512 32 1))))) (broadcastInDim S512x8x512x16 ![0, 1, 2, 3] bcast_S1x8x1x16_S512x8x512x16_0_1_2_3 (broadcastInDim S1x8x1x16 ![1, 3] bcast_S8x16_S1x8x1x16_1_3 (broadcastInDim S8x16 ![] bcast_S_S8x16 (constant (F := Ideal) S_ .f32 0x3F800000#32))))) shapeCasts_S512x8x512x16_S4096x8192)

theorem w2m_eq (a4 : (⟨S4096x8192, .f32⟩ : BufTy).Contents (Elt Ideal)) : val_main_v16 (F := Ideal) a4 = w2m a4 := rfl

/-- The first layer: x·W1 + b1 as an array. -/
theorem layer1 (a0 : (⟨S1024x4096, .f32⟩ : BufTy).Contents (Elt Ideal)) (a1 : (⟨S4096x512, .i32⟩ : BufTy).Contents (Elt Ideal)) (a2 : (⟨S4096x4096, .f32⟩ : BufTy).Contents (Elt Ideal)) (a3 : (⟨S4096, .f32⟩ : BufTy).Contents (Elt Ideal)) :
    val_main_v15 (F := Ideal) a0 a1 a2 a3 = layer a0 (w1m a1 a2) (row a3) := by
  refine eq_layer_of_apply fun p q => ?_
  have el : ∀ k : Fin 4096, lidx_main_v12 (ix2 p q) k = ix2 p k := fun k =>
    funext fun a => Fin.ext (by match a with | ⟨0, _⟩ => rfl | ⟨1, _⟩ => rfl)
  have er : ∀ k : Fin 4096, ridx_main_v12 (ix2 p q) k = ix2 k q := fun k =>
    funext fun a => Fin.ext (by match a with | ⟨0, _⟩ => rfl | ⟨1, _⟩ => rfl)
  have eb : idx_main_v13 (idx_main_v14 (ix2 p q)) = ix1 q :=
    funext fun a => Fin.ext (by match a with | ⟨0, _⟩ => rfl)
  rw [val_main_v15_apply, val_main_v12_apply, val_main_v14_apply, val_main_v13_apply, w1m_eq, eb, Ideal.addf_def]
  simp only [el, er]
  rfl

/-- The second layer, on the first layer's output array. -/
theorem layer2 (a0 : (⟨S1024x4096, .f32⟩ : BufTy).Contents (Elt Ideal)) (a1 : (⟨S4096x512, .i32⟩ : BufTy).Contents (Elt Ideal)) (a2 : (⟨S4096x4096, .f32⟩ : BufTy).Contents (Elt Ideal)) (a3 : (⟨S4096, .f32⟩ : BufTy).Contents (Elt Ideal)) (a4 : (⟨S4096x8192, .f32⟩ : BufTy).Contents (Elt Ideal)) (a5 : (⟨S8192, .f32⟩ : BufTy).Contents (Elt Ideal)) :
    val_main_v20 (F := Ideal) a0 a1 a2 a3 a4 a5 = layer (val_main_v15 (F := Ideal) a0 a1 a2 a3) (w2m a4) (row a5) := by
  refine eq_layer_of_apply fun p q => ?_
  have el : ∀ k : Fin 4096, lidx_main_v17 (ix2 p q) k = ix2 p k := fun k =>
    funext fun a => Fin.ext (by match a with | ⟨0, _⟩ => rfl | ⟨1, _⟩ => rfl)
  have er : ∀ k : Fin 4096, ridx_main_v17 (ix2 p q) k = ix2 k q := fun k =>
    funext fun a => Fin.ext (by match a with | ⟨0, _⟩ => rfl | ⟨1, _⟩ => rfl)
  have eb : idx_main_v18 (idx_main_v19 (ix2 p q)) = ix1 q :=
    funext fun a => Fin.ext (by match a with | ⟨0, _⟩ => rfl)
  rw [val_main_v20_apply, val_main_v17_apply, val_main_v19_apply, val_main_v18_apply, w2m_eq, eb, Ideal.addf_def]
  simp only [el, er]
  rfl

/-- The third layer, followed by the positive part, on the second layer's output array. -/
theorem layer3 (a0 : (⟨S1024x4096, .f32⟩ : BufTy).Contents (Elt Ideal)) (a1 : (⟨S4096x512, .i32⟩ : BufTy).Contents (Elt Ideal)) (a2 : (⟨S4096x4096, .f32⟩ : BufTy).Contents (Elt Ideal)) (a3 : (⟨S4096, .f32⟩ : BufTy).Contents (Elt Ideal)) (a4 : (⟨S4096x8192, .f32⟩ : BufTy).Contents (Elt Ideal)) (a5 : (⟨S8192, .f32⟩ : BufTy).Contents (Elt Ideal)) (a6 : (⟨S8192x2048, .f32⟩ : BufTy).Contents (Elt Ideal)) (a7 : (⟨S2048, .f32⟩ : BufTy).Contents (Elt Ideal)) :
    val_main_v25 (F := Ideal) a0 a1 a2 a3 a4 a5 a6 a7 = reluLayer (val_main_v20 (F := Ideal) a0 a1 a2 a3 a4 a5) a6 (row a7) := by
  suffices h : ∀ (p : Fin 1024) (q : Fin 2048), val_main_v25 (F := Ideal) a0 a1 a2 a3 a4 a5 a6 a7 (ix2 p q)
      = reluLayer (val_main_v20 (F := Ideal) a0 a1 a2 a3 a4 a5) a6 (row a7) (ix2 p q) by
    funext i; rw [eq_ix2 i]; exact h _ _
  intro p q
  have el : ∀ k : Fin 8192, lidx_main_v21 (ix2 p q) k = ix2 p k := fun k =>
    funext fun a => Fin.ext (by match a with | ⟨0, _⟩ => rfl | ⟨1, _⟩ => rfl)
  have er : ∀ k : Fin 8192, ridx_main_v21 (ix2 p q) k = ix2 k q := fun k =>
    funext fun a => Fin.ext (by match a with | ⟨0, _⟩ => rfl | ⟨1, _⟩ => rfl)
  have eb : idx_main_v22 (idx_main_v23 (ix2 p q)) = ix1 q :=
    funext fun a => Fin.ext (by match a with | ⟨0, _⟩ => rfl)
  rw [val_main_v25_apply, val_main_v24_apply, val_main_v21_apply, val_main_v23_apply, val_main_v22_apply,
    val_main_call1_v0_apply, val_main_call1_cst_apply, eb, Ideal.addf_def, Ideal.maximumf_def, Ideal.ofBits_def,
    Ideal.ofBits_zero_f32]
  simp only [el, er]
  rfl

/-- The fourth layer, on the third layer's output array. -/
theorem layer4 (a0 : (⟨S1024x4096, .f32⟩ : BufTy).Contents (Elt Ideal)) (a1 : (⟨S4096x512, .i32⟩ : BufTy).Contents (Elt Ideal)) (a2 : (⟨S4096x4096, .f32⟩ : BufTy).Contents (Elt Ideal)) (a3 : (⟨S4096, .f32⟩ : BufTy).Contents (Elt Ideal)) (a4 : (⟨S4096x8192, .f32⟩ : BufTy).Contents (Elt Ideal)) (a5 : (⟨S8192, .f32⟩ : BufTy).Contents (Elt Ideal)) (a6 : (⟨S8192x2048, .f32⟩ : BufTy).Contents (Elt Ideal)) (a7 : (⟨S2048, .f32⟩ : BufTy).Contents (Elt Ideal)) (a8 : (⟨S2048x4, .f32⟩ : BufTy).Contents (Elt Ideal)) (a9 : (⟨S4, .f32⟩ : BufTy).Contents (Elt Ideal)) :
    val_main_v29 (F := Ideal) a0 a1 a2 a3 a4 a5 a6 a7 a8 a9 = layer (val_main_v25 (F := Ideal) a0 a1 a2 a3 a4 a5 a6 a7) a8 (row a9) := by
  refine eq_layer_of_apply fun p q => ?_
  have el : ∀ k : Fin 2048, lidx_main_v26 (ix2 p q) k = ix2 p k := fun k =>
    funext fun a => Fin.ext (by match a with | ⟨0, _⟩ => rfl | ⟨1, _⟩ => rfl)
  have er : ∀ k : Fin 2048, ridx_main_v26 (ix2 p q) k = ix2 k q := fun k =>
    funext fun a => Fin.ext (by match a with | ⟨0, _⟩ => rfl | ⟨1, _⟩ => rfl)
  have eb : idx_main_v27 (idx_main_v28 (ix2 p q)) = ix1 q :=
    funext fun a => Fin.ext (by match a with | ⟨0, _⟩ => rfl)
  rw [val_main_v29_apply, val_main_v26_apply, val_main_v28_apply, val_main_v27_apply, eb, Ideal.addf_def]
  simp only [el, er]
  rfl

/-- The whole reference: the term its run leaves in the result buffer is the four-layer network of the arguments, the two
    masked weight arrays kept as they are built. -/
theorem ref_eq_net (a0 : (⟨S1024x4096, .f32⟩ : BufTy).Contents (Elt Ideal)) (a1 : (⟨S4096x512, .i32⟩ : BufTy).Contents (Elt Ideal)) (a2 : (⟨S4096x4096, .f32⟩ : BufTy).Contents (Elt Ideal)) (a3 : (⟨S4096, .f32⟩ : BufTy).Contents (Elt Ideal)) (a4 : (⟨S4096x8192, .f32⟩ : BufTy).Contents (Elt Ideal)) (a5 : (⟨S8192, .f32⟩ : BufTy).Contents (Elt Ideal)) (a6 : (⟨S8192x2048, .f32⟩ : BufTy).Contents (Elt Ideal)) (a7 : (⟨S2048, .f32⟩ : BufTy).Contents (Elt Ideal)) (a8 : (⟨S2048x4, .f32⟩ : BufTy).Contents (Elt Ideal)) (a9 : (⟨S4, .f32⟩ : BufTy).Contents (Elt Ideal)) :
    addf (F := Ideal) (Host.dotGeneral (φ₁ := .f32) (φ₂ := .f32) dot_S1024x2048_S2048x4_S1024x4_1_0_0_1_n_n none (maximumf (F := Ideal) (addf (F := Ideal) (Host.dotGeneral (φ₁ := .f32) (φ₂ := .f32) dot_S1024x8192_S8192x2048_S1024x2048_1_0_0_1_n_n none (addf (F := Ideal) (Host.dotGeneral (φ₁ := .f32) (φ₂ := .f32) dot_S1024x4096_S4096x8192_S1024x8192_1_0_0_1_n_n none (addf (F := Ideal) (Host.dotGeneral (φ₁ := .f32) (φ₂ := .f32) dot_S1024x4096_S4096x4096_S1024x4096_1_0_0_1_n_n none (a0) (mulf (F := Ideal) (a2) (shapeCast _ (broadcastInDim S4096x512x8 ![0, 1] bcast_S4096x512_S4096x512x8_0_1 (sitofp (F := Ideal) .f32 (a1))) shapeCasts_S4096x512x8_S4096x4096))) (broadcastInDim S1024x4096 ![0, 1] bcast_S1x4096_S1024x4096_0_1 (broadcastInDim S1x4096 ![1] bcast_S4096_S1x4096_1 (a3)))) (mulf (F := Ideal) (a4) (shapeCast _ (mulf (F := Ideal) (broadcastInDim S512x8x512x16 ![0, 1, 2, 3] bcast_S512x1x512x1_S512x8x512x16_0_1_2_3 (broadcastInDim S512x1x512x1 ![0, 2] bcast_S512x512_S512x1x512x1_0_2 (uitofp (F := Ideal) .f32 (cmpi .eq (addi (iotaInDim S512x512 32 0) (broadcastInDim S512x512 ![] bcast_S_S512x512 (constantI S_ 32 0#32))) (iotaInDim S512x512 32 1))))) (broadcastInDim S512x8x512x16 ![0, 1, 2, 3] bcast_S1x8x1x16_S512x8x512x16_0_1_2_3 (broadcastInDim S1x8x1x16 ![1, 3] bcast_S8x16_S1x8x1x16_1_3 (broadcastInDim S8x16 ![] bcast_S_S8x16 (constant (F := Ideal) S_ .f32 0x3F800000#32))))) shapeCasts_S512x8x512x16_S4096x8192))) (broadcastInDim S1024x8192 ![0, 1] bcast_S1x8192_S1024x8192_0_1 (broadcastInDim S1x8192 ![1] bcast_S8192_S1x8192_1 (a5)))) (a6)) (broadcastInDim S1024x2048 ![0, 1] bcast_S1x2048_S1024x2048_0_1 (broadcastInDim S1x2048 ![1] bcast_S2048_S1x2048_1 (a7)))) (broadcastInDim S1024x2048 ![] bcast_S_S1024x2048 (constant (F := Ideal) S_ .f32 0x00000000#32))) (a8)) (broadcastInDim S1024x4 ![0, 1] bcast_S1x4_S1024x4_0_1 (broadcastInDim S1x4 ![1] bcast_S4_S1x4_1 (a9)))
      = net a0 (w1m a1 a2) (row a3) (w2m a4) (row a5) a6 (row a7) a8 (row a9) := by
  refine (val_main_v29_eq (F := Ideal) a0 a1 a2 a3 a4 a5 a6 a7 a8 a9).trans ?_
  rw [layer4, layer3, layer2, layer1]
  rfl

/-- Every weakly fair execution of the reference terminates with its result buffer at the network of the launch
    contents of its arguments, the arguments unchanged. -/
theorem run_net (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v29)
        = net (m' ((c.tc : Thread nD τ).loc main_arg0)) (w1m (m' ((c.tc : Thread nD τ).loc main_arg1)) (m' ((c.tc : Thread nD τ).loc main_arg2))) (row (m' ((c.tc : Thread nD τ).loc main_arg3))) (w2m (m' ((c.tc : Thread nD τ).loc main_arg4))) (row (m' ((c.tc : Thread nD τ).loc main_arg5)))
            (m' ((c.tc : Thread nD τ).loc main_arg6)) (row (m' ((c.tc : Thread nD τ).loc main_arg7))) (m' ((c.tc : Thread nD τ).loc main_arg8)) (row (m' ((c.tc : Thread nD τ).loc main_arg9)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9) :=
  (θ_run defs _ _).mono (fun _ h c => ⟨(h c).1.trans (ref_eq_net _ _ _ _ _ _ _ _ _ _), (h c).2⟩)
    (Cert.ReferenceIdeal.Value.run (F := Ideal) m' ρ')

end Cert.ReferenceIdeal.RefValue

end
-- ==== Proof.KI.KernelValue.lean ====
/-
  The kernel's value: the same network of four dense layers.

  Each region multiplies its input array by a weight array, adds a bias row, and (the third) takes the positive part;
  its input array is the output array of the region before. Read back through the buffer contents between the items:
  the first input is the launched input (the change of float format is the identity on the extended reals), the
  weight arrays are the launched weights, the first two times their masks exactly as built entry by entry, and each
  bias row is the launched bias vector recast as a 1×N array. With every region's output array equal, as an array, to
  the layer of its three inputs, the result array is the network of the launched arguments.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.Regs
import proofs.«113652_j49297634623952_1_alg».proof.Proof.RefValue
import proofs.«113652_j49297634623952_1_alg».proof.Proof.LibDense
import Idealize.ShloMosaic.Lib.StableHlo.Run
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.Dense
open Cert.ReferenceIdeal.RefValue (row w1m w2m)

/-- A vector recast as a 1×N array is the row of its entries. -/
theorem reshape_row {N : Nat} (b : (⟨1, ![N]⟩ : Shape).Idx → EReal) (h : (⟨1, ![N]⟩ : Shape).ShapeCasts ⟨2, ![1, N]⟩) :
    shapeCast (⟨2, ![1, N]⟩ : Shape) b h = row b := by
  funext i
  refine shapeCast_apply b h i (ix1 (i 1)) ?_
  rw [Shape.rowMajor_val_one, Shape.rowMajor_val_two]
  have h0 : (i 0).val = 0 := Nat.lt_one_iff.mp (i 0).isLt
  show (i 1).val = (i 0).val * N + (i 1).val
  rw [h0, Nat.zero_mul, Nat.zero_add]

section
variable (m : (ℓ : Loc nD τ sig) → Buf (Elt Ideal) ℓ) (c : Dev nD)

/-- An argument's array is as launched when region 0 starts. -/
theorem V3_arg (r : Ref sig .tc) (h0 : r ∉ hostOps0_W) (h1 : r ∉ hostOps0_1_W) (h2 : r ∉ hostOps0_2_W) :
    V3 m c r = m ((c : Thread nD τ).loc r) :=
  (V3_of m c r h2).trans ((V2_of m c r h1).trans ((V1_of m c r h0).trans rfl))

theorem in0_x : (V3 m c main_v15 : S1024x4096.Idx → EReal) = m ((c : Thread nD τ).loc main_arg0) := by
  show StableHlo.after hostOps0_2 (V2 m c) (Proc.devRef .tc main_v15) = _
  after_results
  rfl

theorem in0_w : (V3 m c main_v4 : S4096x4096.Idx → EReal) = w1m (m ((c : Thread nD τ).loc main_arg1)) (m ((c : Thread nD τ).loc main_arg2)) := by
  rw [V3_of m c main_v4 (by decide), V2_of m c main_v4 (by decide)]
  show StableHlo.after hostOps0 (V0 m c) (Proc.devRef .tc main_v4) = _
  after_results
  rfl

theorem in0_b : (V3 m c main_v18 : S1x4096.Idx → EReal) = row (m ((c : Thread nD τ).loc main_arg3)) := by
  show StableHlo.after hostOps0_2 (V2 m c) (Proc.devRef .tc main_v18) = _
  after_results
  exact reshape_row (N := 4096) (m ((c : Thread nD τ).loc main_arg3)) shapeCasts_S4096_S1x4096
end

section
variable (m : (ℓ : Loc nD τ sig) → Buf (Elt Ideal) ℓ) (c : Dev nD)

/-! ## A reference an item does not write keeps its contents -/

theorem W4_of (r : Ref sig .tc) (h : r ≠ main_v19) : W4 m c r = V3 m c r :=
  Function.update_of_ne (StableHlo.devRef_ne_of_ne h) _ _
theorem W4_self : W4 m c main_v19 = o4 m c := Function.update_self _ _ _
theorem W5_of (r : Ref sig .tc) (h : r ∉ hostOps1_W) : W5 m c r = W4 m c r :=
  StableHlo.after_of_writes_sub hostOps1 _ hostOps1_writes h
theorem W6_of (r : Ref sig .tc) (h : r ≠ main_v21) : W6 m c r = W5 m c r :=
  Function.update_of_ne (StableHlo.devRef_ne_of_ne h) _ _
theorem W6_self : W6 m c main_v21 = o6 m c := Function.update_self _ _ _
theorem W7_of (r : Ref sig .tc) (h : r ∉ hostOps2_W) : W7 m c r = W6 m c r :=
  StableHlo.after_of_writes_sub hostOps2 _ hostOps2_writes h
theorem W8_of (r : Ref sig .tc) (h : r ≠ main_v23) : W8 m c r = W7 m c r :=
  Function.update_of_ne (StableHlo.devRef_ne_of_ne h) _ _
theorem W8_self : W8 m c main_v23 = o8 m c := Function.update_self _ _ _
theorem W9_of (r : Ref sig .tc) (h : r ∉ hostOps3_W) : W9 m c r = W8 m c r :=
  StableHlo.after_of_writes_sub hostOps3 _ hostOps3_writes h

/-! ## Region 1's three input arrays -/

theorem in1_x : W5 m c main_v19 = o4 m c := (W5_of m c main_v19 (by decide)).trans (W4_self m c)

theorem in1_w : (W5 m c main_v14 : S4096x8192.Idx → EReal) = w2m (m ((c : Thread nD τ).loc main_arg4)) := by
  rw [W5_of m c main_v14 (by decide), W4_of m c main_v14 (by decide)]
  show StableHlo.after hostOps0_2 (V2 m c) (Proc.devRef .tc main_v14) = _
  after_results
  rfl

theorem in1_b : (W5 m c main_v20 : S1x8192.Idx → EReal) = row (m ((c : Thread nD τ).loc main_arg5)) := by
  show StableHlo.after hostOps1 (W4 m c) (Proc.devRef .tc main_v20) = _
  after_results
  rw [W4_of m c main_arg5 (by decide), V3_arg m c main_arg5 (by decide) (by decide) (by decide)]
  exact reshape_row (N := 8192) (m ((c : Thread nD τ).loc main_arg5)) shapeCasts_S8192_S1x8192
end

section
variable (m : (ℓ : Loc nD τ sig) → Buf (Elt Ideal) ℓ) (c : Dev nD)

/-! ## Region 2's three input arrays -/

theorem in2_x : W7 m c main_v21 = o6 m c := (W7_of m c main_v21 (by decide)).trans (W6_self m c)

theorem in2_w : (W7 m c main_v16 : S8192x2048.Idx → EReal) = m ((c : Thread nD τ).loc main_arg6) := by
  rw [W7_of m c main_v16 (by decide), W6_of m c main_v16 (by decide), W5_of m c main_v16 (by decide), W4_of m c main_v16 (by decide)]
  show StableHlo.after hostOps0_2 (V2 m c) (Proc.devRef .tc main_v16) = _
  after_results
  rfl

theorem in2_b : (W7 m c main_v22 : S1x2048.Idx → EReal) = row (m ((c : Thread nD τ).loc main_arg7)) := by
  show StableHlo.after hostOps2 (W6 m c) (Proc.devRef .tc main_v22) = _
  after_results
  rw [W6_of m c main_arg7 (by decide), W5_of m c main_arg7 (by decide), W4_of m c main_arg7 (by decide),
    V3_arg m c main_arg7 (by decide) (by decide) (by decide)]
  exact reshape_row (N := 2048) (m ((c : Thread nD τ).loc main_arg7)) shapeCasts_S2048_S1x2048

/-! ## Region 3's three input arrays -/

theorem in3_x : W9 m c main_v23 = o8 m c := (W9_of m c main_v23 (by decide)).trans (W8_self m c)

theorem in3_w : (W9 m c main_v17 : S2048x4.Idx → EReal) = m ((c : Thread nD τ).loc main_arg8) := by
  rw [W9_of m c main_v17 (by decide), W8_of m c main_v17 (by decide), W7_of m c main_v17 (by decide), W6_of m c main_v17 (by decide),
    W5_of m c main_v17 (by decide), W4_of m c main_v17 (by decide)]
  show StableHlo.after hostOps0_2 (V2 m c) (Proc.devRef .tc main_v17) = _
  after_results
  rfl

theorem in3_b : (W9 m c main_v24 : S1x4.Idx → EReal) = row (m ((c : Thread nD τ).loc main_arg9)) := by
  show StableHlo.after hostOps3 (W8 m c) (Proc.devRef .tc main_v24) = _
  after_results
  rw [W8_of m c main_arg9 (by decide), W7_of m c main_arg9 (by decide), W6_of m c main_arg9 (by decide), W5_of m c main_arg9 (by decide),
    W4_of m c main_arg9 (by decide), V3_arg m c main_arg9 (by decide) (by decide) (by decide)]
  exact reshape_row (N := 4) (m ((c : Thread nD τ).loc main_arg9)) shapeCasts_S4_S1x4
end

/-- The kernel's result array is the four-layer network of the arguments, given each region's output array entry by entry. -/
theorem kernel_net
    (h0 : ∀ (V : (c : Dev nD) → (b : Ref sig .tc) → Buf (Elt Ideal) ((c : Thread nD τ).loc b)) (c : Dev nD) (p : Fin 1024) (q : Fin 4096),
      (dat0 (F := Ideal) V c).arrAt 3 cfg0.N (ix2 p q) = Dense.entry (V c main_v15) (V c main_v4) (V c main_v18) p q)
    (h1 : ∀ (V : (c : Dev nD) → (b : Ref sig .tc) → Buf (Elt Ideal) ((c : Thread nD τ).loc b)) (c : Dev nD) (p : Fin 1024) (q : Fin 8192),
      (dat1 (F := Ideal) V c).arrAt 3 cfg1.N (ix2 p q) = Dense.entry (V c main_v19) (V c main_v14) (V c main_v20) p q)
    (h2 : ∀ (V : (c : Dev nD) → (b : Ref sig .tc) → Buf (Elt Ideal) ((c : Thread nD τ).loc b)) (c : Dev nD) (p : Fin 1024) (q : Fin 2048),
      (dat2 (F := Ideal) V c).arrAt 3 cfg2.N (ix2 p q) = max (Dense.entry (V c main_v21) (V c main_v16) (V c main_v22) p q) 0)
    (h3 : ∀ (V : (c : Dev nD) → (b : Ref sig .tc) → Buf (Elt Ideal) ((c : Thread nD τ).loc b)) (c : Dev nD) (p : Fin 1024) (q : Fin 4),
      (dat3 (F := Ideal) V c).arrAt 3 cfg3.N (ix2 p q) = Dense.entry (V c main_v23) (V c main_v17) (V c main_v24) p q)
    (m : (ℓ : Loc nD τ sig) → Buf (Elt Ideal) ℓ) (c : Dev nD) :
    (o10 (F := Ideal) m c : S1024x4.Idx → EReal)
      = Dense.net (m ((c : Thread nD τ).loc main_arg0)) (w1m (m ((c : Thread nD τ).loc main_arg1)) (m ((c : Thread nD τ).loc main_arg2))) (row (m ((c : Thread nD τ).loc main_arg3)))
          (w2m (m ((c : Thread nD τ).loc main_arg4))) (row (m ((c : Thread nD τ).loc main_arg5))) (m ((c : Thread nD τ).loc main_arg6)) (row (m ((c : Thread nD τ).loc main_arg7)))
          (m ((c : Thread nD τ).loc main_arg8)) (row (m ((c : Thread nD τ).loc main_arg9))) := by
  -- each region's output array is the layer of its three input arrays
  have e4 : (o4 (F := Ideal) m c : S1024x4096.Idx → EReal)
      = layer (V3 m c main_v15) (V3 m c main_v4) (V3 m c main_v18) := eq_layer_of_apply (h0 (E0 m) c)
  have e6 : (o6 (F := Ideal) m c : S1024x8192.Idx → EReal)
      = layer (W5 m c main_v19) (W5 m c main_v14) (W5 m c main_v20) := eq_layer_of_apply (h1 (E1 m) c)
  have e8 : (o8 (F := Ideal) m c : S1024x2048.Idx → EReal)
      = reluLayer (W7 m c main_v21) (W7 m c main_v16) (W7 m c main_v22) := by
    funext i; rw [eq_ix2 i]; exact h2 (E2 m) c _ _
  have e10 : (o10 (F := Ideal) m c : S1024x4.Idx → EReal)
      = layer (W9 m c main_v23) (W9 m c main_v17) (W9 m c main_v24) := eq_layer_of_apply (h3 (E3 m) c)
  -- the input arrays, read back to the arguments and to the region before
  rw [in0_x m c, in0_w m c, in0_b m c] at e4
  rw [in1_x m c, in1_w m c, in1_b m c, e4] at e6
  rw [in2_x m c, in2_w m c, in2_b m c, e6] at e8
  rw [in3_x m c, in3_w m c, in3_b m c, e8] at e10
  exact e10

end Cert.KernelIdeal.Hand

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.KI.R0ValueA.lean ====
/-
  Region 0: what each control case stores, as a function of the blocks it reads, and the accumulation step read at an
  entry on the extended reals.

  A first contraction block leaves in the accumulator 0 + (x block)·(w block); a later block leaves what was there plus
  its product; the last block also stores a function of accumulator and bias row into the output block. At an entry
  (a, b) of a block the product is Σ_kk x (a, kk) · w (kk, b), and the changes of float format are the identity.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R0Dat
import proofs.«113652_j49297634623952_1_alg».proof.Proof.LibPlainDot
import proofs.«113652_j49297634623952_1_alg».proof.Proof.LibDense
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The zero offsets of a whole-buffer rectangle, as the constant function. -/
theorem zeroOffs0 : (![0, 0] : Fin 2 → Nat) = fun _ => 0 := funext fun a => by fin_cases a <;> rfl

/-! ## What each case stores, as a payload of the blocks -/

/-- A first block: the reset accumulator read back, plus this block's product. -/
theorem acc0_first_eq (c : Dev nD) (t : Fin cfg0.N) (hf : isFirst0 (grid0.coords t)) (hl : ¬isLast0 (grid0.coords t)) :
    acc0_first V c t hf hl = k0_pay2 (k0_pay1 (F := F)) (iblk0 V c 0 t) (iblk0 V c 1 t) := by
  unfold acc0_first
  rw [View.read_writes_eq_canon _ _ _ (acc0_first_cover V c t hf hl)]
  unfold run0_first
  dsimp only
  sl_unfold_words
  rw [View.canon_cons_unit_zero (S := S512x1024) zeroOffs0, View.readCov_unit_zero (S := S512x1024) _ zeroOffs0]
  simp only [View.readAt_eq_ld, (hs0_0 t).read_unread, (hs0_1 t).read_unread, View.ld_unit_zero (S := S512x1024) zeroOffs0, View.ld_unit_zero (S := S1024x1024) zeroOffs0]

/-- A middle block: what the point before left, plus this block's product. -/
theorem acc0_mid_eq (c : Dev nD) (t : Fin cfg0.N) (hf : ¬isFirst0 (grid0.coords t)) (hl : ¬isLast0 (grid0.coords t)) (xs : Vec F S512x1024 .f32) :
    acc0_mid V c t hf hl xs = k0_pay2 xs (iblk0 V c 0 t) (iblk0 V c 1 t) := by
  unfold acc0_mid
  rw [View.read_writes_eq_canon _ _ _ (acc0_mid_cover V c t hf hl xs)]
  unfold run0_mid
  dsimp only
  sl_unfold_words
  rw [View.canon_unit_zero zeroOffs0]
  simp only [View.readAt_eq_ld, (hs0_0 t).read_unread, (hs0_1 t).read_unread, (Memref.isWhole_whole cc0_scratch0).read_unread, View.ld_unit_zero (S := S512x1024) zeroOffs0, View.ld_unit_zero (S := S1024x1024) zeroOffs0]

/-- A last block, the accumulator: the same. -/
theorem acc0_last_eq (c : Dev nD) (t : Fin cfg0.N) (hf : ¬isFirst0 (grid0.coords t)) (hl : isLast0 (grid0.coords t)) (xs : Vec F S512x1024 .f32) :
    acc0_last V c t hf hl xs = k0_pay2 xs (iblk0 V c 0 t) (iblk0 V c 1 t) := by
  unfold acc0_last
  rw [View.read_writes_eq_canon _ _ _ (acc0_last_cover V c t hf hl xs)]
  unfold run0_last
  dsimp only
  sl_unfold_words
  rw [View.canon_unit_zero zeroOffs0]
  simp only [View.readAt_eq_ld, (hs0_0 t).read_unread, (hs0_1 t).read_unread, (Memref.isWhole_whole cc0_scratch0).read_unread, View.ld_unit_zero (S := S512x1024) zeroOffs0, View.ld_unit_zero (S := S1024x1024) zeroOffs0]

/-- A last block, the output block: the accumulator as just stored, plus the bias row, rounded. -/
theorem out0_last_eq (c : Dev nD) (t : Fin cfg0.N) (hf : ¬isFirst0 (grid0.coords t)) (hl : isLast0 (grid0.coords t)) (xs : Vec F S512x1024 .f32) :
    out0_last V c t hf hl xs = k0_pay3 (k0_pay2 xs (iblk0 V c 0 t) (iblk0 V c 1 t)) (iblk0 V c 2 t) := by
  unfold out0_last
  rw [View.read_writes_eq_canon _ _ _ (out0_last_cover V c t hf hl xs)]
  unfold run0_last
  dsimp only
  sl_unfold_words
  rw [View.canon_unit_zero zeroOffs0]
  simp only [View.readAt_eq_ld, (hs0_0 t).read_unread, (hs0_1 t).read_unread, (hs0_2 t).read_unread, (Memref.isWhole_whole cc0_scratch0).read_unread, View.readCov_unit_zero (S := S512x1024) _ zeroOffs0, View.ld_unit_zero (S := S512x1024) zeroOffs0, View.ld_unit_zero (S := S1024x1024) zeroOffs0, View.ld_unit_zero (S := S1x1024) zeroOffs0]

end Entry

section AtIdeal
open Idealize.ShloMosaic.ValueIdx Idealize.ShloMosaic.Dense

/-! ## The payloads read at an entry, on the extended reals -/

/-- The reset value is zero at every entry. -/
theorem k0pay1_apply (a : Fin 512) (b : Fin 1024) : k0_pay1 (F := Ideal) (ix2 a b) = 0 := by
  unfold k0_pay1
  exact (congrFun (shapeCast_self _ _) (ix2 a b)).trans Ideal.ofBits_zero_f32

/-- One accumulation step at entry (a, b): what was there plus the block product's entry. -/
theorem k0pay2_apply (xs : Vec Ideal S512x1024 .f32) (x : Vec Ideal S512x1024 .bf16) (w : Vec Ideal S1024x1024 .bf16) (a : Fin 512) (b : Fin 1024) :
    k0_pay2 (F := Ideal) xs x w (ix2 a b) = xs (ix2 a b) + ∑ kk : Fin 1024, x (ix2 a kk) * w (ix2 kk b) := by
  unfold k0_pay2
  refine (congrFun (shapeCast_self _ _) (ix2 a b)).trans ?_
  refine (addf_apply _ _ (ix2 a b)).trans ?_
  refine congrArg (fun z => xs (ix2 a b) + z) ?_
  refine (congrFun (congrArg₂ (fun l r => FloatOps.matmul (F := Ideal) dot_S512x1024_S1024x1024_S512x1024_1_0_0_1_n_n none l r (constant S512x1024 .f32 0x00000000#32)) (shapeCast_self x _) (shapeCast_self w _)) (ix2 a b)).trans ?_
  exact PlainDot.matmul_zero_apply 512 1024 1024 x w a b

end AtIdeal

end Cert.KernelIdeal.Hand

end
-- ==== Proof.KI.R0Pay3.lean ====
/-
  Region 0: the value a last contraction block stores into the output block, read at an entry on the extended reals:
  the accumulator's entry plus the bias row's entry in that column (the rounding to the output's format is the
  identity).
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R0Dat
import proofs.«113652_j49297634623952_1_alg».proof.Proof.LibPlainDot
import proofs.«113652_j49297634623952_1_alg».proof.Proof.LibDense
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtIdeal
open Idealize.ShloMosaic.ValueIdx Idealize.ShloMosaic.Dense

/-- The stored output at entry (a, b): the accumulator's entry plus the bias row's entry in that column. -/
theorem k0pay3_apply (acc : Vec Ideal S512x1024 .f32) (bias : Vec Ideal S1x1024 .f32) (a : Fin 512) (b : Fin 1024) :
    k0_pay3 (F := Ideal) acc bias (ix2 a b) = acc (ix2 a b) + bias (ix2 0 b) := by
  unfold k0_pay3
  refine (truncf_apply (φ := .f32) (ψ := .bf16) _ bitsLt_bf16_f32 (ix2 a b)).trans ?_
  refine (addf_apply _ _ (ix2 a b)).trans ?_
  refine congrArg (fun z => acc (ix2 a b) + z) ?_
  refine (broadcastTo_1b_ab_apply _ _ a b).trans ?_
  exact congrFun (shapeCast_self bias _) (ix2 0 b)

end AtIdeal

end Cert.KernelIdeal.Hand

end
-- ==== Proof.LibBlocks.lean ====
/-
  Sums that are visited block by block.

  A sum over an axis of nb · bs entries can be taken one block of bs entries at a time: the blocks' partial sums add up
  to the whole sum, in any commutative monoid (no subtraction, no finiteness of the summands). And a quantity that is
  reset at the first of every nb consecutive steps to that step's addend and grows by one addend at each later step is,
  at any step, the sum of the addends since the last reset; at the last step of a run it is the sum of the run's nb
  addends. Both facts are stated over natural-number positions so that they serve any block count and any extents.
-/
import Mathlib.Algebra.BigOperators.Fin
import Mathlib.Logic.Equiv.Fin.Basic

namespace Idealize.ShloMosaic.Blocks

open scoped BigOperators

/-- Position `bs * kb + kk` (entry `kk` of block `kb`) lies on an axis of `nb * bs` entries. -/
theorem pos_lt {nb bs K : ℕ} (hK : nb * bs = K) (kb : Fin nb) (kk : Fin bs) : bs * kb.val + kk.val < K := by
  subst hK
  have h1 := kb.isLt
  have h2 := kk.isLt
  have h3 : bs * kb.val + bs ≤ bs * nb := by
    rw [← Nat.mul_succ]; exact Nat.mul_le_mul_left _ h1
  rw [Nat.mul_comm nb bs]; omega

/-- A sum over an axis of `nb * bs` entries is the sum over the `nb` blocks of each block's `bs` entries. -/
theorem sum_blocks {α : Type*} [AddCommMonoid α] (nb bs K : ℕ) (hK : nb * bs = K) (g : Fin K → α) :
    ∑ k : Fin K, g k = ∑ kb : Fin nb, ∑ kk : Fin bs, g ⟨bs * kb.val + kk.val, pos_lt hK kb kk⟩ := by
  subst hK
  rw [← Equiv.sum_comp finProdFinEquiv g, Fintype.sum_prod_type]
  refine Finset.sum_congr rfl fun kb _ => Finset.sum_congr rfl fun kk _ => congrArg g (Fin.ext ?_)
  show kk.val + bs * kb.val = bs * kb.val + kk.val
  exact Nat.add_comm _ _

/-- A quantity reset to `0 + f n` at the steps `n ≡ 0 (mod nb)` and grown by `f n` at the others is, at step `n`, the
    sum of the addends since the last reset. -/
theorem fold_since_reset {α : Type*} [AddCommMonoid α] (nb : ℕ) (hnb : 0 < nb) (N : ℕ) (A f : ℕ → α)
    (hfirst : ∀ n, n < N → n % nb = 0 → A n = 0 + f n)
    (hnext : ∀ n, n < N → ¬n % nb = 0 → A n = A (n - 1) + f n) :
    ∀ n, n < N → A n = ∑ j ∈ Finset.range (n % nb + 1), f (n - n % nb + j) := by
  intro n
  induction n with
  | zero =>
    intro hn
    rw [hfirst 0 hn (Nat.zero_mod _), Nat.zero_mod, zero_add]
    simp
  | succ n ih =>
    intro hn
    by_cases h0 : (n + 1) % nb = 0
    · rw [hfirst (n + 1) hn h0, h0, zero_add]
      simp
    · have hdm := Nat.div_add_mod n nb
      have hlt : n % nb < nb := Nat.mod_lt _ hnb
      have hmod : (n + 1) % nb = n % nb + 1 := by
        by_cases hlast : n % nb + 1 = nb
        · exfalso; apply h0
          have e : n + 1 = nb * (n / nb + 1) := by rw [Nat.mul_succ]; omega
          rw [e]; exact Nat.mul_mod_right _ _
        · have e : n + 1 = nb * (n / nb) + (n % nb + 1) := by omega
          rw [e, Nat.mul_add_mod, Nat.mod_eq_of_lt (by omega)]
      have e1 : n + 1 - (n % nb + 1) = n - n % nb := Nat.add_sub_add_right _ _ _
      have e2 : n - n % nb + (n % nb + 1) = n + 1 := by have := Nat.mod_le n nb; omega
      rw [hnext (n + 1) hn h0, Nat.add_sub_cancel, ih (by omega), hmod, e1,
        Finset.sum_range_succ (fun j => f (n - n % nb + j)) (n % nb + 1), e2]

/-- At the last step of a run of `nb` steps it is the sum of the run's `nb` addends. -/
theorem fold_at_last {α : Type*} [AddCommMonoid α] (nb : ℕ) (hnb : 0 < nb) (N : ℕ) (A f : ℕ → α)
    (hfirst : ∀ n, n < N → n % nb = 0 → A n = 0 + f n)
    (hnext : ∀ n, n < N → ¬n % nb = 0 → A n = A (n - 1) + f n)
    (n : ℕ) (hn : n < N) (hl : n % nb + 1 = nb) :
    A n = ∑ j : Fin nb, f (nb * (n / nb) + j.val) := by
  have e : n - n % nb = nb * (n / nb) := by have := Nat.div_add_mod n nb; omega
  rw [fold_since_reset nb hnb N A f hfirst hnext n hn, hl, e, Finset.sum_range]

end Idealize.ShloMosaic.Blocks
-- ==== Proof.KI.R0ValueB.lean ====
/-
  Region 0: the value the first tiled matrix product leaves in its output array, read at an entry.

  Along a run of contraction blocks the accumulator's entry (a, b) is reset to 0 + the first block's product and grows
  by one block's product per point, so after the run's last block it is the sum of the run's products; each block's
  entry is the array's entry at block index × block size + the coordinate inside the block, so that sum regroups to the
  whole contraction Σ_k x (p, k) · w (k, q) (addition of extended reals is commutative and associative: no finiteness
  is needed). The last block stores accumulator + bias row, so every writing-back point writes the dense layer
  x·w + b read through its block; the writing-back blocks tile the output array, which therefore ends holding the
  layer at every entry.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R0Dat
import proofs.«113652_j49297634623952_1_alg».proof.Proof.KI.R0ValueA
import proofs.«113652_j49297634623952_1_alg».proof.Proof.KI.R0Pay3
import proofs.«113652_j49297634623952_1_alg».proof.Proof.LibBlocks
import proofs.«113652_j49297634623952_1_alg».proof.Proof.LibPlainDot
import proofs.«113652_j49297634623952_1_alg».proof.Proof.LibDense
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.Dense

/-! ## The region's numbers and buffers

Everything below is stated through these names: the blocks are 512 × 1024 (x), 1024 × 1024 (w), 1 × 1024 (bias) and
512 × 1024 (output) whatever the arrays' extents; a point `t` has row block `t / (jb0 * nb0)`, column block
`t / nb0 % jb0` and contraction block `t % nb0`. -/

/-- Rows of x and of the output. -/
abbrev rows0 : Nat := 1024
/-- The contraction extent: columns of x, rows of w. -/
abbrev kdim0 : Nat := 4096
/-- Columns of w, of the bias row and of the output. -/
abbrev cols0 : Nat := 4096
/-- Contraction blocks in a run. -/
abbrev nb0 : Nat := 4
/-- Column blocks. -/
abbrev jb0 : Nat := 4
/-- Grid points: two row blocks, `jb0` column blocks, `nb0` contraction blocks. -/
abbrev npts0 : Nat := 32
/-- The last contraction block of a run. -/
abbrev last0 : Nat := 3
/-- The arrays: x, w, the bias row, the output. -/
abbrev xRef0 : Ref sig .tc := main_v15
abbrev wRef0 : Ref sig .tc := main_v4
abbrev bRef0 : Ref sig .tc := main_v18
abbrev oRef0 : Ref sig .tc := main_v19

/-- Unfold the region's numbers wherever they stand, so that linear arithmetic sees numerals. -/
local macro "nums0" : tactic => `(tactic| (try simp only [rows0, kdim0, cols0, nb0, jb0, npts0, last0] at *))

section Entry
variable (V : (c : Dev nD) → (b : Ref sig .tc) → Buf (Elt Ideal) ((c : Thread nD τ).loc b))

/-! ## The blocks and the arrays, at their literal types -/

abbrev xblk0 (c : Dev nD) (t : Fin cfg0.N) : Vec Ideal S512x1024 .bf16 := iblk0 V c 0 t
abbrev wblk0 (c : Dev nD) (t : Fin cfg0.N) : Vec Ideal S1024x1024 .bf16 := iblk0 V c 1 t
abbrev bblk0 (c : Dev nD) (t : Fin cfg0.N) : Vec Ideal S1x1024 .f32 := iblk0 V c 2 t
abbrev xarr0 (c : Dev nD) : Vec Ideal ⟨2, ![rows0, kdim0]⟩ .bf16 := V c xRef0
abbrev warr0 (c : Dev nD) : Vec Ideal ⟨2, ![kdim0, cols0]⟩ .bf16 := V c wRef0
abbrev barr0 (c : Dev nD) : Vec Ideal ⟨2, ![1, cols0]⟩ .f32 := V c bRef0

theorem npts0_eq : cfg0.N = npts0 := N_0

/-! ## The block index of each window at a point, in closed form -/

theorem idx0_0 : ∀ t : Fin cfg0.N, win0_0.index t 0 = t.val / (jb0 * nb0) ∧ win0_0.index t 1 = t.val % nb0 :=
  (by decide +kernel : ∀ t : Fin grid0.N, win0_0.index t 0 = t.val / (jb0 * nb0) ∧ win0_0.index t 1 = t.val % nb0)
theorem idx0_1 : ∀ t : Fin cfg0.N, win0_1.index t 0 = t.val % nb0 ∧ win0_1.index t 1 = t.val / nb0 % jb0 :=
  (by decide +kernel : ∀ t : Fin grid0.N, win0_1.index t 0 = t.val % nb0 ∧ win0_1.index t 1 = t.val / nb0 % jb0)
theorem idx0_2 : ∀ t : Fin cfg0.N, win0_2.index t 0 = 0 ∧ win0_2.index t 1 = t.val / nb0 % jb0 :=
  (by decide +kernel : ∀ t : Fin grid0.N, win0_2.index t 0 = 0 ∧ win0_2.index t 1 = t.val / nb0 % jb0)
theorem idx0_3 : ∀ t : Fin cfg0.N, win0_3.index t 0 = t.val / (jb0 * nb0) ∧ win0_3.index t 1 = t.val / nb0 % jb0 :=
  (by decide +kernel : ∀ t : Fin grid0.N, win0_3.index t 0 = t.val / (jb0 * nb0) ∧ win0_3.index t 1 = t.val / nb0 % jb0)

/-! ## A block's entry is the array's entry at block index × block size + the coordinate inside the block -/

theorem xblk0_apply (c : Dev nD) (t : Fin cfg0.N) (a : Fin 512) (kk : Fin 1024) (p : Fin rows0) (k : Fin kdim0)
    (hp : p.val = 512 * (t.val / (jb0 * nb0)) + a.val) (hk : k.val = 1024 * (t.val % nb0) + kk.val) :
    xblk0 V c t (ix2 a kk) = xarr0 V c (ix2 p k) := by
  unfold xblk0 iblk0
  rw [View.read_apply]
  show xarr0 V c _ = xarr0 V c _
  congr 1
  funext d
  apply Fin.ext
  match d with
  | ⟨0, _⟩ => show win0_0.index t 0 * 512 + 1 * a.val = p.val; rw [(idx0_0 t).1, hp]; nums0; omega
  | ⟨1, _⟩ => show win0_0.index t 1 * 1024 + 1 * kk.val = k.val; rw [(idx0_0 t).2, hk]; nums0; omega

theorem wblk0_apply (c : Dev nD) (t : Fin cfg0.N) (kk : Fin 1024) (b : Fin 1024) (k : Fin kdim0) (q : Fin cols0)
    (hk : k.val = 1024 * (t.val % nb0) + kk.val) (hq : q.val = 1024 * (t.val / nb0 % jb0) + b.val) :
    wblk0 V c t (ix2 kk b) = warr0 V c (ix2 k q) := by
  unfold wblk0 iblk0
  rw [View.read_apply]
  show warr0 V c _ = warr0 V c _
  congr 1
  funext d
  apply Fin.ext
  match d with
  | ⟨0, _⟩ => show win0_1.index t 0 * 1024 + 1 * kk.val = k.val; rw [(idx0_1 t).1, hk]; nums0; omega
  | ⟨1, _⟩ => show win0_1.index t 1 * 1024 + 1 * b.val = q.val; rw [(idx0_1 t).2, hq]; nums0; omega

theorem bblk0_apply (c : Dev nD) (t : Fin cfg0.N) (b : Fin 1024) (q : Fin cols0)
    (hq : q.val = 1024 * (t.val / nb0 % jb0) + b.val) :
    bblk0 V c t (ix2 0 b) = barr0 V c (ix2 0 q) := by
  unfold bblk0 iblk0
  rw [View.read_apply]
  show barr0 V c _ = barr0 V c _
  congr 1
  funext d
  apply Fin.ext
  match d with
  | ⟨0, _⟩ => show win0_2.index t 0 * 1 + 1 * 0 = 0; rw [(idx0_2 t).1]
  | ⟨1, _⟩ => show win0_2.index t 1 * 1024 + 1 * b.val = q.val; rw [(idx0_2 t).2, hq]; nums0; omega

/-! ## The accumulator along a run of contraction blocks -/

/-- The product of point `n`'s two blocks at entry (a, b) (zero past the grid). -/
def prodN0 (c : Dev nD) (a : Fin 512) (b : Fin 1024) (n : ℕ) : EReal :=
  if h : n < cfg0.N then ∑ kk : Fin 1024, xblk0 V c ⟨n, h⟩ (ix2 a kk) * wblk0 V c ⟨n, h⟩ (ix2 kk b) else 0

/-- The accumulator's entry (a, b) after point `n` (zero past the grid). -/
def accN0 (c : Dev nD) (a : Fin 512) (b : Fin 1024) (n : ℕ) : EReal :=
  if h : n < cfg0.N then (outsAt0 V c n h).2 (ix2 a b) else 0

/-- At a first block the accumulator is 0 + the point's product. -/
theorem accN0_first (c : Dev nD) (a : Fin 512) (b : Fin 1024) (n : ℕ) (hn : n < cfg0.N) (h0 : n % nb0 = 0) :
    accN0 V c a b n = 0 + prodN0 V c a b n := by
  unfold accN0 prodN0
  rw [dif_pos hn, dif_pos hn, outsAt0_first V c ⟨n, hn⟩ h0]
  dsimp only
  refine (congrFun (acc0_first_eq V c ⟨n, hn⟩ _ _) (ix2 a b)).trans ?_
  refine (k0pay2_apply (k0_pay1 (F := Ideal)) (xblk0 V c ⟨n, hn⟩) (wblk0 V c ⟨n, hn⟩) a b).trans ?_
  rw [k0pay1_apply]

/-- At a later block it is what the point before left plus the point's product. -/
theorem accN0_next (c : Dev nD) (a : Fin 512) (b : Fin 1024) (n : ℕ) (hn : n < cfg0.N) (h0 : ¬n % nb0 = 0) :
    accN0 V c a b n = accN0 V c a b (n - 1) + prodN0 V c a b n := by
  have hn' : n - 1 < cfg0.N := Nat.lt_of_le_of_lt (Nat.sub_le _ _) hn
  unfold accN0 prodN0
  rw [dif_pos hn, dif_pos hn, dif_pos hn']
  by_cases h1 : n % nb0 = last0
  · rw [outsAt0_last V c ⟨n, hn⟩ h0 h1]
    dsimp only
    refine (congrFun (acc0_last_eq V c ⟨n, hn⟩ _ _ (outsAt0 V c (n - 1) hn').2) (ix2 a b)).trans ?_
    exact k0pay2_apply (outsAt0 V c (n - 1) hn').2 (xblk0 V c ⟨n, hn⟩) (wblk0 V c ⟨n, hn⟩) a b
  · rw [outsAt0_mid V c ⟨n, hn⟩ h0 h1]
    dsimp only
    refine (congrFun (acc0_mid_eq V c ⟨n, hn⟩ _ _ (outsAt0 V c (n - 1) hn').2) (ix2 a b)).trans ?_
    exact k0pay2_apply (outsAt0 V c (n - 1) hn').2 (xblk0 V c ⟨n, hn⟩) (wblk0 V c ⟨n, hn⟩) a b

/-- After the last block of a run the accumulator is the sum of the run's products. -/
theorem accN0_last (c : Dev nD) (a : Fin 512) (b : Fin 1024) (n : ℕ) (hn : n < cfg0.N) (h3 : n % nb0 = last0) :
    accN0 V c a b n = ∑ j : Fin nb0, prodN0 V c a b (nb0 * (n / nb0) + j.val) :=
  Blocks.fold_at_last nb0 (by decide) cfg0.N (accN0 V c a b) (prodN0 V c a b)
    (fun m hm h => accN0_first V c a b m hm h) (fun m hm h => accN0_next V c a b m hm h) n hn (by nums0; omega)

/-! ## The stored output block, at an entry, is the dense layer's entry -/

/-- The sum of a run's products at (a, b) is the whole contraction Σ_k x (p, k) · w (k, q) at the array
    coordinates of the entry. -/
theorem runSum0 (c : Dev nD) (t : Fin cfg0.N) (h3 : t.val % nb0 = last0) (a : Fin 512) (b : Fin 1024) (p : Fin rows0) (q : Fin cols0)
    (hp : p.val = 512 * (t.val / (jb0 * nb0)) + a.val) (hq : q.val = 1024 * (t.val / nb0 % jb0) + b.val) :
    ∑ j : Fin nb0, prodN0 V c a b (nb0 * (t.val / nb0) + j.val) = ∑ k : Fin kdim0, xarr0 V c (ix2 p k) * warr0 V c (ix2 k q) := by
  have hN : t.val < npts0 := lt_of_lt_of_eq t.isLt npts0_eq
  rw [Blocks.sum_blocks nb0 1024 kdim0 rfl (fun k => xarr0 V c (ix2 p k) * warr0 V c (ix2 k q))]
  refine Finset.sum_congr rfl fun j _ => ?_
  have hj := j.isLt
  have hlt : nb0 * (t.val / nb0) + j.val < cfg0.N :=
    lt_of_lt_of_eq (show nb0 * (t.val / nb0) + j.val < npts0 by nums0; omega) npts0_eq.symm
  unfold prodN0
  rw [dif_pos hlt]
  refine Finset.sum_congr rfl fun kk _ => ?_
  have hkk := kk.isLt
  rw [xblk0_apply V c ⟨nb0 * (t.val / nb0) + j.val, hlt⟩ a kk p ⟨1024 * j.val + kk.val, Blocks.pos_lt (by rfl : nb0 * 1024 = kdim0) j kk⟩
      (by show p.val = 512 * ((nb0 * (t.val / nb0) + j.val) / (jb0 * nb0)) + a.val; rw [hp]; nums0; omega)
      (by show 1024 * j.val + kk.val = 1024 * ((nb0 * (t.val / nb0) + j.val) % nb0) + kk.val; nums0; omega),
    wblk0_apply V c ⟨nb0 * (t.val / nb0) + j.val, hlt⟩ kk b ⟨1024 * j.val + kk.val, Blocks.pos_lt (by rfl : nb0 * 1024 = kdim0) j kk⟩ q
      (by show 1024 * j.val + kk.val = 1024 * ((nb0 * (t.val / nb0) + j.val) % nb0) + kk.val; nums0; omega)
      (by show q.val = 1024 * ((nb0 * (t.val / nb0) + j.val) / nb0 % jb0) + b.val; rw [hq]; nums0; omega)]

/-- What a last block stores into the output block, at entry (a, b): the dense layer's entry at the array
    coordinates. -/
theorem outEntry0 (c : Dev nD) (t : Fin cfg0.N) (h3 : t.val % nb0 = last0) (a : Fin 512) (b : Fin 1024) (p : Fin rows0) (q : Fin cols0)
    (hp : p.val = 512 * (t.val / (jb0 * nb0)) + a.val) (hq : q.val = 1024 * (t.val / nb0 % jb0) + b.val) :
    (outsAt0 V c t.val t.isLt).1 (ix2 a b) = Dense.entry (xarr0 V c) (warr0 V c) (barr0 V c) p q := by
  have h0 : ¬t.val % nb0 = 0 := by nums0; omega
  have hn' : t.val - 1 < cfg0.N := Nat.lt_of_le_of_lt (Nat.sub_le _ _) t.isLt
  have hacc := accN0_last V c a b t.val t.isLt h3
  unfold accN0 at hacc
  rw [dif_pos t.isLt, outsAt0_last V c t h0 h3] at hacc
  dsimp only at hacc
  rw [outsAt0_last V c t h0 h3]
  dsimp only
  refine (congrFun (out0_last_eq V c t _ _ (outsAt0 V c (t.val - 1) hn').2) (ix2 a b)).trans ?_
  refine (k0pay3_apply (k0_pay2 (outsAt0 V c (t.val - 1) hn').2 (xblk0 V c t) (wblk0 V c t)) (bblk0 V c t) a b).trans ?_
  unfold Dense.entry
  rw [← runSum0 V c t h3 a b p q hp hq, ← hacc, bblk0_apply V c t b q hq]
  refine congrArg (fun z => z + barr0 V c (ix2 0 q)) ?_
  exact (congrFun (acc0_last_eq V c t _ _ (outsAt0 V c (t.val - 1) hn').2) (ix2 a b)).symm

/-! ## The output array after the region -/

/-- The dense layer of the three arrays, as one whole-array function. -/
abbrev G0 (c : Dev nD) : Vec Ideal ⟨2, ![rows0, cols0]⟩ .bf16 := Dense.layer (xarr0 V c) (warr0 V c) (barr0 V c)

/-- What a writing-back point writes is the layer read through the point's block. -/
theorem flushed0_eq (c : Dev nD) (t : Fin cfg0.N) (hf : (cfg0.win 3).flush t = true) :
    (dat0 V c).flushed 3 t = ((cfg0.win 3).blk t).view.read (Elt Ideal) (G0 V c) := by
  have h3 : t.val % nb0 = last0 := (flush0_3 t).mp hf
  have hN : t.val < npts0 := lt_of_lt_of_eq t.isLt npts0_eq
  show (cfg0.win 3).cut (grid0.coords t) ((dat0 V c).after 3 t) = _
  rw [after0_3]
  funext j
  obtain ⟨a, b, rfl⟩ : ∃ (a : Fin 512) (b : Fin 1024), j = ix2 a b := ⟨j 0, j 1, eq_ix2 j⟩
  have ha := a.isLt
  have hb := b.isLt
  have hp : 512 * (t.val / (jb0 * nb0)) + a.val < rows0 := by nums0; omega
  have hq : 1024 * (t.val / nb0 % jb0) + b.val < cols0 := by nums0; omega
  rw [View.read_apply]
  refine (outEntry0 V c t h3 a b ⟨_, hp⟩ ⟨_, hq⟩ rfl rfl).trans ?_
  show G0 V c (ix2 _ _) = G0 V c _
  congr 1
  funext d
  apply Fin.ext
  match d with
  | ⟨0, _⟩ => show 512 * (t.val / (jb0 * nb0)) + a.val = win0_3.index t 0 * 512 + 1 * a.val; rw [(idx0_3 t).1]; nums0; omega
  | ⟨1, _⟩ => show 1024 * (t.val / nb0 % jb0) + b.val = win0_3.index t 1 * 1024 + 1 * b.val; rw [(idx0_3 t).2]; nums0; omega

/-- Every entry of the output array lies in the block of a writing-back point: (p, q) in that of
    t = (jb0 · nb0) · (p / 512) + nb0 · (q / 1024) + last0. -/
theorem cover0 (c : Dev nD) (i : ((cfg0.win 3).arr.view.loc ((c : Thread nD τ))).2.ty.Idx) :
    ∃ t : Fin cfg0.N, (cfg0.win 3).flush t = true ∧ i ∈ ((cfg0.win 3).blk t).view.set := by
  have h0 : (i 0 : Nat) < rows0 := (i 0).isLt
  have h1 : (i 1 : Nat) < cols0 := (i 1).isLt
  have hlt : jb0 * nb0 * ((i 0 : Nat) / 512) + nb0 * ((i 1 : Nat) / 1024) + last0 < cfg0.N :=
    lt_of_lt_of_eq (show jb0 * nb0 * ((i 0 : Nat) / 512) + nb0 * ((i 1 : Nat) / 1024) + last0 < npts0 by nums0; omega) npts0_eq.symm
  refine ⟨⟨jb0 * nb0 * ((i 0 : Nat) / 512) + nb0 * ((i 1 : Nat) / 1024) + last0, hlt⟩, (flush0_3 _).mpr (by show (jb0 * nb0 * ((i 0 : Nat) / 512) + nb0 * ((i 1 : Nat) / 1024) + last0) % nb0 = last0; nums0; omega), ?_⟩
  show i ∈ ((View.whole oRef0).slice (win0_3.rect ⟨jb0 * nb0 * ((i 0 : Nat) / 512) + nb0 * ((i 1 : Nat) / 1024) + last0, hlt⟩)).set
  rw [View.set_slice_whole, Rect.mem_set_unit]
  intro d
  match d with
  | ⟨0, _⟩ =>
    show win0_3.index ⟨jb0 * nb0 * ((i 0 : Nat) / 512) + nb0 * ((i 1 : Nat) / 1024) + last0, hlt⟩ 0 * 512 ≤ (i 0 : Nat) ∧ (i 0 : Nat) < win0_3.index ⟨jb0 * nb0 * ((i 0 : Nat) / 512) + nb0 * ((i 1 : Nat) / 1024) + last0, hlt⟩ 0 * 512 + 512
    rw [(idx0_3 _).1]
    show (jb0 * nb0 * ((i 0 : Nat) / 512) + nb0 * ((i 1 : Nat) / 1024) + last0) / (jb0 * nb0) * 512 ≤ (i 0 : Nat) ∧ (i 0 : Nat) < (jb0 * nb0 * ((i 0 : Nat) / 512) + nb0 * ((i 1 : Nat) / 1024) + last0) / (jb0 * nb0) * 512 + 512
    nums0; omega
  | ⟨1, _⟩ =>
    show win0_3.index ⟨jb0 * nb0 * ((i 0 : Nat) / 512) + nb0 * ((i 1 : Nat) / 1024) + last0, hlt⟩ 1 * 1024 ≤ (i 1 : Nat) ∧ (i 1 : Nat) < win0_3.index ⟨jb0 * nb0 * ((i 0 : Nat) / 512) + nb0 * ((i 1 : Nat) / 1024) + last0, hlt⟩ 1 * 1024 + 1024
    rw [(idx0_3 _).2]
    show (jb0 * nb0 * ((i 0 : Nat) / 512) + nb0 * ((i 1 : Nat) / 1024) + last0) / nb0 % jb0 * 1024 ≤ (i 1 : Nat) ∧ (i 1 : Nat) < (jb0 * nb0 * ((i 0 : Nat) / 512) + nb0 * ((i 1 : Nat) / 1024) + last0) / nb0 % jb0 * 1024 + 1024
    nums0; omega

/-- The output array after the region, at entry (p, q): Σ_k x (p, k) · w (k, q) + b (0, q). -/
theorem arr0_apply (c : Dev nD) (p : Fin rows0) (q : Fin cols0) :
    (dat0 (F := Ideal) V c).arrAt 3 cfg0.N (ix2 p q) = Dense.entry (V c xRef0) (V c wRef0) (V c bRef0) p q :=
  congrFun ((dat0 V c).arrAt_eq_of_cover 3 (G0 V c) (flushed0_eq V c) (cover0 c)) (ix2 p q)

end Entry

end Cert.KernelIdeal.Hand

end
-- ==== Proof.KI.R1ValueA.lean ====
/-
  Region 1: what each control case of the second tiled product stores, as a function of the blocks it reads, and those
  functions read at an entry on the extended reals.

  At a first contraction block the accumulator is left at 0 + (x block)·(w block); at a later block at what was there
  plus that block's product; a last block moreover stores accumulator + bias row, rounded to the output's format, into
  the output block. At entry (a, b) of a block the product is Σ_kk x (a, kk) · w (kk, b); the reset value is 0; the bias
  row contributes its entry in column b; and a change of float format is the identity on the extended reals.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R1Dat
import proofs.«113652_j49297634623952_1_alg».proof.Proof.LibPlainDot
import proofs.«113652_j49297634623952_1_alg».proof.Proof.LibDense
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-- The offsets of a rectangle that starts at the origin of a rank-2 buffer, as the constant function. -/
theorem zeroOffs1 : (![0, 0] : Fin 2 → Nat) = fun _ => 0 := funext fun a => by fin_cases a <;> rfl

/-! ## What each case stores, as a payload of the blocks -/

/-- A first block: the reset value, plus this block's product. -/
theorem acc1_first_eq (c : Dev nD) (t : Fin cfg1.N) (hf : isFirst1 (grid1.coords t)) (hl : ¬isLast1 (grid1.coords t)) :
    acc1_first V c t hf hl = k1_pay2 (k1_pay1 (F := F)) (iblk1 V c 0 t) (iblk1 V c 1 t) := by
  unfold acc1_first
  rw [View.read_writes_eq_canon _ _ _ (acc1_first_cover V c t hf hl)]
  unfold run1_first
  dsimp only
  sl_unfold_words
  rw [View.canon_cons_unit_zero (S := S512x1024) zeroOffs1, View.readCov_unit_zero (S := S512x1024) _ zeroOffs1]
  simp only [View.readAt_eq_ld, (hs1_0 t).read_unread, (hs1_1 t).read_unread, View.ld_unit_zero (S := S512x1024) zeroOffs1, View.ld_unit_zero (S := S1024x1024) zeroOffs1]

/-- A middle block: what the point before left, plus this block's product. -/
theorem acc1_mid_eq (c : Dev nD) (t : Fin cfg1.N) (hf : ¬isFirst1 (grid1.coords t)) (hl : ¬isLast1 (grid1.coords t)) (xs : Vec F S512x1024 .f32) :
    acc1_mid V c t hf hl xs = k1_pay2 xs (iblk1 V c 0 t) (iblk1 V c 1 t) := by
  unfold acc1_mid
  rw [View.read_writes_eq_canon _ _ _ (acc1_mid_cover V c t hf hl xs)]
  unfold run1_mid
  dsimp only
  sl_unfold_words
  rw [View.canon_unit_zero zeroOffs1]
  simp only [View.readAt_eq_ld, (hs1_0 t).read_unread, (hs1_1 t).read_unread, (Memref.isWhole_whole cc1_scratch0).read_unread, View.ld_unit_zero (S := S512x1024) zeroOffs1, View.ld_unit_zero (S := S1024x1024) zeroOffs1]

/-- A last block, the accumulator: the same step. -/
theorem acc1_last_eq (c : Dev nD) (t : Fin cfg1.N) (hf : ¬isFirst1 (grid1.coords t)) (hl : isLast1 (grid1.coords t)) (xs : Vec F S512x1024 .f32) :
    acc1_last V c t hf hl xs = k1_pay2 xs (iblk1 V c 0 t) (iblk1 V c 1 t) := by
  unfold acc1_last
  rw [View.read_writes_eq_canon _ _ _ (acc1_last_cover V c t hf hl xs)]
  unfold run1_last
  dsimp only
  sl_unfold_words
  rw [View.canon_unit_zero zeroOffs1]
  simp only [View.readAt_eq_ld, (hs1_0 t).read_unread, (hs1_1 t).read_unread, (Memref.isWhole_whole cc1_scratch0).read_unread, View.ld_unit_zero (S := S512x1024) zeroOffs1, View.ld_unit_zero (S := S1024x1024) zeroOffs1]

/-- A last block, the output block: the accumulator as just stored, plus the bias row, rounded. -/
theorem out1_last_eq (c : Dev nD) (t : Fin cfg1.N) (hf : ¬isFirst1 (grid1.coords t)) (hl : isLast1 (grid1.coords t)) (xs : Vec F S512x1024 .f32) :
    out1_last V c t hf hl xs = k1_pay3 (k1_pay2 xs (iblk1 V c 0 t) (iblk1 V c 1 t)) (iblk1 V c 2 t) := by
  unfold out1_last
  rw [View.read_writes_eq_canon _ _ _ (out1_last_cover V c t hf hl xs)]
  unfold run1_last
  dsimp only
  sl_unfold_words
  rw [View.canon_unit_zero zeroOffs1]
  simp only [View.readAt_eq_ld, (hs1_0 t).read_unread, (hs1_1 t).read_unread, (hs1_2 t).read_unread, (Memref.isWhole_whole cc1_scratch0).read_unread, View.readCov_unit_zero (S := S512x1024) _ zeroOffs1, View.ld_unit_zero (S := S512x1024) zeroOffs1, View.ld_unit_zero (S := S1024x1024) zeroOffs1, View.ld_unit_zero (S := S1x1024) zeroOffs1]

end Entry

section AtIdeal
open Idealize.ShloMosaic.ValueIdx Idealize.ShloMosaic.Dense

/-! ## The payloads read at an entry, on the extended reals -/

/-- The reset value is zero at every entry. -/
theorem k1pay1_apply (a : Fin 512) (b : Fin 1024) : k1_pay1 (F := Ideal) (ix2 a b) = 0 := by
  unfold k1_pay1
  exact (congrFun (shapeCast_self _ _) (ix2 a b)).trans Ideal.ofBits_zero_f32

/-- One accumulation step at entry (a, b): what was there plus the entry of the block product. -/
theorem k1pay2_apply (xs : Vec Ideal S512x1024 .f32) (x : Vec Ideal S512x1024 .bf16) (w : Vec Ideal S1024x1024 .bf16) (a : Fin 512) (b : Fin 1024) :
    k1_pay2 (F := Ideal) xs x w (ix2 a b) = xs (ix2 a b) + ∑ kk : Fin 1024, x (ix2 a kk) * w (ix2 kk b) := by
  unfold k1_pay2
  refine (congrFun (shapeCast_self _ _) (ix2 a b)).trans ?_
  refine (addf_apply _ _ (ix2 a b)).trans ?_
  refine congrArg (fun z => xs (ix2 a b) + z) ?_
  refine (congrFun (congrArg₂ (fun l r => FloatOps.matmul (F := Ideal) dot_S512x1024_S1024x1024_S512x1024_1_0_0_1_n_n none l r (constant S512x1024 .f32 0x00000000#32)) (shapeCast_self x _) (shapeCast_self w _)) (ix2 a b)).trans ?_
  exact PlainDot.matmul_zero_apply 512 1024 1024 x w a b

/-- The stored output at entry (a, b): the accumulator's entry plus the bias row's entry in that column. -/
theorem k1pay3_apply (acc : Vec Ideal S512x1024 .f32) (bias : Vec Ideal S1x1024 .f32) (a : Fin 512) (b : Fin 1024) :
    k1_pay3 (F := Ideal) acc bias (ix2 a b) = acc (ix2 a b) + bias (ix2 0 b) := by
  unfold k1_pay3
  refine (truncf_apply (φ := .f32) (ψ := .bf16) _ bitsLt_bf16_f32 (ix2 a b)).trans ?_
  refine (addf_apply _ _ (ix2 a b)).trans ?_
  refine congrArg (fun z => acc (ix2 a b) + z) ?_
  refine (broadcastTo_1b_ab_apply _ _ a b).trans ?_
  exact congrFun (shapeCast_self bias _) (ix2 0 b)

end AtIdeal

end Cert.KernelIdeal.Hand

end
-- ==== Proof.KI.R1Value.lean ====
/-
  Region 1: the value the second tiled product leaves in its output array, read at an entry on the extended reals.

  The grid is 2 × 8 × 4: point t works on row block t / 32, column block t / 4 % 8 and contraction block t % 4. Along a
  run of four consecutive points the accumulator is reset to 0 + the first block's product and grows by one block's
  product at each later point, so after the run's last point its entry (a, b) is the sum of the four products' entries;
  each product's entry is Σ_kk x (a, kk) · w (kk, b) over that block, and the four blocks of 1024 make up the whole
  shared axis of 4096, so the sum is Σ_k x (p, k) · w (k, q) at the array coordinates p = 512 · (t / 32) + a,
  q = 1024 · (t / 4 % 8) + b. The last point stores that plus the bias row's entry in column q, the change of format
  being the identity, into the output block, which is written back to the array; every entry (p, q) of the array lies in
  the block of the writing-back point 32 · (p / 512) + 4 · (q / 1024) + 3. Hence the array after the region is the dense
  layer x · w + b at every entry.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«113652_j49297634623952_1_alg».proof.Proof.KI.R1Dat
import proofs.«113652_j49297634623952_1_alg».proof.Proof.KI.R1ValueA
import proofs.«113652_j49297634623952_1_alg».proof.Proof.LibBlocks
import proofs.«113652_j49297634623952_1_alg».proof.Proof.LibPlainDot
import proofs.«113652_j49297634623952_1_alg».proof.Proof.LibDense
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.Dense

section Entry
variable (V : (c : Dev nD) → (b : Ref sig .tc) → Buf (Elt Ideal) ((c : Thread nD τ).loc b))

/-! ## The blocks and the arrays, at their literal types -/

/-- The x block, the w block and the bias block of point `t`, read off the arrays as the region finds them. -/
abbrev xblk1 (c : Dev nD) (t : Fin cfg1.N) : Vec Ideal S512x1024 .bf16 := iblk1 V c 0 t
abbrev wblk1 (c : Dev nD) (t : Fin cfg1.N) : Vec Ideal S1024x1024 .bf16 := iblk1 V c 1 t
abbrev bblk1 (c : Dev nD) (t : Fin cfg1.N) : Vec Ideal S1x1024 .f32 := iblk1 V c 2 t
/-- The three arrays the region reads. -/
abbrev xarr1 (c : Dev nD) : Vec Ideal S1024x4096 .bf16 := V c main_v19
abbrev warr1 (c : Dev nD) : Vec Ideal S4096x8192 .bf16 := V c main_v14
abbrev barr1 (c : Dev nD) : Vec Ideal S1x8192 .f32 := V c main_v20

/-! ## The block index of each window at a point, in closed form

  Point `t` of the 2 × 8 × 4 grid has row block `t / 32`, column block `t / 4 % 8` and contraction block `t % 4`. -/

theorem idx1_0 : ∀ t : Fin cfg1.N, win1_0.index t 0 = t.val / 32 ∧ win1_0.index t 1 = t.val % 4 :=
  (by decide +kernel : ∀ t : Fin grid1.N, win1_0.index t 0 = t.val / 32 ∧ win1_0.index t 1 = t.val % 4)
theorem idx1_1 : ∀ t : Fin cfg1.N, win1_1.index t 0 = t.val % 4 ∧ win1_1.index t 1 = t.val / 4 % 8 :=
  (by decide +kernel : ∀ t : Fin grid1.N, win1_1.index t 0 = t.val % 4 ∧ win1_1.index t 1 = t.val / 4 % 8)
theorem idx1_2 : ∀ t : Fin cfg1.N, win1_2.index t 0 = 0 ∧ win1_2.index t 1 = t.val / 4 % 8 :=
  (by decide +kernel : ∀ t : Fin grid1.N, win1_2.index t 0 = 0 ∧ win1_2.index t 1 = t.val / 4 % 8)
theorem idx1_3 : ∀ t : Fin cfg1.N, win1_3.index t 0 = t.val / 32 ∧ win1_3.index t 1 = t.val / 4 % 8 :=
  (by decide +kernel : ∀ t : Fin grid1.N, win1_3.index t 0 = t.val / 32 ∧ win1_3.index t 1 = t.val / 4 % 8)

/-! ## A block's entry is the array's entry at block index × block extent + the coordinate inside the block -/

theorem xblk1_apply (c : Dev nD) (t : Fin cfg1.N) (a : Fin 512) (kk : Fin 1024) (p : Fin 1024) (k : Fin 4096)
    (hp : p.val = 512 * (t.val / 32) + a.val) (hk : k.val = 1024 * (t.val % 4) + kk.val) :
    xblk1 V c t (ix2 a kk) = xarr1 V c (ix2 p k) := by
  unfold xblk1 iblk1
  rw [View.read_apply]
  show xarr1 V c _ = xarr1 V c _
  congr 1
  funext d
  apply Fin.ext
  match d with
  | ⟨0, _⟩ => show win1_0.index t 0 * 512 + 1 * a.val = p.val; rw [(idx1_0 t).1, hp]; omega
  | ⟨1, _⟩ => show win1_0.index t 1 * 1024 + 1 * kk.val = k.val; rw [(idx1_0 t).2, hk]; omega

theorem wblk1_apply (c : Dev nD) (t : Fin cfg1.N) (kk : Fin 1024) (b : Fin 1024) (k : Fin 4096) (q : Fin 8192)
    (hk : k.val = 1024 * (t.val % 4) + kk.val) (hq : q.val = 1024 * (t.val / 4 % 8) + b.val) :
    wblk1 V c t (ix2 kk b) = warr1 V c (ix2 k q) := by
  unfold wblk1 iblk1
  rw [View.read_apply]
  show warr1 V c _ = warr1 V c _
  congr 1
  funext d
  apply Fin.ext
  match d with
  | ⟨0, _⟩ => show win1_1.index t 0 * 1024 + 1 * kk.val = k.val; rw [(idx1_1 t).1, hk]; omega
  | ⟨1, _⟩ => show win1_1.index t 1 * 1024 + 1 * b.val = q.val; rw [(idx1_1 t).2, hq]; omega

theorem bblk1_apply (c : Dev nD) (t : Fin cfg1.N) (b : Fin 1024) (q : Fin 8192)
    (hq : q.val = 1024 * (t.val / 4 % 8) + b.val) :
    bblk1 V c t (ix2 0 b) = barr1 V c (ix2 0 q) := by
  unfold bblk1 iblk1
  rw [View.read_apply]
  show barr1 V c _ = barr1 V c _
  congr 1
  funext d
  apply Fin.ext
  match d with
  | ⟨0, _⟩ => show win1_2.index t 0 * 1 + 1 * 0 = 0; rw [(idx1_2 t).1]
  | ⟨1, _⟩ => show win1_2.index t 1 * 1024 + 1 * b.val = q.val; rw [(idx1_2 t).2, hq]; omega

/-! ## The accumulator along a run of four contraction blocks -/

/-- The product of the two blocks of position `n` at entry (a, b); zero past the grid. -/
def prod1N (c : Dev nD) (a : Fin 512) (b : Fin 1024) (n : ℕ) : EReal :=
  if h : n < cfg1.N then ∑ kk : Fin 1024, xblk1 V c ⟨n, h⟩ (ix2 a kk) * wblk1 V c ⟨n, h⟩ (ix2 kk b) else 0

/-- The accumulator's entry (a, b) after position `n`; zero past the grid. -/
def acc1N (c : Dev nD) (a : Fin 512) (b : Fin 1024) (n : ℕ) : EReal :=
  if h : n < cfg1.N then (outsAt1 V c n h).2 (ix2 a b) else 0

/-- At a first contraction block the accumulator is 0 + that position's product. -/
theorem acc1N_first (c : Dev nD) (a : Fin 512) (b : Fin 1024) (n : ℕ) (hn : n < cfg1.N) (h0 : n % 4 = 0) :
    acc1N V c a b n = 0 + prod1N V c a b n := by
  unfold acc1N prod1N
  rw [dif_pos hn, dif_pos hn, outsAt1_first V c ⟨n, hn⟩ h0]
  dsimp only
  refine (congrFun (acc1_first_eq V c ⟨n, hn⟩ _ _) (ix2 a b)).trans ?_
  refine (k1pay2_apply (k1_pay1 (F := Ideal)) (xblk1 V c ⟨n, hn⟩) (wblk1 V c ⟨n, hn⟩) a b).trans ?_
  rw [k1pay1_apply]

/-- At a later block it is what the position before left plus this position's product. -/
theorem acc1N_next (c : Dev nD) (a : Fin 512) (b : Fin 1024) (n : ℕ) (hn : n < cfg1.N) (h0 : ¬n % 4 = 0) :
    acc1N V c a b n = acc1N V c a b (n - 1) + prod1N V c a b n := by
  have hn' : n - 1 < cfg1.N := Nat.lt_of_le_of_lt (Nat.sub_le _ _) hn
  unfold acc1N prod1N
  rw [dif_pos hn, dif_pos hn, dif_pos hn']
  by_cases h1 : n % 4 = 3
  · rw [outsAt1_last V c ⟨n, hn⟩ h0 h1]
    dsimp only
    refine (congrFun (acc1_last_eq V c ⟨n, hn⟩ _ _ (outsAt1 V c (n - 1) hn').2) (ix2 a b)).trans ?_
    exact k1pay2_apply (outsAt1 V c (n - 1) hn').2 (xblk1 V c ⟨n, hn⟩) (wblk1 V c ⟨n, hn⟩) a b
  · rw [outsAt1_mid V c ⟨n, hn⟩ h0 h1]
    dsimp only
    refine (congrFun (acc1_mid_eq V c ⟨n, hn⟩ _ _ (outsAt1 V c (n - 1) hn').2) (ix2 a b)).trans ?_
    exact k1pay2_apply (outsAt1 V c (n - 1) hn').2 (xblk1 V c ⟨n, hn⟩) (wblk1 V c ⟨n, hn⟩) a b

/-- After the last block of a run the accumulator is the sum of the run's four products. -/
theorem acc1N_last (c : Dev nD) (a : Fin 512) (b : Fin 1024) (n : ℕ) (hn : n < cfg1.N) (h3 : n % 4 = 3) :
    acc1N V c a b n = ∑ j : Fin 4, prod1N V c a b (4 * (n / 4) + j.val) :=
  Blocks.fold_at_last 4 (by decide) cfg1.N (acc1N V c a b) (prod1N V c a b)
    (fun m hm h => acc1N_first V c a b m hm h) (fun m hm h => acc1N_next V c a b m hm h) n hn (by omega)

/-! ## The stored output block, at an entry, is the dense layer's entry -/

/-- The four products of a run, summed at (a, b), are the whole contraction Σ_k x (p, k) · w (k, q) at the array
    coordinates of that entry: block j of the run covers k = 1024 · j + kk. -/
theorem run1_sum (c : Dev nD) (t : Fin cfg1.N) (h3 : t.val % 4 = 3) (a : Fin 512) (b : Fin 1024) (p : Fin 1024) (q : Fin 8192)
    (hp : p.val = 512 * (t.val / 32) + a.val) (hq : q.val = 1024 * (t.val / 4 % 8) + b.val) :
    ∑ j : Fin 4, prod1N V c a b (4 * (t.val / 4) + j.val) = ∑ k : Fin 4096, xarr1 V c (ix2 p k) * warr1 V c (ix2 k q) := by
  have hN : t.val < 64 := lt_of_lt_of_eq t.isLt (show cfg1.N = 64 from N_1)
  rw [Blocks.sum_blocks 4 1024 4096 rfl (fun k => xarr1 V c (ix2 p k) * warr1 V c (ix2 k q))]
  refine Finset.sum_congr rfl fun j _ => ?_
  have hj := j.isLt
  have hlt : 4 * (t.val / 4) + j.val < cfg1.N := lt_of_lt_of_eq (show 4 * (t.val / 4) + j.val < 64 by omega) (show 64 = cfg1.N from N_1.symm)
  unfold prod1N
  rw [dif_pos hlt]
  refine Finset.sum_congr rfl fun kk _ => ?_
  have hkk := kk.isLt
  rw [xblk1_apply V c ⟨4 * (t.val / 4) + j.val, hlt⟩ a kk p ⟨1024 * j.val + kk.val, Blocks.pos_lt (by rfl : 4 * 1024 = 4096) j kk⟩
      (by show p.val = 512 * ((4 * (t.val / 4) + j.val) / 32) + a.val; rw [hp]; omega)
      (by show 1024 * j.val + kk.val = 1024 * ((4 * (t.val / 4) + j.val) % 4) + kk.val; omega),
    wblk1_apply V c ⟨4 * (t.val / 4) + j.val, hlt⟩ kk b ⟨1024 * j.val + kk.val, Blocks.pos_lt (by rfl : 4 * 1024 = 4096) j kk⟩ q
      (by show 1024 * j.val + kk.val = 1024 * ((4 * (t.val / 4) + j.val) % 4) + kk.val; omega)
      (by show q.val = 1024 * ((4 * (t.val / 4) + j.val) / 4 % 8) + b.val; rw [hq]; omega)]

/-- What a last block stores into the output block, at entry (a, b): the dense layer's entry at the array
    coordinates. -/
theorem out1_entry (c : Dev nD) (t : Fin cfg1.N) (h3 : t.val % 4 = 3) (a : Fin 512) (b : Fin 1024) (p : Fin 1024) (q : Fin 8192)
    (hp : p.val = 512 * (t.val / 32) + a.val) (hq : q.val = 1024 * (t.val / 4 % 8) + b.val) :
    (outsAt1 V c t.val t.isLt).1 (ix2 a b) = Dense.entry (xarr1 V c) (warr1 V c) (barr1 V c) p q := by
  have h0 : ¬t.val % 4 = 0 := by omega
  have hn' : t.val - 1 < cfg1.N := Nat.lt_of_le_of_lt (Nat.sub_le _ _) t.isLt
  have hacc := acc1N_last V c a b t.val t.isLt h3
  unfold acc1N at hacc
  rw [dif_pos t.isLt, outsAt1_last V c t h0 h3] at hacc
  dsimp only at hacc
  rw [outsAt1_last V c t h0 h3]
  dsimp only
  refine (congrFun (out1_last_eq V c t _ _ (outsAt1 V c (t.val - 1) hn').2) (ix2 a b)).trans ?_
  refine (k1pay3_apply (k1_pay2 (outsAt1 V c (t.val - 1) hn').2 (xblk1 V c t) (wblk1 V c t)) (bblk1 V c t) a b).trans ?_
  unfold Dense.entry
  rw [← run1_sum V c t h3 a b p q hp hq, ← hacc, bblk1_apply V c t b q hq]
  refine congrArg (fun z => z + barr1 V c (ix2 0 q)) ?_
  exact (congrFun (acc1_last_eq V c t _ _ (outsAt1 V c (t.val - 1) hn').2) (ix2 a b)).symm

/-! ## The output array after the region -/

/-- The dense layer of the three arrays, as one whole-array function. -/
abbrev G1 (c : Dev nD) : Vec Ideal S1024x8192 .bf16 := Dense.layer (xarr1 V c) (warr1 V c) (barr1 V c)

/-- What a writing-back point writes is the layer read through the point's block. -/
theorem flushed1_eq (c : Dev nD) (t : Fin cfg1.N) (hf : (cfg1.win 3).flush t = true) :
    (dat1 V c).flushed 3 t = ((cfg1.win 3).blk t).view.read (Elt Ideal) (G1 V c) := by
  have h3 : t.val % 4 = 3 := (flush1_3 t).mp hf
  have hN : t.val < 64 := lt_of_lt_of_eq t.isLt (show cfg1.N = 64 from N_1)
  show (cfg1.win 3).cut (grid1.coords t) ((dat1 V c).after 3 t) = _
  rw [after1_3]
  funext j
  obtain ⟨a, b, rfl⟩ : ∃ (a : Fin 512) (b : Fin 1024), j = ix2 a b := ⟨j 0, j 1, eq_ix2 j⟩
  have ha := a.isLt
  have hb := b.isLt
  have hp : 512 * (t.val / 32) + a.val < 1024 := by omega
  have hq : 1024 * (t.val / 4 % 8) + b.val < 8192 := by omega
  rw [View.read_apply]
  refine (out1_entry V c t h3 a b ⟨_, hp⟩ ⟨_, hq⟩ rfl rfl).trans ?_
  show G1 V c (ix2 _ _) = G1 V c _
  congr 1
  funext d
  apply Fin.ext
  match d with
  | ⟨0, _⟩ => show 512 * (t.val / 32) + a.val = win1_3.index t 0 * 512 + 1 * a.val; rw [(idx1_3 t).1]; omega
  | ⟨1, _⟩ => show 1024 * (t.val / 4 % 8) + b.val = win1_3.index t 1 * 1024 + 1 * b.val; rw [(idx1_3 t).2]; omega

/-- Every entry of the output array lies in the block of a writing-back point: (p, q) in that of
    t = 32 · (p / 512) + 4 · (q / 1024) + 3. -/
theorem cover1 (c : Dev nD) (i : ((cfg1.win 3).arr.view.loc ((c : Thread nD τ))).2.ty.Idx) :
    ∃ t : Fin cfg1.N, (cfg1.win 3).flush t = true ∧ i ∈ ((cfg1.win 3).blk t).view.set := by
  have h0 : (i 0 : Nat) < 1024 := (i 0).isLt
  have h1 : (i 1 : Nat) < 8192 := (i 1).isLt
  have hlt : 32 * ((i 0 : Nat) / 512) + 4 * ((i 1 : Nat) / 1024) + 3 < cfg1.N :=
    lt_of_lt_of_eq (show 32 * ((i 0 : Nat) / 512) + 4 * ((i 1 : Nat) / 1024) + 3 < 64 by omega) (show 64 = cfg1.N from N_1.symm)
  refine ⟨⟨32 * ((i 0 : Nat) / 512) + 4 * ((i 1 : Nat) / 1024) + 3, hlt⟩, (flush1_3 _).mpr (by show (32 * ((i 0 : Nat) / 512) + 4 * ((i 1 : Nat) / 1024) + 3) % 4 = 3; omega), ?_⟩
  show i ∈ ((View.whole main_v21).slice (win1_3.rect ⟨32 * ((i 0 : Nat) / 512) + 4 * ((i 1 : Nat) / 1024) + 3, hlt⟩)).set
  rw [View.set_slice_whole, Rect.mem_set_unit]
  intro d
  match d with
  | ⟨0, _⟩ =>
    show win1_3.index ⟨32 * ((i 0 : Nat) / 512) + 4 * ((i 1 : Nat) / 1024) + 3, hlt⟩ 0 * 512 ≤ (i 0 : Nat) ∧ (i 0 : Nat) < win1_3.index ⟨32 * ((i 0 : Nat) / 512) + 4 * ((i 1 : Nat) / 1024) + 3, hlt⟩ 0 * 512 + 512
    rw [(idx1_3 _).1]
    show (32 * ((i 0 : Nat) / 512) + 4 * ((i 1 : Nat) / 1024) + 3) / 32 * 512 ≤ (i 0 : Nat) ∧ (i 0 : Nat) < (32 * ((i 0 : Nat) / 512) + 4 * ((i 1 : Nat) / 1024) + 3) / 32 * 512 + 512
    omega
  | ⟨1, _⟩ =>
    show win1_3.index ⟨32 * ((i 0 : Nat) / 512) + 4 * ((i 1 : Nat) / 1024) + 3, hlt⟩ 1 * 1024 ≤ (i 1 : Nat) ∧ (i 1 : Nat) < win1_3.index ⟨32 * ((i 0 : Nat) / 512) + 4 * ((i 1 : Nat) / 1024) + 3, hlt⟩ 1 * 1024 + 1024
    rw [(idx1_3 _).2]
    show (32 * ((i 0 : Nat) / 512) + 4 * ((i 1 : Nat) / 1024) + 3) / 4 % 8 * 1024 ≤ (i 1 : Nat) ∧ (i 1 : Nat) < (32 * ((i 0 : Nat) / 512) + 4 * ((i 1 : Nat) / 1024) + 3) / 4 % 8 * 1024 + 1024
    omega

/-- The output array after the region, at entry (p, q): Σ_k x (p, k) · w (k, q) + b (0, q). -/
theorem arr1_apply (c : Dev nD) (p : Fin 1024) (q : Fin 8192) :
    (dat1 (F := Ideal) V c).arrAt 3 cfg1.N (ix2 p q) = Dense.entry (V c main_v19) (V c main_v14) (V c main_v20) p q :=
  congrFun ((dat1 V c).arrAt_eq_of_cover 3 (G1 V c) (flushed1_eq V c) (cover1 c)) (ix2 p q)

end Entry

end Cert.KernelIdeal.Hand

end
-- ==== Proof.KI.R2ValueA.lean ====
/-
  Region 2 (the third tiled matrix product, whose store is the positive part of accumulator + bias): what each control
  case leaves, as the body's arithmetic on the blocks it reads; and that arithmetic read at one entry on the extended
  reals.

  At a first contraction block the accumulator ends at 0 + (x block)·(w block); at any later block at its previous
  contents plus the block product; at the last block the output block also receives max(accumulator + bias row, 0).
  At entry (a, b) of a block the product is Σ_kk x (a, kk) · w (kk, b) and the bias row contributes its entry in column
  b; a change of float format does nothing to an extended real.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«113652_j49297634623952_1_alg».proof.Proof.LibPlainDot
import proofs.«113652_j49297634623952_1_alg».proof.Proof.KI.R2Dat
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rank-2 buffer's zero offsets are the constant zero function. -/
theorem zeros2 : (![0, 0] : Fin 2 → Nat) = fun _ => 0 := funext fun a => by fin_cases a <;> rfl

section Entry
variable (V : (c : Dev nD) → (b : Ref sig .tc) → Buf (Elt F) ((c : Thread nD τ).loc b))

/-! ## What each case leaves, as the body's arithmetic on the blocks -/

/-- First block: the cleared accumulator, read back, takes the block product. -/
theorem acc2_first_eq (c : Dev nD) (t : Fin cfg2.N) (hf : isFirst2 (grid2.coords t)) (hl : ¬isLast2 (grid2.coords t)) :
    acc2_first V c t hf hl = k2_pay2 (k2_pay1 (F := F)) (iblk2 V c 0 t) (iblk2 V c 1 t) := by
  unfold acc2_first
  rw [View.read_writes_eq_canon _ _ _ (acc2_first_cover V c t hf hl)]
  unfold run2_first
  dsimp only
  sl_unfold_words
  rw [View.canon_cons_unit_zero (S := S512x1024) zeros2, View.readCov_unit_zero (S := S512x1024) _ zeros2]
  simp only [View.readAt_eq_ld, Memref.IsWhole.read_unread, (Memref.isWhole_whole cc2_scratch0).read_unread, View.ld_unit_zero (S := S512x1024) zeros2, View.ld_unit_zero (S := S1024x1024) zeros2]

/-- Middle block: the previous contents take the block product. -/
theorem acc2_mid_eq (c : Dev nD) (t : Fin cfg2.N) (hf : ¬isFirst2 (grid2.coords t)) (hl : ¬isLast2 (grid2.coords t)) (xs : Vec F S512x1024 .f32) :
    acc2_mid V c t hf hl xs = k2_pay2 xs (iblk2 V c 0 t) (iblk2 V c 1 t) := by
  unfold acc2_mid
  rw [View.read_writes_eq_canon _ _ _ (acc2_mid_cover V c t hf hl xs)]
  unfold run2_mid
  dsimp only
  sl_unfold_words
  rw [View.canon_unit_zero (S := S512x1024) zeros2]
  simp only [View.readAt_eq_ld, Memref.IsWhole.read_unread, (Memref.isWhole_whole cc2_scratch0).read_unread, View.ld_unit_zero (S := S512x1024) zeros2, View.ld_unit_zero (S := S1024x1024) zeros2]

/-- Last block, the accumulator: likewise. -/
theorem acc2_last_eq (c : Dev nD) (t : Fin cfg2.N) (hf : ¬isFirst2 (grid2.coords t)) (hl : isLast2 (grid2.coords t)) (xs : Vec F S512x1024 .f32) :
    acc2_last V c t hf hl xs = k2_pay2 xs (iblk2 V c 0 t) (iblk2 V c 1 t) := by
  unfold acc2_last
  rw [View.read_writes_eq_canon _ _ _ (acc2_last_cover V c t hf hl xs)]
  unfold run2_last
  dsimp only
  sl_unfold_words
  rw [View.canon_unit_zero (S := S512x1024) zeros2]
  simp only [View.readAt_eq_ld, Memref.IsWhole.read_unread, (Memref.isWhole_whole cc2_scratch0).read_unread, View.ld_unit_zero (S := S512x1024) zeros2, View.ld_unit_zero (S := S1024x1024) zeros2]

/-- Last block, the output block: the positive part of (the accumulator just stored + the bias row), in the output's format. -/
theorem out2_last_eq (c : Dev nD) (t : Fin cfg2.N) (hf : ¬isFirst2 (grid2.coords t)) (hl : isLast2 (grid2.coords t)) (xs : Vec F S512x1024 .f32) :
    out2_last V c t hf hl xs = k2_pay3 (k2_pay2 xs (iblk2 V c 0 t) (iblk2 V c 1 t)) (iblk2 V c 2 t) := by
  unfold out2_last
  rw [View.read_writes_eq_canon _ _ _ (out2_last_cover V c t hf hl xs)]
  unfold run2_last
  dsimp only
  sl_unfold_words
  rw [View.canon_unit_zero (S := S512x1024) zeros2]
  simp only [View.readAt_eq_ld, Memref.IsWhole.read_unread, (Memref.isWhole_whole cc2_scratch0).read_unread, View.readCov_unit_zero (S := S512x1024) _ zeros2, View.ld_unit_zero (S := S512x1024) zeros2, View.ld_unit_zero (S := S1024x1024) zeros2, View.ld_unit_zero (S := S1x1024) zeros2]

end Entry

section AtIdeal
open Idealize.ShloMosaic.ValueIdx

/-! ## The body's arithmetic read at an entry, on the extended reals -/

/-- The cleared accumulator is 0 at every entry. -/
theorem k2pay1_apply (a : Fin 512) (b : Fin 1024) : k2_pay1 (F := Ideal) (ix2 a b) = 0 := by
  unfold k2_pay1
  simp only [shapeCast_self]
  exact Ideal.ofBits_zero_f32

/-- One accumulation step at entry (a, b): the previous entry plus the block product's entry. -/
theorem k2pay2_apply (xs : Vec Ideal S512x1024 .f32) (x : Vec Ideal S512x1024 .bf16) (w : Vec Ideal S1024x1024 .bf16) (a : Fin 512) (b : Fin 1024) :
    k2_pay2 (F := Ideal) xs x w (ix2 a b) = xs (ix2 a b) + ∑ kk : Fin 1024, x (ix2 a kk) * w (ix2 kk b) := by
  unfold k2_pay2
  simp only [shapeCast_self]
  refine (addf_apply _ _ _).trans ?_
  exact congrArg (fun z => xs (ix2 a b) + z) (PlainDot.matmul_zero_apply 512 1024 1024 x w a b)

/-- The stored output at entry (a, b): the positive part of accumulator entry + bias entry of column b. -/
theorem k2pay3_apply (acc : Vec Ideal S512x1024 .f32) (bias : Vec Ideal S1x1024 .f32) (a : Fin 512) (b : Fin 1024) :
    k2_pay3 (F := Ideal) acc bias (ix2 a b) = max (acc (ix2 a b) + bias (ix2 0 b)) 0 := by
  unfold k2_pay3
  simp only [shapeCast_self]
  refine (truncf_apply (φ := .f32) (ψ := .bf16) _ bitsLt_bf16_f32 (ix2 a b)).trans ?_
  refine (maximumf_apply _ _ _).trans ?_
  refine congrArg₂ max ?_ Ideal.ofBits_zero_f32
  refine (addf_apply _ _ _).trans ?_
  exact congrArg (fun z => acc (ix2 a b) + z) (broadcastTo_apply bias _ (ix2 a b) (ix2 0 b) (fun ax => by fin_cases ax <;> rfl))

end AtIdeal

end Cert.KernelIdeal.Hand

end
-- ==== Proof.KI.R2ValueB.lean ====
/-
  Region 2: where each window's block sits in its array. Point t of the 2 × 2 × 8 grid has coordinates
  (i, j, k) = (t / 16, (t / 8) % 2, t % 8). The left operand's block is block (i, k) of the 1024 × 8192 array in blocks of
  512 × 1024; the right operand's is block (k, j) of the 8192 × 2048 array in blocks of 1024 × 1024; the bias row's is
  block (0, j) of the 1 × 2048 row in blocks of 1 × 1024; the output's is block (i, j) of the 1024 × 2048 array in blocks
  of 512 × 1024. So an entry of a block is the array's entry at the block's offset plus the entry's coordinates.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«113652_j49297634623952_1_alg».proof.Proof.KI.R2Dat
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The block indices over the grid -/

theorem N2_eq : cfg2.N = 32 := N_2
/-- Left operand: block (t / 16, t % 8). -/
theorem index2_0 : ∀ t : Fin cfg2.N, win2_0.index t 0 = t.val / 16 ∧ win2_0.index t 1 = t.val % 8 :=
  (by decide +kernel : ∀ t : Fin grid2.N, win2_0.index t 0 = t.val / 16 ∧ win2_0.index t 1 = t.val % 8)
/-- Right operand: block (t % 8, (t / 8) % 2). -/
theorem index2_1 : ∀ t : Fin cfg2.N, win2_1.index t 0 = t.val % 8 ∧ win2_1.index t 1 = (t.val / 8) % 2 :=
  (by decide +kernel : ∀ t : Fin grid2.N, win2_1.index t 0 = t.val % 8 ∧ win2_1.index t 1 = (t.val / 8) % 2)
/-- Bias row: block (0, (t / 8) % 2). -/
theorem index2_2 : ∀ t : Fin cfg2.N, win2_2.index t 0 = 0 ∧ win2_2.index t 1 = (t.val / 8) % 2 :=
  (by decide +kernel : ∀ t : Fin grid2.N, win2_2.index t 0 = 0 ∧ win2_2.index t 1 = (t.val / 8) % 2)
/-- Output: block (t / 16, (t / 8) % 2). -/
theorem index2_3 : ∀ t : Fin cfg2.N, win2_3.index t 0 = t.val / 16 ∧ win2_3.index t 1 = (t.val / 8) % 2 :=
  (by decide +kernel : ∀ t : Fin grid2.N, win2_3.index t 0 = t.val / 16 ∧ win2_3.index t 1 = (t.val / 8) % 2)

/-! ## The rows and columns a point's blocks cover -/

/-- Row a of the point's row block, as a row of a 1024-row array. -/
def row2 (t : Fin cfg2.N) (a : Fin 512) : Fin 1024 :=
  ⟨512 * (t.val / 16) + a.val, by have := lt_of_lt_of_eq t.isLt N2_eq; have := a.isLt; omega⟩
/-- Column b of the point's column block, as a column of a 2048-column array. -/
def col2 (t : Fin cfg2.N) (b : Fin 1024) : Fin 2048 :=
  ⟨1024 * ((t.val / 8) % 2) + b.val, by have := b.isLt; omega⟩
/-- Position kk of the point's contraction block, as a position on the 8192-long shared axis. -/
def mid2 (t : Fin cfg2.N) (kk : Fin 1024) : Fin 8192 :=
  ⟨1024 * (t.val % 8) + kk.val, by have := kk.isLt; omega⟩

section Entry
variable (V : (c : Dev nD) → (b : Ref sig .tc) → Buf (Elt F) ((c : Thread nD τ).loc b))

/-- The point's three input blocks, at their literal types. -/
abbrev xblk2 (c : Dev nD) (t : Fin cfg2.N) : Vec F S512x1024 .bf16 := iblk2 V c 0 t
abbrev wblk2 (c : Dev nD) (t : Fin cfg2.N) : Vec F S1024x1024 .bf16 := iblk2 V c 1 t
abbrev bblk2 (c : Dev nD) (t : Fin cfg2.N) : Vec F S1x1024 .f32 := iblk2 V c 2 t
/-- The region's three input arrays, at their literal types. -/
abbrev xarr2 (c : Dev nD) : Vec F S1024x8192 .bf16 := V c main_v21
abbrev warr2 (c : Dev nD) : Vec F S8192x2048 .bf16 := V c main_v16
abbrev barr2 (c : Dev nD) : Vec F S1x2048 .f32 := V c main_v22

/-- Entry (a, kk) of the left operand's block is the array's entry (row a of the row block, position kk of the contraction block). -/
theorem xblk2_apply (c : Dev nD) (t : Fin cfg2.N) (a : Fin 512) (kk : Fin 1024) :
    xblk2 V c t (ix2 a kk) = xarr2 V c (ix2 (row2 t a) (mid2 t kk)) := by
  obtain ⟨h0, h1⟩ := index2_0 t
  unfold xblk2 xarr2 iblk2
  rw [View.read_apply]
  show V c main_v21 _ = V c main_v21 _
  congr 1
  funext ax
  apply Fin.ext
  match ax with
  | ⟨0, _⟩ => show win2_0.index t 0 * 512 + 1 * a.val = 512 * (t.val / 16) + a.val; rw [h0]; omega
  | ⟨1, _⟩ => show win2_0.index t 1 * 1024 + 1 * kk.val = 1024 * (t.val % 8) + kk.val; rw [h1]; omega

/-- Entry (kk, b) of the right operand's block is the array's entry (position kk of the contraction block, column b of the column block). -/
theorem wblk2_apply (c : Dev nD) (t : Fin cfg2.N) (kk : Fin 1024) (b : Fin 1024) :
    wblk2 V c t (ix2 kk b) = warr2 V c (ix2 (mid2 t kk) (col2 t b)) := by
  obtain ⟨h0, h1⟩ := index2_1 t
  unfold wblk2 warr2 iblk2
  rw [View.read_apply]
  show V c main_v16 _ = V c main_v16 _
  congr 1
  funext ax
  apply Fin.ext
  match ax with
  | ⟨0, _⟩ => show win2_1.index t 0 * 1024 + 1 * kk.val = 1024 * (t.val % 8) + kk.val; rw [h0]; omega
  | ⟨1, _⟩ => show win2_1.index t 1 * 1024 + 1 * b.val = 1024 * ((t.val / 8) % 2) + b.val; rw [h1]; omega

/-- Entry (0, b) of the bias row's block is the row's entry in column b of the column block. -/
theorem bblk2_apply (c : Dev nD) (t : Fin cfg2.N) (b : Fin 1024) :
    bblk2 V c t (ix2 0 b) = barr2 V c (ix2 0 (col2 t b)) := by
  obtain ⟨h0, h1⟩ := index2_2 t
  unfold bblk2 barr2 iblk2
  rw [View.read_apply]
  show V c main_v22 _ = V c main_v22 _
  congr 1
  funext ax
  apply Fin.ext
  match ax with
  | ⟨0, _⟩ => show win2_2.index t 0 * 1 + 1 * 0 = 0; rw [h0]
  | ⟨1, _⟩ => show win2_2.index t 1 * 1024 + 1 * b.val = 1024 * ((t.val / 8) % 2) + b.val; rw [h1]; omega

/-- The output's block at point t of any contents G of the output array, at entry (a, b): G at (row a of the row block,
    column b of the column block). -/
theorem oblk2_read (c : Dev nD) (t : Fin cfg2.N) (G : Vec F S1024x2048 .bf16) (a : Fin 512) (b : Fin 1024) :
    (((cfg2.win 3).blk t).view.read (Elt F) (G : Buf (Elt F) ((c : Thread nD τ).loc main_v23)) : Vec F S512x1024 .bf16) (ix2 a b)
      = G (ix2 (row2 t a) (col2 t b)) := by
  obtain ⟨h0, h1⟩ := index2_3 t
  rw [View.read_apply]
  show G _ = G _
  congr 1
  funext ax
  apply Fin.ext
  match ax with
  | ⟨0, _⟩ => show win2_3.index t 0 * 512 + 1 * a.val = 512 * (t.val / 16) + a.val; rw [h0]; omega
  | ⟨1, _⟩ => show win2_3.index t 1 * 1024 + 1 * b.val = 1024 * ((t.val / 8) % 2) + b.val; rw [h1]; omega

end Entry

/-! ## The output's blocks at the writing-back points cover the output array -/

/-- The extents of what a write-back moves: the whole 512 × 1024 block, at every point. -/
theorem xsize2_3 : ∀ t : Fin cfg2.N, win2_3.xsize (grid2.coords t) 0 = 512 ∧ win2_3.xsize (grid2.coords t) 1 = 1024 :=
  (by decide +kernel : ∀ t : Fin grid2.N, win2_3.xsize (grid2.coords t) 0 = 512 ∧ win2_3.xsize (grid2.coords t) 1 = 1024)

/-- The last point of the run that computes entry (p, q)'s block. -/
def lastPt2 (p : Fin 1024) (q : Fin 2048) : Fin cfg2.N :=
  ⟨16 * (p.val / 512) + 8 * (q.val / 1024) + 7, by rw [N2_eq]; have := p.isLt; have := q.isLt; omega⟩

theorem lastPt2_flush (p : Fin 1024) (q : Fin 2048) : (cfg2.win 3).flush (lastPt2 p q) = true :=
  (flush2_3 (lastPt2 p q)).mpr (by show (16 * (p.val / 512) + 8 * (q.val / 1024) + 7) % 8 = 7; omega)

/-- Every entry of the output array lies in the block written back at the last point of its run. -/
theorem cover2_3 (i : S1024x2048.Idx) : i ∈ ((cfg2.win 3).blk (lastPt2 (i 0) (i 1))).view.set := by
  obtain ⟨h0, h1⟩ := index2_3 (lastPt2 (i 0) (i 1))
  obtain ⟨s0, s1⟩ := xsize2_3 (lastPt2 (i 0) (i 1))
  have hp : (i 0 : Nat) < 1024 := (i 0).isLt
  have hq : (i 1 : Nat) < 2048 := (i 1).isLt
  have hv : (lastPt2 (i 0) (i 1)).val = 16 * ((i 0 : Nat) / 512) + 8 * ((i 1 : Nat) / 1024) + 7 := rfl
  show i ∈ ((View.whole main_v23).slice (win2_3.rect (lastPt2 (i 0) (i 1)))).set
  rw [View.set_slice_whole, Rect.mem_set_unit]
  intro ax
  match ax with
  | ⟨0, _⟩ =>
    show win2_3.index (lastPt2 (i 0) (i 1)) 0 * 512 ≤ (i 0 : Nat) ∧ (i 0 : Nat) < win2_3.index (lastPt2 (i 0) (i 1)) 0 * 512 + win2_3.xsize (grid2.coords (lastPt2 (i 0) (i 1))) 0
    rw [h0, s0, hv]; omega
  | ⟨1, _⟩ =>
    show win2_3.index (lastPt2 (i 0) (i 1)) 1 * 1024 ≤ (i 1 : Nat) ∧ (i 1 : Nat) < win2_3.index (lastPt2 (i 0) (i 1)) 1 * 1024 + win2_3.xsize (grid2.coords (lastPt2 (i 0) (i 1))) 1
    rw [h1, s1, hv]; omega

end Cert.KernelIdeal.Hand

end
-- ==== Proof.KI.R2ValueC.lean ====
/-
  Region 2: the value of the output array after the region, on the extended reals.

  Fix an entry (a, b) of a block. Along a run of eight consecutive points (one per contraction block) the accumulator's
  entry starts at 0 + the first block product's entry and grows by one block product's entry per point, so after the
  run's last point it is the sum of the eight block products' entries. Each block product's entry is a sum over 1024
  positions of the shared axis, the eight blocks tile that axis, and addition of extended reals is commutative and
  associative: the accumulator's entry is the full sum Σ_k x (row, k) · w (k, column). The last point stores the positive
  part of that plus the bias entry, and the blocks written back tile the output array. So the array ends holding
  max(x·w + bias, 0) at every entry.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«113652_j49297634623952_1_alg».proof.Proof.LibBlocks
import proofs.«113652_j49297634623952_1_alg».proof.Proof.LibDense
import proofs.«113652_j49297634623952_1_alg».proof.Proof.KI.R2ValueA
import proofs.«113652_j49297634623952_1_alg».proof.Proof.KI.R2ValueB
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.Dense

section AtIdeal
variable (V : (c : Dev nD) → (b : Ref sig .tc) → Buf (Elt Ideal) ((c : Thread nD τ).loc b))

/-! ## The accumulator's entry along the points -/

/-- Entry (a, b) of the product of the two blocks of point `n` (0 past the grid's end). -/
def prod2 (c : Dev nD) (a : Fin 512) (b : Fin 1024) (n : ℕ) : EReal :=
  if h : n < cfg2.N then ∑ kk : Fin 1024, xblk2 V c ⟨n, h⟩ (ix2 a kk) * wblk2 V c ⟨n, h⟩ (ix2 kk b) else 0
/-- Entry (a, b) of the accumulator after point `n` (0 past the grid's end). -/
def accAt2 (c : Dev nD) (a : Fin 512) (b : Fin 1024) (n : ℕ) : EReal :=
  if h : n < cfg2.N then (outsAt2 V c n h).2 (ix2 a b) else 0

/-- At a first contraction block the entry is 0 plus the block product's. -/
theorem accAt2_first (c : Dev nD) (a : Fin 512) (b : Fin 1024) (n : ℕ) (hn : n < cfg2.N) (h0 : n % 8 = 0) :
    accAt2 V c a b n = 0 + prod2 V c a b n := by
  unfold accAt2 prod2
  rw [dif_pos hn, dif_pos hn, outsAt2_first V c ⟨n, hn⟩ h0]
  dsimp only
  rw [acc2_first_eq]
  refine (k2pay2_apply (k2_pay1 (F := Ideal)) (xblk2 V c ⟨n, hn⟩) (wblk2 V c ⟨n, hn⟩) a b).trans ?_
  rw [k2pay1_apply]

/-- At any later block it is the previous point's entry plus the block product's. -/
theorem accAt2_next (c : Dev nD) (a : Fin 512) (b : Fin 1024) (n : ℕ) (hn : n < cfg2.N) (h0 : ¬n % 8 = 0) :
    accAt2 V c a b n = accAt2 V c a b (n - 1) + prod2 V c a b n := by
  have hn1 : n - 1 < cfg2.N := Nat.lt_of_le_of_lt (Nat.sub_le _ _) hn
  unfold accAt2 prod2
  rw [dif_pos hn, dif_pos hn1, dif_pos hn]
  by_cases h7 : n % 8 = 7
  · rw [outsAt2_last V c ⟨n, hn⟩ h0 h7]
    dsimp only
    rw [acc2_last_eq]
    exact k2pay2_apply ((outsAt2 V c (n - 1) hn1).2) (xblk2 V c ⟨n, hn⟩) (wblk2 V c ⟨n, hn⟩) a b
  · rw [outsAt2_mid V c ⟨n, hn⟩ h0 h7]
    dsimp only
    rw [acc2_mid_eq]
    exact k2pay2_apply ((outsAt2 V c (n - 1) hn1).2) (xblk2 V c ⟨n, hn⟩) (wblk2 V c ⟨n, hn⟩) a b

/-- So after the last point of a run it is the sum of the run's eight block products' entries. -/
theorem accAt2_last (c : Dev nD) (a : Fin 512) (b : Fin 1024) (t : Fin cfg2.N) (h7 : t.val % 8 = 7) :
    accAt2 V c a b t.val = ∑ j : Fin 8, prod2 V c a b (8 * (t.val / 8) + j.val) :=
  Blocks.fold_at_last 8 (by decide) cfg2.N (accAt2 V c a b) (prod2 V c a b) (accAt2_first V c a b) (accAt2_next V c a b)
    t.val t.isLt (by omega)

/-! ## The block products over the arrays, and the full sum -/

/-- A block product's entry, over the arrays' entries. -/
theorem prod2_eq (c : Dev nD) (a : Fin 512) (b : Fin 1024) (n : ℕ) (hn : n < cfg2.N) :
    prod2 V c a b n = ∑ kk : Fin 1024, xarr2 V c (ix2 (row2 ⟨n, hn⟩ a) (mid2 ⟨n, hn⟩ kk)) * warr2 V c (ix2 (mid2 ⟨n, hn⟩ kk) (col2 ⟨n, hn⟩ b)) := by
  unfold prod2
  rw [dif_pos hn]
  exact Finset.sum_congr rfl fun kk _ => by rw [xblk2_apply, wblk2_apply]

/-- After the last point of a run the accumulator's entry is the sum over the whole shared axis. -/
theorem accAt2_last_eq (c : Dev nD) (a : Fin 512) (b : Fin 1024) (t : Fin cfg2.N) (h7 : t.val % 8 = 7) :
    accAt2 V c a b t.val = ∑ k : Fin 8192, xarr2 V c (ix2 (row2 t a) k) * warr2 V c (ix2 k (col2 t b)) := by
  have hN := lt_of_lt_of_eq t.isLt N2_eq
  rw [accAt2_last V c a b t h7,
    Blocks.sum_blocks 8 1024 8192 rfl (fun k => xarr2 V c (ix2 (row2 t a) k) * warr2 V c (ix2 k (col2 t b)))]
  refine Finset.sum_congr rfl fun j _ => ?_
  have hjl := j.isLt
  have hj : 8 * (t.val / 8) + j.val < cfg2.N := lt_of_lt_of_eq (by omega : 8 * (t.val / 8) + j.val < 32) N2_eq.symm
  rw [prod2_eq V c a b _ hj]
  refine Finset.sum_congr rfl fun kk _ => ?_
  have e1 : row2 ⟨8 * (t.val / 8) + j.val, hj⟩ a = row2 t a :=
    Fin.ext (by show 512 * ((8 * (t.val / 8) + j.val) / 16) + a.val = 512 * (t.val / 16) + a.val; omega)
  have e2 : col2 ⟨8 * (t.val / 8) + j.val, hj⟩ b = col2 t b :=
    Fin.ext (by show 1024 * (((8 * (t.val / 8) + j.val) / 8) % 2) + b.val = 1024 * ((t.val / 8) % 2) + b.val; omega)
  have e3 : mid2 ⟨8 * (t.val / 8) + j.val, hj⟩ kk = ⟨1024 * j.val + kk.val, Blocks.pos_lt rfl j kk⟩ :=
    Fin.ext (by show 1024 * ((8 * (t.val / 8) + j.val) % 8) + kk.val = 1024 * j.val + kk.val; omega)
  rw [e1, e2, e3]

/-! ## What the last point of a run stores -/

/-- The stored output block at entry (a, b): the positive part of the dense layer's entry at (row, column). -/
theorem out2_at_last (c : Dev nD) (t : Fin cfg2.N) (h7 : t.val % 8 = 7) (a : Fin 512) (b : Fin 1024) :
    ((dat2 V c).after 3 t : Vec Ideal S512x1024 .bf16) (ix2 a b)
      = max (Dense.entry (xarr2 V c) (warr2 V c) (barr2 V c) (row2 t a) (col2 t b)) 0 := by
  have h0 : ¬t.val % 8 = 0 := by omega
  have hacc : (outsAt2 V c t.val t.isLt).2 (ix2 a b) = accAt2 V c a b t.val := by
    unfold accAt2; rw [dif_pos t.isLt]
  rw [after2_3]
  have hpair : (outsAt2 V c t.val t.isLt).1 = k2_pay3 ((outsAt2 V c t.val t.isLt).2) (bblk2 V c t) := by
    rw [outsAt2_last V c t h0 h7]
    dsimp only
    rw [out2_last_eq, acc2_last_eq]
  rw [hpair]
  refine (k2pay3_apply ((outsAt2 V c t.val t.isLt).2) (bblk2 V c t) a b).trans ?_
  rw [hacc, accAt2_last_eq V c a b t h7, bblk2_apply]
  rfl

/-! ## The output array after the region -/

/-- The positive part of the dense layer over the region's three arrays, as contents of the output array. -/
abbrev G2 (c : Dev nD) : Vec Ideal S1024x2048 .bf16 :=
  fun i => max (Dense.layer (xarr2 V c) (warr2 V c) (barr2 V c) i) 0

/-- Every write-back writes its block of it. -/
theorem flushed2_eq (c : Dev nD) (t : Fin cfg2.N) (hf : (cfg2.win 3).flush t = true) :
    (dat2 V c).flushed 3 t = ((cfg2.win 3).blk t).view.read (Elt Ideal) (G2 V c : Buf (Elt Ideal) ((c : Thread nD τ).loc main_v23)) := by
  have h7 := (flush2_3 t).mp hf
  show ((dat2 V c).after 3 t : Vec Ideal S512x1024 .bf16) = _
  funext j
  obtain ⟨a, b, rfl⟩ : ∃ (a : Fin 512) (b : Fin 1024), j = ix2 a b := ⟨j 0, j 1, eq_ix2 j⟩
  rw [out2_at_last V c t h7 a b]
  exact (oblk2_read c t (G2 V c) a b).symm

/-- The output array after the region, at entry (p, q): the positive part of the dense layer's entry. -/
theorem arr2_apply (c : Dev nD) (p : Fin 1024) (q : Fin 2048) :
    (dat2 (F := Ideal) V c).arrAt 3 cfg2.N (ix2 p q) = max (Dense.entry (V c main_v21) (V c main_v16) (V c main_v22) p q) 0 := by
  have h := (dat2 (F := Ideal) V c).arrAt_eq_of_cover 3 (G2 V c) (flushed2_eq V c)
    (fun i => ⟨lastPt2 (i 0) (i 1), lastPt2_flush (i 0) (i 1), cover2_3 i⟩)
  rw [h]
  rfl

end AtIdeal

end Cert.KernelIdeal.Hand

end
-- ==== Proof.KI.R3Value.lean ====
/-
  Region 3: the value of what its one point stores.

  First, for any float interpretation: the block the point stores into the output is the body's arithmetic applied to
  the three operand blocks (the stores the run found, read back). Then, on the extended reals, that block read at an
  entry (p, q): the accumulator is cleared to 0, the product contributes Σ_k x (p, k) · w (k, q), the bias row adds
  b (0, q); the casts between formats are the identity there. The region's one block is the whole output array, so the
  array after the region holds that value at every entry.
-/
import proofs.«113652_j49297634623952_1_alg».proof.Proof.Gen.KernelIdeal.Launch
import proofs.«113652_j49297634623952_1_alg».proof.Proof.Gen.KernelIdeal.Skeleton
import proofs.«113652_j49297634623952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import proofs.«113652_j49297634623952_1_alg».proof.Proof.LibPlainDot
import proofs.«113652_j49297634623952_1_alg».proof.Proof.LibDense
import proofs.«113652_j49297634623952_1_alg».proof.Proof.KI.R3Dat
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading whole-buffer stores back -/

/-- The zero offsets of a rank-2 buffer, as the constant function. -/
theorem zero2 : (![0, 0] : Fin 2 → Nat) = fun _ => 0 := funext fun a => by fin_cases a <;> rfl

/-- A load of a whole buffer after a list of stores whose LAST store filled the whole buffer reads that store's
    payload, whatever came before it. -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

section Entry
variable (V : (c : Dev nD) → (b : Ref sig .tc) → Buf (Elt F) ((c : Thread nD τ).loc b))

/-! ## The stored blocks as the body's arithmetic on the operand blocks -/

/-- The output block the point stores: the cleared accumulator takes the product of the two operand blocks, and the
    bias row is added to it. -/
theorem out3_only_eq (c : Dev nD) (t : Fin cfg3.N) :
    out3_only V c t = k3_pay3 (k3_pay2 (k3_pay1 (F := F)) (iblk3 V c 0 t) (iblk3 V c 1 t)) (iblk3 V c 2 t) := by
  unfold out3_only
  rw [View.read_writes_eq_canon _ _ _ (out3_only_cover V c t)]
  unfold run3_only
  dsimp only
  sl_unfold_words
  rw [View.canon_unit_zero (S := S1024x4) zero2]
  simp only [View.readAt_eq_ld, Memref.IsWhole.read_unread, readCov_cons_whole (S := S1024x4) _ zero2, View.readCov_unit_zero (S := S1024x4) _ zero2,
    View.ld_unit_zero (S := S1024x2048) zero2, View.ld_unit_zero (S := S2048x4) zero2, View.ld_unit_zero (S := S1x4) zero2]

/-! ## The operand blocks are the whole operand arrays -/

/-- The one block of the left operand is the array: the window's offsets at the point are zero. -/
theorem iblk3_0_eq (c : Dev nD) : (iblk3 V c 0 t3_0 : Vec F S1024x2048 .bf16) = V c main_v23 := by
  have hoff : (fun a => win3_0.index t3_0 a * main_v23.ty.shape.size a) = fun _ => 0 := by funext a; fin_cases a <;> decide
  exact Memref.read_access_unit_zero (Elt F) main_v23 hoff (fun a => by rw [congrFun hoff a]; simp) (V c main_v23)
/-- Likewise the right operand's, -/
theorem iblk3_1_eq (c : Dev nD) : (iblk3 V c 1 t3_0 : Vec F S2048x4 .bf16) = V c main_v17 := by
  have hoff : (fun a => win3_1.index t3_0 a * main_v17.ty.shape.size a) = fun _ => 0 := by funext a; fin_cases a <;> decide
  exact Memref.read_access_unit_zero (Elt F) main_v17 hoff (fun a => by rw [congrFun hoff a]; simp) (V c main_v17)
/-- and the bias row's. -/
theorem iblk3_2_eq (c : Dev nD) : (iblk3 V c 2 t3_0 : Vec F S1x4 .f32) = V c main_v24 := by
  have hoff : (fun a => win3_2.index t3_0 a * main_v24.ty.shape.size a) = fun _ => 0 := by funext a; fin_cases a <;> decide
  exact Memref.read_access_unit_zero (Elt F) main_v24 hoff (fun a => by rw [congrFun hoff a]; simp) (V c main_v24)

/-- A whole block written over the output array at the region's point leaves that block: the window's offsets there
    are zero and its block is the array. -/
theorem write3_whole (c : Dev nD) (f X : Buf (Elt F) ((c : Thread nD τ).loc main_v25)) :
    ((cfg3.win 3).blk t3_0).view.write (Elt F) f X Finset.univ = X := by
  have hoff : (fun a => win3_3.index t3_0 a * main_v25.ty.shape.size a) = fun _ => 0 := by funext a; fin_cases a <;> decide
  exact Memref.write_access_unit_zero_univ (Elt F) main_v25 hoff (fun a => by rw [congrFun hoff a]; simp) f X
/-- The output window moves its whole block: the part a write-back moves is all of the staging buffer's contents. -/
theorem cut3_whole {α : Type} (X : S1024x4.Idx → α) : (cfg3.win 3).cut (grid3.coords t3_0) X = X := rfl

end Entry

/-! ## On the extended reals -/

open Idealize.ShloMosaic.ValueIdx Idealize.ShloMosaic.Dense

/-- The body's arithmetic on three operand blocks, read at entry (p, q): the cleared accumulator contributes 0, the
    product the sum over the shared axis, the broadcast bias row its entry in column q. -/
theorem lay3_apply (x : Vec Ideal S1024x2048 .bf16) (w : Vec Ideal S2048x4 .bf16) (b : Vec Ideal S1x4 .f32) (p : Fin 1024) (q : Fin 4) :
    k3_pay3 (k3_pay2 (k3_pay1 (F := Ideal)) x w) b (ix2 p q) = Dense.entry x w b p q := by
  unfold k3_pay3 k3_pay2 k3_pay1
  simp only [shapeCast_self]
  refine (addf_apply _ _ _).trans ?_
  unfold Dense.entry
  refine congrArg₂ (· + ·) ?_ ?_
  · refine (addf_apply _ _ _).trans ?_
    refine (congrArg₂ (· + ·) Ideal.ofBits_zero_f32 ?_).trans (zero_add _)
    exact PlainDot.matmul_zero_apply 1024 2048 4 x w p q
  · exact broadcastTo_apply b _ (ix2 p q) (ix2 0 q) (fun a => by fin_cases a <;> rfl)

section AtIdeal
variable (V : (c : Dev nD) → (b : Ref sig .tc) → Buf (Elt Ideal) ((c : Thread nD τ).loc b))

/-- The output array after the region: the block its one point stores (that block is the whole array). -/
abbrev result3 (c : Dev nD) : Buf (Elt Ideal) ((c : Thread nD τ).loc main_v25) := out3_only V c t3_0

/-- The region's one write-back overwrites the whole output array with the stored block. -/
theorem final3 (c : Dev nD) : (dat3 (F := Ideal) V c).arrAt 3 cfg3.N = result3 V c := by
  have hfl : (dat3 (F := Ideal) V c).flushed 3 t3_0 = result3 V c := by
    show (cfg3.win 3).cut (grid3.coords t3_0) ((dat3 V c).after 3 t3_0) = _
    rw [after3_3]; exact cut3_whole _
  rw [show cfg3.N = (t3_0 : Fin cfg3.N).val + 1 from N_3, Dat.arrAt_succ, if_pos (flush3_3 t3_0), hfl]
  exact write3_whole c _ _

/-- The output array after the region, at entry (p, q): the dense layer's entry over the region's three arrays. -/
theorem arr3_apply (c : Dev nD) (p : Fin 1024) (q : Fin 4) :
    (dat3 (F := Ideal) V c).arrAt 3 cfg3.N (ix2 p q) = Dense.entry (V c main_v23) (V c main_v17) (V c main_v24) p q := by
  rw [final3]
  refine (congrFun (out3_only_eq (F := Ideal) V c t3_0) (ix2 p q)).trans ?_
  refine (lay3_apply (iblk3 V c 0 t3_0) (iblk3 V c 1 t3_0) (iblk3 V c 2 t3_0) p q).trans ?_
  rw [iblk3_0_eq, iblk3_1_eq, iblk3_2_eq]

end AtIdeal

end Cert.KernelIdeal.Hand

end
-- ==== Proof.lean ====
/-
  The certificate of a four-layer block-masked classifier: a kernel program of four tiled matrix products against the
  plain reference x·(W1∘M1)+b1, ·(W2∘M2)+b2, relu(·W3+b3), ·W4+b4.

  The kernel program builds the two masked weight arrays with the same host operations as the reference, casts its
  operands to bf16 (the identity on the extended reals), and runs each product as a pipelined kernel region: the shared
  axis is cut into blocks, an f32 accumulator is reset at a run's first block, takes one block's partial product at
  every block, and at the last block accumulator + bias row (for the third layer, its positive part) is stored into the
  output block. On the extended reals a sum may be regrouped freely, so each region's output array is the layer
  Σ_k x (p, k) · w (k, q) + b (q) of its input arrays, and the four regions compose to the same network `Dense.net` of
  the arguments that the reference's four `dot_general`s compute. No finiteness of the inputs is used.

  The frames: each region's body is run once per control case (first, middle, last block), the accumulator is carried
  from point to point by the region's invariant, and the regions are chained between the host stretches by the
  conditional frame among the program's generated modules. The reference's frame is its generated run with the result dropped.
-/
import proofs.«113652_j49297634623952_1_alg».proof.Defs
import proofs.«113652_j49297634623952_1_alg».proof.Proof.Gen.Kernel
import proofs.«113652_j49297634623952_1_alg».proof.Proof.Gen.Kernel.Skeleton
import proofs.«113652_j49297634623952_1_alg».proof.Proof.Gen.Kernel.Launch
import proofs.«113652_j49297634623952_1_alg».proof.Proof.Gen.Kernel.Regions
import proofs.«113652_j49297634623952_1_alg».proof.Proof.Gen.Kernel.Points
import proofs.«113652_j49297634623952_1_alg».proof.Proof.Gen.KernelIdeal
import proofs.«113652_j49297634623952_1_alg».proof.Proof.Gen.KernelIdeal.Skeleton
import proofs.«113652_j49297634623952_1_alg».proof.Proof.Gen.KernelIdeal.Launch
import proofs.«113652_j49297634623952_1_alg».proof.Proof.Gen.KernelIdeal.Regions
import proofs.«113652_j49297634623952_1_alg».proof.Proof.Gen.KernelIdeal.Points
import proofs.«113652_j49297634623952_1_alg».proof.Proof.Gen.ReferenceIdeal
import proofs.«113652_j49297634623952_1_alg».proof.Proof.Gen.Pre_finite_inputs
import Idealize.ShloMosaic.Adequacy
import Idealize.ShloMosaic.Init
import proofs.«113652_j49297634623952_1_alg».proof.Proof.K.Frame
import proofs.«113652_j49297634623952_1_alg».proof.Proof.KI.Frame
import proofs.«113652_j49297634623952_1_alg».proof.Proof.KI.ValueRun
import proofs.«113652_j49297634623952_1_alg».proof.Proof.RefValue
import proofs.«113652_j49297634623952_1_alg».proof.Proof.KI.KernelValue
import proofs.«113652_j49297634623952_1_alg».proof.Proof.KI.R0ValueB
import proofs.«113652_j49297634623952_1_alg».proof.Proof.KI.R1Value
import proofs.«113652_j49297634623952_1_alg».proof.Proof.KI.R2ValueC
import proofs.«113652_j49297634623952_1_alg».proof.Proof.KI.R3Value

noncomputable section

namespace Cert.Proof

open Idealize.ShloMosaic Idealize.SL.Sem

/-- The word-level kernel program runs to the end, faults nowhere and leaves its arguments as launched. -/
theorem frame_k : Cert.frame_Kernel := fun m ρ _ => Cert.Kernel.Hand.frame m ρ
/-- The same of the idealized kernel program. -/
theorem frame_ki : Cert.frame_KernelIdeal := fun m ρ _ => Cert.KernelIdeal.Hand.frame m ρ
/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with the network `Dense.net` of the arguments in their result buffer: the
    kernel program by its four regions' layers composed, the reference by its four matrix products; the arguments agree. -/
theorem algebraic : Cert.algebraic_KernelIdeal_ReferenceIdeal := by
  intro m ρ m' ρ' _ hagree
  refine ⟨fun c => Cert.KernelIdeal.Hand.o10 (F := Ideal) m c, Cert.KernelIdeal.Hand.run_value m ρ, ?_⟩
  refine (θ_run Cert.ReferenceIdeal.defs _ _).mono (fun _ h c => ⟨(h c).1.trans ?_, (h c).2⟩)
    (Cert.ReferenceIdeal.RefValue.run_net m' ρ')
  obtain ⟨e0, e1, e2, e3, e4, e5, e6, e7, e8, e9⟩ := hagree c
  rw [e0, e1, e2, e3, e4, e5, e6, e7, e8, e9]
  exact (Cert.KernelIdeal.Hand.kernel_net Cert.KernelIdeal.Hand.arr0_apply Cert.KernelIdeal.Hand.arr1_apply
    Cert.KernelIdeal.Hand.arr2_apply Cert.KernelIdeal.Hand.arr3_apply m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
